-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S1024x128 : Shape := ⟨2, ![1024, 128]⟩
abbrev S256x256 : Shape := ⟨2, ![256, 256]⟩
abbrev S256 : Shape := ⟨1, ![256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S256x256 .f32) (main_arg5 : FVec F S256 .f32) (main_arg6 : FVec F S256x256 .f32) (main_arg7 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_v33

def fn {F : FTy → Type} [FloatOps F] (main_arg0 : FVec F S1024x256 .f32) (main_arg1 : FVec F S1024x128 .f32) (main_arg2 : FVec F S256x256 .f32) (main_arg3 : FVec F S256 .f32) (main_arg4 : FVec F S256x256 .f32) (main_arg5 : FVec F S256 .f32) (main_arg6 : FVec F S256x256 .f32) (main_arg7 : FVec F S256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S1024x256 : Shape := ⟨2, ![1024, 256]⟩
abbrev S1024x128 : Shape := ⟨2, ![1024, 128]⟩
abbrev S256x256 : Shape := ⟨2, ![256, 256]⟩
abbrev S256 : Shape := ⟨1, ![256]⟩
abbrev S1x256 : Shape := ⟨2, ![1, 256]⟩
abbrev S1024x1 : Shape := ⟨2, ![1024, 1]⟩
abbrev S256x128 : Shape := ⟨2, ![256, 128]⟩
abbrev S256x1 : Shape := ⟨2, ![256, 1]⟩
abbrev S128x128 : Shape := ⟨2, ![128, 128]⟩
abbrev S128x1 : Shape := ⟨2, ![128, 1]⟩
abbrev S128x1x128 : Shape := ⟨3, ![128, 1, 128]⟩
abbrev S1x128x128 : Shape := ⟨3, ![1, 128, 128]⟩
abbrev S128x128x128 : Shape := ⟨3, ![128, 128, 128]⟩
abbrev S128 : Shape := ⟨1, ![128]⟩
abbrev S_ : Shape := ⟨0, ![]⟩

abbrev nBuf : Space → Nat
  | .hbm => 19
  | .vmem => 27
  | .smem => 0
  | _ => 0

abbrev bufTy : (tb : Table) → Fin (tcTables nBuf tb) → BufTy
  | .hbm, ⟨0, _⟩ => ⟨S1024x256, .f32⟩
  | .hbm, ⟨1, _⟩ => ⟨S1024x128, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S1024x128, .f32⟩
  | .hbm, ⟨12, _⟩ => ⟨S1024x128, .f32⟩
  | .hbm, ⟨13, _⟩ => ⟨S1024x1, .f32⟩
  | .hbm, ⟨14, _⟩ => ⟨S1024x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S256x256, .f32⟩
  | .local _ .vmem, ⟨1, _⟩ => ⟨S256x256, .f32⟩
  | .local _ .vmem, ⟨2, _⟩ => ⟨S256x128, .f32⟩
  | .local _ .vmem, ⟨3, _⟩ => ⟨S256x128, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x1, .f32⟩
  | .local _ .vmem, ⟨15, _⟩ => ⟨S256x1, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x1, .f32⟩
  | .local _ .vmem, ⟨23, _⟩ => ⟨S128x1, .f32⟩
  | .local _ .vmem, ⟨24, _⟩ => ⟨S128x1, .f32⟩
  | .local _ .vmem, ⟨25, _⟩ => ⟨S128x1, .f32⟩
  | .local _ .vmem, ⟨26, _⟩ => ⟨S128x128, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_8 : BitVec 32 := 0#32
  let v20 : BitVec 1 := Scalar.cmpi .ne v19 c0_i32_8
  v20

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S128x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S128x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S256_S1x256 : S256.ShapeCasts S1x256
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  slices_S256x256_o0_0_S256x128 : S256x256.Slices ![0, 0] S256x128
  slices_S256x256_o0_128_S256x128 : S256x256.Slices ![0, 128] S256x128
  inb_S256x128_S256x128_0_0 : ∀ a, (![0, 0] : Fin 2 → Nat) a + S256x128.size a ≤ S256x128.size a
  h_S256x128 : 0 < S256x128.numel
  reduces_S256x128_S256 : S256x128.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  reduces_S128x128x128_S128x128 : S128x128x128.Reduces [1] S128x128
  reduces_S128x128_S128 : S128x128.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  reducesTo_S1024x1_S_d0_1 : S1024x1.ReducesTo [0, 1] S_
  h_S_ : 0 < S_.numel
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S1024x256.size a
  hwx0_0 : ∀ i : grid0.Coords, EltTy.bits .f32 = 32 ∨ (Rect.block (s := S1024x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S1024x128.size a
  hwx0_1 : ∀ i : grid0.Coords, EltTy.bits .f32 = 32 ∨ (Rect.block (s := S1024x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S1024x128.size a
  hwx0_8 : ∀ i : grid0.Coords, EltTy.bits .f32 = 32 ∨ (Rect.block (s := S1024x128) S256x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S1024x128.size a
  hwx0_9 : ∀ i : grid0.Coords, EltTy.bits .f32 = 32 ∨ (Rect.block (s := S1024x128) S256x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1.size a ≤ S1024x1.size a
  hwx0_10 : ∀ i : grid0.Coords, EltTy.bits .f32 = 32 ∨ (Rect.block (s := S1024x1) S256x1.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S1024x128.size a
  hwx1_0 : ∀ i : grid1.Coords, EltTy.bits .f32 = 32 ∨ (Rect.block (s := S1024x128) S128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S1024x128.size a
  hwx1_1 : ∀ i : grid1.Coords, EltTy.bits .f32 = 32 ∨ (Rect.block (s := S1024x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S1024x128.size a
  hwx1_2 : ∀ i : grid1.Coords, EltTy.bits .f32 = 32 ∨ (Rect.block (s := S1024x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S1024x1.size a
  hwx1_3 : ∀ i : grid1.Coords, EltTy.bits .f32 = 32 ∨ (Rect.block (s := S1024x1) S128x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x1.size a ≤ S1024x1.size a
  hwx1_4 : ∀ i : grid1.Coords, EltTy.bits .f32 = 32 ∨ (Rect.block (s := S1024x1) S128x1.size (cc1_transform_4 i) (hinb1_4 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3_0) S256x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_1) S256x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v3_2) S256x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v3_0) S128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_1) S128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3_2) S128x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S128x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S1024x256 : Shape := ⟨2, ![1024, 256]⟩
abbrev S1024x128 : Shape := ⟨2, ![1024, 128]⟩
abbrev S256x256 : Shape := ⟨2, ![256, 256]⟩
abbrev S256 : Shape := ⟨1, ![256]⟩
abbrev S1x256 : Shape := ⟨2, ![1, 256]⟩
abbrev S_ : Shape := ⟨0, ![]⟩
abbrev S1024x1x128 : Shape := ⟨3, ![1024, 1, 128]⟩
abbrev S1x1024x128 : Shape := ⟨3, ![1, 1024, 128]⟩
abbrev S1024x1024x128 : Shape := ⟨3, ![1024, 1024, 128]⟩
abbrev S1024 : Shape := ⟨1, ![1024]⟩

abbrev nBuf : Space → Nat
  | .hbm => 61
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x128, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1024x256, .f32⟩
  | .hbm, ⟨9, _⟩ => ⟨S1x256, .f32⟩
  | .hbm, ⟨10, _⟩ => ⟨S1024x256, .f32⟩
  | .hbm, ⟨11, _⟩ => ⟨S1024x256, .f32⟩
  | .hbm, ⟨12, _⟩ => ⟨S_, .f32⟩
  | .hbm, ⟨13, _⟩ => ⟨S1024x256, .f32⟩
  | .hbm, ⟨14, _⟩ => ⟨S1024x256, .f32⟩
  | .hbm, ⟨15, _⟩ => ⟨S1024x256, .f32⟩
  | .hbm, ⟨16, _⟩ => ⟨S1x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S1024x256, .f32⟩
  | .hbm, ⟨23, _⟩ => ⟨S1x256, .f32⟩
  | .hbm, ⟨24, _⟩ => ⟨S1024x256, .f32⟩
  | .hbm, ⟨25, _⟩ => ⟨S1024x256, .f32⟩
  | .hbm, ⟨26, _⟩ => ⟨S1024x256, .f32⟩
  | .hbm, ⟨27, _⟩ => ⟨S1024x128, .f32⟩
  | .hbm, ⟨28, _⟩ => ⟨S1024x128, .f32⟩
  | .hbm, ⟨29, _⟩ => ⟨S1024x128, .f32⟩
  | .hbm, ⟨30, _⟩ => ⟨S1024x128, .f32⟩
  | .hbm, ⟨31, _⟩ => ⟨S1024x128, .f32⟩
  | .hbm, ⟨32, _⟩ => ⟨S1024x128, .f32⟩
  | .hbm, ⟨33, _⟩ => ⟨S_, .f32⟩
  | .hbm, ⟨34, _⟩ => ⟨S1024x128, .f32⟩
  | .hbm, ⟨35, _⟩ => ⟨S1024x128, .f32⟩
  | .hbm, ⟨36, _⟩ => ⟨S1024x128, .f32⟩
  | .hbm, ⟨37, _⟩ => ⟨S1024x1x128, .f32⟩
  | .hbm, ⟨38, _⟩ => ⟨S1x1024x128, .f32⟩
  | .hbm, ⟨39, _⟩ => ⟨S1024x1024x128, .f32⟩
  | .hbm, ⟨40, _⟩ => ⟨S1024x1024x128, .f32⟩
  | .hbm, ⟨41, _⟩ => ⟨S1024x1024x128, .f32⟩
  | .hbm, ⟨42, _⟩ => ⟨S1024x1024x128, .f32⟩
  | .hbm, ⟨43, _⟩ => ⟨S_, .f32⟩
  | .hbm, ⟨44, _⟩ => ⟨S1024x128, .f32⟩
  | .hbm, ⟨45, _⟩ => ⟨S_, .f32⟩
  | .hbm, ⟨46, _⟩ => ⟨S1024x128, .f32⟩
  | .hbm, ⟨47, _⟩ => ⟨S1024x128, .f32⟩
  | .hbm, ⟨48, _⟩ => ⟨S_, .f32⟩
  | .hbm, ⟨49, _⟩ => ⟨S1024x128, .f32⟩
  | .hbm, ⟨50, _⟩ => ⟨S1024x128, .f32⟩
  | .hbm, ⟨51, _⟩ => ⟨S1024x128, .f32⟩
  | .hbm, ⟨52, _⟩ => ⟨S_, .f32⟩
  | .hbm, ⟨53, _⟩ => ⟨S1024, .f32⟩
  | .hbm, ⟨54, _⟩ => ⟨S_, .f32⟩
  | .hbm, ⟨55, _⟩ => ⟨S1024, .f32⟩
  | .hbm, ⟨56, _⟩ => ⟨S1024, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_0 : Ref sig .tc := ⟨.hbm, 43, rfl⟩
abbrev main_v30 : Ref sig .tc := ⟨.hbm, 44, rfl⟩
abbrev main_cst_1 : Ref sig .tc := ⟨.hbm, 45, rfl⟩
abbrev main_v31 : Ref sig .tc := ⟨.hbm, 46, rfl⟩
abbrev main_v32 : Ref sig .tc := ⟨.hbm, 47, rfl⟩
abbrev main_cst_2 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_cst_4 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  slices_S1024x256_S1024x128_0_0 : S1024x256.Slices ![0, 0] S1024x128
  slices_S1024x256_S1024x128_0_128 : S1024x256.Slices ![0, 128] S1024x128
  bcast_S_S1024x128 : S_.BroadcastsInDim S1024x128 (![] : Fin 0 → Fin S1024x128.rank)
  bcast_S1024x128_S1024x1x128_0_2 : S1024x128.BroadcastsInDim S1024x1x128 (![0, 2] : Fin 2 → Fin S1024x1x128.rank)
  bcast_S1024x128_S1x1024x128_1_2 : S1024x128.BroadcastsInDim S1x1024x128 (![1, 2] : Fin 2 → Fin S1x1024x128.rank)
  bcast_S1024x1x128_S1024x1024x128_0_1_2 : S1024x1x128.BroadcastsInDim S1024x1024x128 (![0, 1, 2] : Fin 3 → Fin S1024x1024x128.rank)
  bcast_S1x1024x128_S1024x1024x128_0_1_2 : S1x1024x128.BroadcastsInDim S1024x1024x128 (![0, 1, 2] : Fin 3 → Fin S1024x1024x128.rank)
  reducesTo_S1024x1024x128_S1024x128_d1 : S1024x1024x128.ReducesTo [1] S1024x128
  h_S_ : 0 < S_.numel
  reducesTo_S1024x128_S1024_d1 : S1024x128.ReducesTo [1] S1024
  reducesTo_S1024_S_d0 : S1024.ReducesTo [0] S_
  dot_S1024x256_S256x256_S1024x256_1_0_0_1_n_n_wf : DotDims.WF S1024x256 S256x256 S1024x256 [1] [0] [0] [1] [] []

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

class Facts : Prop extends Facts₀ where

variable [Facts]
-- ==== Proof.KReg0.lean ====
/-
  Region 0 (the three-layer perceptron kernel) at a parameter `V`, the contents the region is entered from: each
  window's block at a grid point, what the body leaves in each of its three output buffers as a function of the
  eight input blocks, the body's triple, the proof data of the pipeline and the body obligation at every point.
  Generic in the float instance.
-/
import proofs.«169424_j14061722927686_1_alg».proof.Proof.Gen.Kernel.Launch
import proofs.«169424_j14061722927686_1_alg».proof.Proof.Gen.Kernel.Skeleton
import proofs.«169424_j14061722927686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rA : Rect S256x256 := Rect.unit (s := S256x256) ![0, 0] S256x256.size inb_S256x256_S256x256_0_0
abbrev rB : Rect S1x256 := Rect.unit (s := S1x256) ![0, 0] S1x256.size inb_S1x256_S1x256_0_0
abbrev rC : Rect S256x128 := Rect.unit (s := S256x128) ![0, 0] S256x128.size inb_S256x128_S256x128_0_0
abbrev rD : Rect S256x1 := Rect.unit (s := S256x1) ![0, 0] S256x1.size inb_S256x1_S256x1_0_0

/-! ## What the body leaves in each output buffer, from the input buffers' contents -/

/-- The first half of the last layer's activations (the means). -/
def mean0 (x0 : Vec F S256x256 .f32) (x2 : Vec F S256x256 .f32) (x3 : Vec F S1x256 .f32) (x4 : Vec F S256x256 .f32) (x5 : Vec F S1x256 .f32) (x6 : Vec F S256x256 .f32) (x7 : Vec F S1x256 .f32) : FVec F S256x128 .f32 :=
  k0_pay3 (View.ld x0 rA) (View.ld x2 rA) (View.ld x3 rB) (View.ld x4 rA) (View.ld x5 rB) (View.ld x6 rA) (View.ld x7 rB)
/-- The exponential of minus the second half (the inverse variances). -/
def ivar0 (x0 : Vec F S256x256 .f32) (x2 : Vec F S256x256 .f32) (x3 : Vec F S1x256 .f32) (x4 : Vec F S256x256 .f32) (x5 : Vec F S1x256 .f32) (x6 : Vec F S256x256 .f32) (x7 : Vec F S1x256 .f32) : FVec F S256x128 .f32 :=
  k0_pay4 (View.ld x0 rA) (View.ld x2 rA) (View.ld x3 rB) (View.ld x4 rA) (View.ld x5 rB) (View.ld x6 rA) (View.ld x7 rB)
/-- The row sums of the same-index term. -/
def psum0 (x0 : Vec F S256x256 .f32) (x1 : Vec F S256x128 .f32) (x2 : Vec F S256x256 .f32) (x3 : Vec F S1x256 .f32) (x4 : Vec F S256x256 .f32) (x5 : Vec F S1x256 .f32) (x6 : Vec F S256x256 .f32) (x7 : Vec F S1x256 .f32) : FVec F S256x1 .f32 :=
  k0_pay1 (mean0 x0 x2 x3 x4 x5 x6 x7) (ivar0 x0 x2 x3 x4 x5 x6 x7) (View.ld x1 rC)
    (k0_pay5 (View.ld x0 rA) (View.ld x2 rA) (View.ld x3 rB) (View.ld x4 rA) (View.ld x5 rB) (View.ld x6 rA) (View.ld x7 rB) (View.ld x1 rC))

/-- Window 8's staging buffer after the body: its one store as a piece. -/
def out0_8 (x0 : Vec F S256x256 .f32) (x2 : Vec F S256x256 .f32) (x3 : Vec F S1x256 .f32) (x4 : Vec F S256x256 .f32) (x5 : Vec F S1x256 .f32) (x6 : Vec F S256x256 .f32) (x7 : Vec F S1x256 .f32) : Vec F S256x128 .f32 :=
  View.canon [⟨rC, mean0 x0 x2 x3 x4 x5 x6 x7⟩]
/-- Window 9's. -/
def out0_9 (x0 : Vec F S256x256 .f32) (x2 : Vec F S256x256 .f32) (x3 : Vec F S1x256 .f32) (x4 : Vec F S256x256 .f32) (x5 : Vec F S1x256 .f32) (x6 : Vec F S256x256 .f32) (x7 : Vec F S1x256 .f32) : Vec F S256x128 .f32 :=
  View.canon [⟨rC, ivar0 x0 x2 x3 x4 x5 x6 x7⟩]
/-- Window 10's. -/
def out0_10 (x0 : Vec F S256x256 .f32) (x1 : Vec F S256x128 .f32) (x2 : Vec F S256x256 .f32) (x3 : Vec F S1x256 .f32) (x4 : Vec F S256x256 .f32) (x5 : Vec F S1x256 .f32) (x6 : Vec F S256x256 .f32) (x7 : Vec F S1x256 .f32) : Vec F S256x1 .f32 :=
  View.canon [⟨rD, psum0 x0 x1 x2 x3 x4 x5 x6 x7⟩]

/-- A single whole-buffer store covers the buffer. -/
theorem coverC (p0 : Vec F S256x128 .f32) (y : S256x128.Idx) :
    ∃ pc ∈ ([⟨rC, p0⟩] : List (View.Piece (Elt F) S256x128 .f32)), y ∈ pc.1.set :=
  View.cover_of_tiled [⟨rC, p0⟩] S256x128.size (by rfl) y
theorem coverD (p0 : Vec F S256x1 .f32) (y : S256x1.Idx) :
    ∃ pc ∈ ([⟨rD, p0⟩] : List (View.Piece (Elt F) S256x1 .f32)), y ∈ pc.1.set :=
  View.cover_of_tiled [⟨rD, p0⟩] S256x1.size (by rfl) y

/-! ## The body's triple -/

set_option maxHeartbeats 4000000 in
/-- The kernel body on whole staging memrefs, the inputs' at contents `xW` and the outputs' at anything, runs to the
    continuation holding the inputs' as they were and each output's at its function of the inputs'. -/
theorem sound_kernel0 (c : Dev nD) (E : Set ℕ) (i : grid0.Coords) (arg1 : Memref sig .tc .vmem S256x256 .f32) (harg1 : arg1.IsWhole) (arg2 : Memref sig .tc .vmem S256x128 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x1 .f32) (harg11 : arg11.IsWhole)
    (x0 : Vec F S256x256 .f32) (x1 : Vec F S256x128 .f32) (x2 : Vec F S256x256 .f32) (x3 : Vec F S1x256 .f32) (x4 : Vec F S256x256 .f32) (x5 : Vec F S1x256 .f32) (x6 : Vec F S256x256 .f32) (x7 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x2 x3 x4 x5 x6 x7) ∗ owns (c : Thread nD τ) arg10 fullShare (out0_9 x0 x2 x3 x4 x5 x6 x7) ∗ owns (c : Thread nD τ) arg11 fullShare (out0_10 x0 x1 x2 x3 x4 x5 x6 x7)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverC _)
  isplitl [H9]
  · iexists _; isplitr
    swap; · iexact H9
    ipureintro
    exact View.read_writes_eq_canon _ _ _ (coverC _)
  iexists _; isplitr
  swap; · iexact H10
  ipureintro
  exact View.read_writes_eq_canon _ _ _ (coverD _)

/-! ## The pipeline's proof data -/

/-- The proof data of pipeline 0 on core `c`: the arrays as the region finds them; after the body at point `t` each
    input's buffer at its block and each output's at its function of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 2 t) (iblk0 V c 3 t) (iblk0 V c 4 t) (iblk0 V c 5 t) (iblk0 V c 6 t) (iblk0 V c 7 t)
    | ⟨9, _⟩ => out0_9 (iblk0 V c 0 t) (iblk0 V c 2 t) (iblk0 V c 3 t) (iblk0 V c 4 t) (iblk0 V c 5 t) (iblk0 V c 6 t) (iblk0 V c 7 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 2 t) (iblk0 V c 3 t) (iblk0 V c 4 t) (iblk0 V c 5 t) (iblk0 V c 6 t) (iblk0 V c 7 t) := by dsimp only [dat0]
theorem after0_9 (c : Dev nD) (t : Fin cfg0.N) : (dat0 V c).after 9 t = out0_9 (iblk0 V c 0 t) (iblk0 V c 2 t) (iblk0 V c 3 t) (iblk0 V c 4 t) (iblk0 V c 5 t) (iblk0 V c 6 t) (iblk0 V c 7 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 4000000 in
/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KReg1Runs.lean ====
/-
  Region 1 (the pairwise accumulation kernel): what its three control cases share — the two branch conditions decided
  over the 8 × 8 grid (the second coordinate is 0; the second coordinate is 7), where the output window is idle, the
  staging and scratch memrefs at a point, the windows' blocks at a parameter `V`. Generic in the float instance.
-/
import proofs.«169424_j14061722927686_1_alg».proof.Proof.Gen.Kernel.Launch
import proofs.«169424_j14061722927686_1_alg».proof.Proof.Gen.Kernel.Skeleton
import proofs.«169424_j14061722927686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions -/

/-- The first conditional's condition (the accumulator is reset): the second grid coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition (the row result is written): the second grid coordinate is 7. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
theorem liveAt1_4_C : ∀ t : Fin cfg1.N, ¬cond1_0 (grid1.coords t) → cond1_1 (grid1.coords t) → cfg1.idle 4 (grid1.coords t) = false := by decide +kernel

/-! ## The memrefs the body is called with -/

/-- One staging buffer of the output window, through which its contents are stated. -/
abbrev VO1_4 : View sig .tc .vmem S128x1 .f32 := (Memref.whole cc1_stg4_0 : Memref sig .tc .vmem S128x1 .f32).view
abbrev ms1_0 (t : Fin cfg1.N) : Memref sig .tc .vmem S128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x1 .f32 := win1_4.stage (cfg1.slots t 4)
abbrev hs1_4 (t : Fin cfg1.N) : (ms1_4 t).IsWhole := hstage1_4 ((cfg1.slots t 4).cast nbuf1_4)
/-- The scratch operand: a whole scoped buffer of the kernel's own, the accumulator it carries between points. -/
abbrev scM1_0 : Memref sig .tc .vmem S128x128 .f32 := Memref.whole cc1_scratch0
abbrev VS1_0 : View sig .tc .vmem S128x128 .f32 := scM1_0.view

/-- The core's scoped buffers that are no staging buffer of this region (the first region's staging buffers), each whole
    at some contents. -/
def restS1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f))

/-- The same beside an assertion `P` about the scratch operand, as one chain. -/
def scopedS1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ P)

theorem scopedS1_out (c : Dev nD) (P : sProp 𝕄) : scopedS1 c P ⊢ iprop(restS1 c ∗ P) := by
  unfold scopedS1 restS1
  iintro ⟨R0, R1, R2, R3, R4, R5, R6, R7, R8, R9, R10, R11, R12, R13, R14, R15, HP⟩
  isplitr [HP]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  iexact HP

theorem scopedS1_in (c : Dev nD) (P : sProp 𝕄) : iprop(restS1 c ∗ P) ⊢ scopedS1 c P := by
  unfold scopedS1 restS1
  iintro ⟨⟨R0, R1, R2, R3, R4, R5, R6, R7, R8, R9, R10, R11, R12, R13, R14, R15⟩, HP⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  iexact HP

/-- The region invariant of the class: the scoped rest with the scratch operand as a memref owned at some contents,
    beside the generator register. -/
theorem PhiA1_eq (c : Dev nD) :
    (Pipeline.ΦA spec1 c : sProp 𝕄)
      = iprop(scopedS1 c iprop(∃ d, owns (c : Thread nD τ) scM1_0 fullShare d) ∗ (∃ r, prngReg c r)) := by
  unfold Pipeline.ΦA scopedS1; rw [scopedRest1_eq]; simp only [scM1_0, owns_whole]; try rfl

/-! ## The windows' blocks -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Cert.Kernel.Fr

end
-- ==== Proof.KReg1RunA.lean ====
/-
  Region 1, the case of a point whose second coordinate is 0 (the accumulator is reset, then added to; nothing is
  written to the output): the body's triple on whole memrefs, the pieces the accumulator ends with found by the run.
-/
import proofs.«169424_j14061722927686_1_alg».proof.Proof.KReg1Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x128 .f32) (harg7 : arg7.IsWhole) (hc0 : cond1_0 i) (hc1 : ¬cond1_1 i)
    (x0 : Vec F S128x128 .f32) (x1 : Vec F S128x128 .f32) (x2 : Vec F S128x128 .f32) (x3 : Vec F S128x1 .f32) :
    Σ' (L4 : List (View.Piece (Elt F) S128x1 .f32)), { LS0 : List (View.Piece (Elt F) S128x128 .f32) //
      ∀ (xi4 : Vec F S128x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__neg_kernel i arg2 harg2 arg3 harg3 arg4 harg4 arg5 harg5 arg6 harg6 arg7 harg7) K } := by
  refine ⟨[], ?_, fun xi4 E K => ?run⟩
  case run =>
    simp only [cc1__neg_kernel_eq_skeleton]; unfold cc1__neg_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.KReg1RunB.lean ====
/-
  Region 1, the case of a point whose second coordinate is neither 0 nor 7 (the accumulator is added to; nothing is
  written to the output).
-/
import proofs.«169424_j14061722927686_1_alg».proof.Proof.KReg1RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x128 .f32) (harg7 : arg7.IsWhole) (hc0 : ¬cond1_0 i) (hc1 : ¬cond1_1 i)
    (x0 : Vec F S128x128 .f32) (x1 : Vec F S128x128 .f32) (x2 : Vec F S128x128 .f32) (x3 : Vec F S128x1 .f32) (xs0 : Vec F S128x128 .f32) :
    Σ' (L4 : List (View.Piece (Elt F) S128x1 .f32)), { LS0 : List (View.Piece (Elt F) S128x128 .f32) //
      ∀ (xi4 : Vec F S128x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__neg_kernel i arg2 harg2 arg3 harg3 arg4 harg4 arg5 harg5 arg6 harg6 arg7 harg7) K } := by
  refine ⟨[], ?_, fun xi4 E K => ?run⟩
  case run =>
    simp only [cc1__neg_kernel_eq_skeleton]; unfold cc1__neg_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.KReg1RunC.lean ====
/-
  Region 1, the case of a point whose second coordinate is 7 (the accumulator is added to, then the row result is
  computed from it and written to the output).
-/
import proofs.«169424_j14061722927686_1_alg».proof.Proof.KReg1RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x128 .f32) (harg7 : arg7.IsWhole) (hc0 : ¬cond1_0 i) (hc1 : cond1_1 i)
    (x0 : Vec F S128x128 .f32) (x1 : Vec F S128x128 .f32) (x2 : Vec F S128x128 .f32) (x3 : Vec F S128x1 .f32) (xs0 : Vec F S128x128 .f32) :
    Σ' (L4 : List (View.Piece (Elt F) S128x1 .f32)), { LS0 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__neg_kernel i arg2 harg2 arg3 harg3 arg4 harg4 arg5 harg5 arg6 harg6 arg7 harg7) K } := by
  refine ⟨?_, ?_, fun E K => ?run⟩
  case run =>
    simp only [cc1__neg_kernel_eq_skeleton]; unfold cc1__neg_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Fr

end
-- ==== Proof.KReg1.lean ====
/-
  Region 1 (the pairwise accumulation kernel) at a parameter `V`: what each control case leaves in the output buffer and
  in the accumulator it carries between grid points; the accumulator's contents point by point, by recursion on the
  point; the proof data, the body obligation at every point, and the invariant in and out. Generic in the float
  instance.
-/
import proofs.«169424_j14061722927686_1_alg».proof.Proof.KReg1RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first case stores nothing into the output (idle there and not written back): a placeholder nothing consults. -/
def out1_A_4 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x128 .f32) (harg7 : arg7.IsWhole) (hc0 : cond1_0 i) (hc1 : ¬cond1_1 i)
    (x0 : Vec F S128x128 .f32) (x1 : Vec F S128x128 .f32) (x2 : Vec F S128x128 .f32) (x3 : Vec F S128x1 .f32) : Vec F S128x1 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

theorem scover1_A_0 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x128 .f32) (harg7 : arg7.IsWhole) (hc0 : cond1_0 i) (hc1 : ¬cond1_1 i)
    (x0 : Vec F S128x128 .f32) (x1 : Vec F S128x128 .f32) (x2 : Vec F S128x128 .f32) (x3 : Vec F S128x1 .f32) (y : S128x128.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S128x128.size (by sl_kernel_rfl) y

/-- What the first case leaves in the accumulator: its pieces read back. -/
def sout1_A_0 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x128 .f32) (harg7 : arg7.IsWhole) (hc0 : cond1_0 i) (hc1 : ¬cond1_1 i)
    (x0 : Vec F S128x128 .f32) (x1 : Vec F S128x128 .f32) (x2 : Vec F S128x128 .f32) (x3 : Vec F S128x1 .f32) : Vec F S128x128 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

def out1_B_4 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x128 .f32) (harg7 : arg7.IsWhole) (hc0 : ¬cond1_0 i) (hc1 : ¬cond1_1 i)
    (x0 : Vec F S128x128 .f32) (x1 : Vec F S128x128 .f32) (x2 : Vec F S128x128 .f32) (x3 : Vec F S128x1 .f32) (xs0 : Vec F S128x128 .f32) : Vec F S128x1 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

theorem scover1_B_0 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x128 .f32) (harg7 : arg7.IsWhole) (hc0 : ¬cond1_0 i) (hc1 : ¬cond1_1 i)
    (x0 : Vec F S128x128 .f32) (x1 : Vec F S128x128 .f32) (x2 : Vec F S128x128 .f32) (x3 : Vec F S128x1 .f32) (xs0 : Vec F S128x128 .f32) (y : S128x128.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S128x128.size (by sl_kernel_rfl) y

def sout1_B_0 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x128 .f32) (harg7 : arg7.IsWhole) (hc0 : ¬cond1_0 i) (hc1 : ¬cond1_1 i)
    (x0 : Vec F S128x128 .f32) (x1 : Vec F S128x128 .f32) (x2 : Vec F S128x128 .f32) (x3 : Vec F S128x1 .f32) (xs0 : Vec F S128x128 .f32) : Vec F S128x128 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

theorem cover1_C_4 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x128 .f32) (harg7 : arg7.IsWhole) (hc0 : ¬cond1_0 i) (hc1 : cond1_1 i)
    (x0 : Vec F S128x128 .f32) (x1 : Vec F S128x128 .f32) (x2 : Vec F S128x128 .f32) (x3 : Vec F S128x1 .f32) (xs0 : Vec F S128x128 .f32) (y : S128x1.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S128x1.size (by sl_kernel_rfl) y

/-- What the last case leaves in the output buffer: its one store read back. -/
def out1_C_4 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x128 .f32) (harg7 : arg7.IsWhole) (hc0 : ¬cond1_0 i) (hc1 : cond1_1 i)
    (x0 : Vec F S128x128 .f32) (x1 : Vec F S128x128 .f32) (x2 : Vec F S128x128 .f32) (x3 : Vec F S128x1 .f32) (xs0 : Vec F S128x128 .f32) : Vec F S128x1 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

theorem scover1_C_0 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x128 .f32) (harg7 : arg7.IsWhole) (hc0 : ¬cond1_0 i) (hc1 : cond1_1 i)
    (x0 : Vec F S128x128 .f32) (x1 : Vec F S128x128 .f32) (x2 : Vec F S128x128 .f32) (x3 : Vec F S128x1 .f32) (xs0 : Vec F S128x128 .f32) (y : S128x128.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S128x128.size (by sl_kernel_rfl) y

def sout1_C_0 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x128 .f32) (harg7 : arg7.IsWhole) (hc0 : ¬cond1_0 i) (hc1 : cond1_1 i)
    (x0 : Vec F S128x128 .f32) (x1 : Vec F S128x128 .f32) (x2 : Vec F S128x128 .f32) (x3 : Vec F S128x1 .f32) (xs0 : Vec F S128x128 .f32) : Vec F S128x128 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

/-! ## What the output buffer and the accumulator hold after each point -/

/-- After the body at position `n`: the output buffer's contents, then the accumulator's — the case the closed forms
    select at `n`, run at the point's memrefs and input blocks, over what the accumulator held after `n - 1`. -/
def outsAt1 (c : Dev nD) : (n : ℕ) → n < cfg1.N → Vec F S128x1 .f32 × Vec F S128x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      if h1 : (n + 1) % 8 = 7 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the accumulator at anything);
    afterwards the scoped rest with the accumulator at what the point before left in it, and the generator register. -/
def PhiS1 (c : Dev nD) : (n : ℕ) → n ≤ cfg1.N → sProp 𝕄
  | 0, _ => Pipeline.ΦA spec1 c
  | n + 1, hn => iprop(scopedS1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scopedS1 c (owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(scopedS1 c (owns (c : Thread nD τ) scM1_0 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]

end Cert.Kernel.Fr

end
-- ==== Proof.KReg1Body.lean ====
/-
  Region 1: the body obligation at every grid point. The closed forms of the two conditions say which case a point is
  in; the invariant hands the body the accumulator at what the point before left (at anything at the first point) and
  takes it back at this point's contents; the output buffer is handed back untouched where the case stores nothing.
-/
import proofs.«169424_j14061722927686_1_alg».proof.Proof.KReg1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · rw [leaves1_0, leaves1_1, leaves1_2, leaves1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨HSc, Hg⟩, Ho, ⟨%d0, H0⟩, ⟨%d1, H1⟩, ⟨%d2, H2⟩, ⟨%d3, H3⟩, ⟨%d4, H4⟩⟩
        ihave HSc' := (scopedS1_out c _) $$ HSc
        icases HSc' with ⟨HR, HS0⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR HS0 Hg]
        · isplitl [HR HS0]
          · iapply (scopedS1_in c _)
            isplitl [HR]; · iexact HR
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨HSc, Hg⟩, Ho, ⟨%d0, H0⟩, ⟨%d1, H1⟩, ⟨%d2, H2⟩, ⟨%d3, H3⟩, ⟨%d4, H4⟩⟩
        ihave HSc' := (scopedS1_out c _) $$ HSc
        icases HSc' with ⟨HR, HS0⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HR HS0 Hg]
        · isplitl [HR HS0]
          · iapply (scopedS1_in c _)
            isplitl [HR]; · iexact HR
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · rw [leaves1_0, leaves1_1, leaves1_2, leaves1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0; (try dsimp only)
      by_cases hz : t.val = 0
      · exfalso; omega
      · rw [PhiS1_castSucc V c t, PhiS1_pos V c _ _ hz]
        iintro ⟨⟨HSc, Hg⟩, Ho, ⟨%d0, H0⟩, ⟨%d1, H1⟩, ⟨%d2, H2⟩, ⟨%d3, H3⟩, ⟨%d4, H4⟩⟩
        ihave HSc' := (scopedS1_out c _) $$ HSc
        icases HSc' with ⟨HR, HS0⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HR HS0 Hg]
        · isplitl [HR HS0]
          · iapply (scopedS1_in c _)
            isplitl [HR]; · iexact HR
            unfold owns; iexists _; isplitr
            swap; · iexact HS0
            ipureintro; exact View.read_writes_of_cover _ _ _ _ _ (scover1_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _)
    · rw [leaves1_0, leaves1_1, leaves1_2, leaves1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨HSc, Hg⟩, Ho, ⟨%d0, H0⟩, ⟨%d1, H1⟩, ⟨%d2, H2⟩, ⟨%d3, H3⟩, ⟨%d4, H4⟩⟩
        ihave HSc' := (scopedS1_out c _) $$ HSc
        icases HSc' with ⟨HR, HS0⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR HS0 Hg]
        · isplitl [HR HS0]
          · iapply (scopedS1_in c _)
            isplitl [HR]; · iexact HR
            unfold owns; iexists _; isplitr
            swap; · iexact HS0
            ipureintro; exact View.read_writes_of_cover _ _ _ _ _ (scover1_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨HSc, Hg⟩
  isplitl [HSc]
  · ihave HSc' := (scopedS1_out c _) $$ HSc
    icases HSc' with ⟨HR, HS0⟩
    iapply (scopedS1_in c _)
    isplitl [HR]; · iexact HR
    iexists _; iexact HS0
  iexact Hg

end Cert.Kernel.Fr

end
-- ==== Proof.KRun.lean ====
/-
  The run of the whole program: the contents of every unscoped buffer at each boundary between @main's four items (the
  three bias reshapes; the perceptron kernel; the pairwise kernel; the final mean), a fold from the launch memory; both
  pipelines' proof data at their regions' entry contents; the two regions and the two host stretches as segments; and
  the launch: every weakly fair execution terminates with every unscoped buffer at the last boundary's contents.
  Generic in the float instance.
-/
import proofs.«169424_j14061722927686_1_alg».proof.Proof.KReg0
import proofs.«169424_j14061722927686_1_alg».proof.Proof.KReg1Body

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m ((c : Dev nD), b)
/-- After the three reshapes (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit (the second's entry): its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the final mean (the program's end). -/
abbrev W4 : Dev nD → Valuation τ sig (Elt F) := fun c => StableHlo.after hostOps2 (W3 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the class
    invariant and out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are
    split out of the unscoped buffers and put back at the exit contents; the generator register goes into the class
    invariant and out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    rw [Pipeline.ownSems0_none]
    refine BIBase.Entails.trans (hout1 (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh' (W0 m)),
    .region (reg0 m),
    .region (reg1 m),
    .host (hseg hostOps2 hostOps2_sub hostOps2_fresh' (W3 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    in every final state each unscoped buffer holds the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Fr

end
-- ==== Proof.KArgs.lean ====
/-
  No item of @main writes an argument array: at every boundary each argument's buffer holds its launch contents. A
  host stretch writes only its own results; a region changes only its output windows' arrays (an argument it reads
  through an input window ends as it was entered). Generic in the float instance.
-/
import proofs.«169424_j14061722927686_1_alg».proof.Proof.KRun
import proofs.«169424_j14061722927686_1_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem W1_arg0 (c : Dev nD) : W1 m c (Proc.devRef .tc main_arg0) = m ((c : Thread nD τ).loc main_arg0) :=
  (StableHlo.after_of_writes_sub hostOps0 _ hostOps0_writes (by decide : main_arg0 ∉ hostOps0_W)).trans rfl
theorem W1_arg1 (c : Dev nD) : W1 m c (Proc.devRef .tc main_arg1) = m ((c : Thread nD τ).loc main_arg1) :=
  (StableHlo.after_of_writes_sub hostOps0 _ hostOps0_writes (by decide : main_arg1 ∉ hostOps0_W)).trans rfl
theorem W1_arg2 (c : Dev nD) : W1 m c (Proc.devRef .tc main_arg2) = m ((c : Thread nD τ).loc main_arg2) :=
  (StableHlo.after_of_writes_sub hostOps0 _ hostOps0_writes (by decide : main_arg2 ∉ hostOps0_W)).trans rfl
theorem W1_arg3 (c : Dev nD) : W1 m c (Proc.devRef .tc main_arg3) = m ((c : Thread nD τ).loc main_arg3) :=
  (StableHlo.after_of_writes_sub hostOps0 _ hostOps0_writes (by decide : main_arg3 ∉ hostOps0_W)).trans rfl
theorem W1_arg4 (c : Dev nD) : W1 m c (Proc.devRef .tc main_arg4) = m ((c : Thread nD τ).loc main_arg4) :=
  (StableHlo.after_of_writes_sub hostOps0 _ hostOps0_writes (by decide : main_arg4 ∉ hostOps0_W)).trans rfl
theorem W1_arg5 (c : Dev nD) : W1 m c (Proc.devRef .tc main_arg5) = m ((c : Thread nD τ).loc main_arg5) :=
  (StableHlo.after_of_writes_sub hostOps0 _ hostOps0_writes (by decide : main_arg5 ∉ hostOps0_W)).trans rfl
theorem W1_arg6 (c : Dev nD) : W1 m c (Proc.devRef .tc main_arg6) = m ((c : Thread nD τ).loc main_arg6) :=
  (StableHlo.after_of_writes_sub hostOps0 _ hostOps0_writes (by decide : main_arg6 ∉ hostOps0_W)).trans rfl
theorem W1_arg7 (c : Dev nD) : W1 m c (Proc.devRef .tc main_arg7) = m ((c : Thread nD τ).loc main_arg7) :=
  (StableHlo.after_of_writes_sub hostOps0 _ hostOps0_writes (by decide : main_arg7 ∉ hostOps0_W)).trans rfl

theorem W2_arg0 (c : Dev nD) : W2 m c (Proc.devRef .tc main_arg0) = m ((c : Thread nD τ).loc main_arg0) :=
  (W2_arr m c 0).trans ((((dat0 (V1 m) c).arrAt_in 0 rfl _).trans (A_eq0 (V1 m) c 0)).trans (W1_arg0 m c))
theorem W2_arg1 (c : Dev nD) : W2 m c (Proc.devRef .tc main_arg1) = m ((c : Thread nD τ).loc main_arg1) :=
  (W2_arr m c 1).trans ((((dat0 (V1 m) c).arrAt_in 1 rfl _).trans (A_eq0 (V1 m) c 1)).trans (W1_arg1 m c))
theorem W2_arg2 (c : Dev nD) : W2 m c (Proc.devRef .tc main_arg2) = m ((c : Thread nD τ).loc main_arg2) :=
  (W2_arr m c 2).trans ((((dat0 (V1 m) c).arrAt_in 2 rfl _).trans (A_eq0 (V1 m) c 2)).trans (W1_arg2 m c))
theorem W2_arg3 (c : Dev nD) : W2 m c (Proc.devRef .tc main_arg3) = m ((c : Thread nD τ).loc main_arg3) :=
  (W2_of_ne m c main_arg3 (by decide)).trans (W1_arg3 m c)
theorem W2_arg4 (c : Dev nD) : W2 m c (Proc.devRef .tc main_arg4) = m ((c : Thread nD τ).loc main_arg4) :=
  (W2_arr m c 4).trans ((((dat0 (V1 m) c).arrAt_in 4 rfl _).trans (A_eq0 (V1 m) c 4)).trans (W1_arg4 m c))
theorem W2_arg5 (c : Dev nD) : W2 m c (Proc.devRef .tc main_arg5) = m ((c : Thread nD τ).loc main_arg5) :=
  (W2_of_ne m c main_arg5 (by decide)).trans (W1_arg5 m c)
theorem W2_arg6 (c : Dev nD) : W2 m c (Proc.devRef .tc main_arg6) = m ((c : Thread nD τ).loc main_arg6) :=
  (W2_arr m c 6).trans ((((dat0 (V1 m) c).arrAt_in 6 rfl _).trans (A_eq0 (V1 m) c 6)).trans (W1_arg6 m c))
theorem W2_arg7 (c : Dev nD) : W2 m c (Proc.devRef .tc main_arg7) = m ((c : Thread nD τ).loc main_arg7) :=
  (W2_of_ne m c main_arg7 (by decide)).trans (W1_arg7 m c)

theorem W3_arg0 (c : Dev nD) : W3 m c (Proc.devRef .tc main_arg0) = m ((c : Thread nD τ).loc main_arg0) :=
  (W3_of_ne m c main_arg0 (by decide)).trans (W2_arg0 m c)
theorem W3_arg1 (c : Dev nD) : W3 m c (Proc.devRef .tc main_arg1) = m ((c : Thread nD τ).loc main_arg1) :=
  (W3_arr m c 1).trans ((((dat1 (V2 m) c).arrAt_in 1 rfl _).trans (A_eq1 (V2 m) c 1)).trans (W2_arg1 m c))
theorem W3_arg2 (c : Dev nD) : W3 m c (Proc.devRef .tc main_arg2) = m ((c : Thread nD τ).loc main_arg2) :=
  (W3_of_ne m c main_arg2 (by decide)).trans (W2_arg2 m c)
theorem W3_arg3 (c : Dev nD) : W3 m c (Proc.devRef .tc main_arg3) = m ((c : Thread nD τ).loc main_arg3) :=
  (W3_of_ne m c main_arg3 (by decide)).trans (W2_arg3 m c)
theorem W3_arg4 (c : Dev nD) : W3 m c (Proc.devRef .tc main_arg4) = m ((c : Thread nD τ).loc main_arg4) :=
  (W3_of_ne m c main_arg4 (by decide)).trans (W2_arg4 m c)
theorem W3_arg5 (c : Dev nD) : W3 m c (Proc.devRef .tc main_arg5) = m ((c : Thread nD τ).loc main_arg5) :=
  (W3_of_ne m c main_arg5 (by decide)).trans (W2_arg5 m c)
theorem W3_arg6 (c : Dev nD) : W3 m c (Proc.devRef .tc main_arg6) = m ((c : Thread nD τ).loc main_arg6) :=
  (W3_of_ne m c main_arg6 (by decide)).trans (W2_arg6 m c)
theorem W3_arg7 (c : Dev nD) : W3 m c (Proc.devRef .tc main_arg7) = m ((c : Thread nD τ).loc main_arg7) :=
  (W3_of_ne m c main_arg7 (by decide)).trans (W2_arg7 m c)

theorem W4_arg0 (c : Dev nD) : W4 m c (Proc.devRef .tc main_arg0) = m ((c : Thread nD τ).loc main_arg0) :=
  (StableHlo.after_of_writes_sub hostOps2 _ hostOps2_writes (by decide : main_arg0 ∉ hostOps2_W)).trans (W3_arg0 m c)
theorem W4_arg1 (c : Dev nD) : W4 m c (Proc.devRef .tc main_arg1) = m ((c : Thread nD τ).loc main_arg1) :=
  (StableHlo.after_of_writes_sub hostOps2 _ hostOps2_writes (by decide : main_arg1 ∉ hostOps2_W)).trans (W3_arg1 m c)
theorem W4_arg2 (c : Dev nD) : W4 m c (Proc.devRef .tc main_arg2) = m ((c : Thread nD τ).loc main_arg2) :=
  (StableHlo.after_of_writes_sub hostOps2 _ hostOps2_writes (by decide : main_arg2 ∉ hostOps2_W)).trans (W3_arg2 m c)
theorem W4_arg3 (c : Dev nD) : W4 m c (Proc.devRef .tc main_arg3) = m ((c : Thread nD τ).loc main_arg3) :=
  (StableHlo.after_of_writes_sub hostOps2 _ hostOps2_writes (by decide : main_arg3 ∉ hostOps2_W)).trans (W3_arg3 m c)
theorem W4_arg4 (c : Dev nD) : W4 m c (Proc.devRef .tc main_arg4) = m ((c : Thread nD τ).loc main_arg4) :=
  (StableHlo.after_of_writes_sub hostOps2 _ hostOps2_writes (by decide : main_arg4 ∉ hostOps2_W)).trans (W3_arg4 m c)
theorem W4_arg5 (c : Dev nD) : W4 m c (Proc.devRef .tc main_arg5) = m ((c : Thread nD τ).loc main_arg5) :=
  (StableHlo.after_of_writes_sub hostOps2 _ hostOps2_writes (by decide : main_arg5 ∉ hostOps2_W)).trans (W3_arg5 m c)
theorem W4_arg6 (c : Dev nD) : W4 m c (Proc.devRef .tc main_arg6) = m ((c : Thread nD τ).loc main_arg6) :=
  (StableHlo.after_of_writes_sub hostOps2 _ hostOps2_writes (by decide : main_arg6 ∉ hostOps2_W)).trans (W3_arg6 m c)
theorem W4_arg7 (c : Dev nD) : W4 m c (Proc.devRef .tc main_arg7) = m ((c : Thread nD τ).loc main_arg7) :=
  (StableHlo.after_of_writes_sub hostOps2 _ hostOps2_writes (by decide : main_arg7 ∉ hostOps2_W)).trans (W3_arg7 m c)

/-- THE FRAME: from any memory with zero counters every weakly fair execution of @main terminates, nothing faulting,
    and every final state has the eight argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  (θ_run defs _ _).mono (fun r h c => ⟨(h c _ (mem_uc main_arg0 (by decide))).trans (W4_arg0 m c),
    (h c _ (mem_uc main_arg1 (by decide))).trans (W4_arg1 m c),
    (h c _ (mem_uc main_arg2 (by decide))).trans (W4_arg2 m c),
    (h c _ (mem_uc main_arg3 (by decide))).trans (W4_arg3 m c),
    (h c _ (mem_uc main_arg4 (by decide))).trans (W4_arg4 m c),
    (h c _ (mem_uc main_arg5 (by decide))).trans (W4_arg5 m c),
    (h c _ (mem_uc main_arg6 (by decide))).trans (W4_arg6 m c),
    (h c _ (mem_uc main_arg7 (by decide))).trans (W4_arg7 m c)⟩) (run_all m ρ)

end Cert.Kernel.Fr

end
-- ==== Proof.KIReg0.lean ====
/-
  Region 0 (the three-layer perceptron kernel) at a parameter `V`, the contents the region is entered from: each
  window's block at a grid point, what the body leaves in each of its three output buffers as a function of the
  eight input blocks, the body's triple, the proof data of the pipeline and the body obligation at every point.
  Generic in the float instance.
-/
import proofs.«169424_j14061722927686_1_alg».proof.Proof.Gen.KernelIdeal.Launch
import proofs.«169424_j14061722927686_1_alg».proof.Proof.Gen.KernelIdeal.Skeleton
import proofs.«169424_j14061722927686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rA : Rect S256x256 := Rect.unit (s := S256x256) ![0, 0] S256x256.size inb_S256x256_S256x256_0_0
abbrev rB : Rect S1x256 := Rect.unit (s := S1x256) ![0, 0] S1x256.size inb_S1x256_S1x256_0_0
abbrev rC : Rect S256x128 := Rect.unit (s := S256x128) ![0, 0] S256x128.size inb_S256x128_S256x128_0_0
abbrev rD : Rect S256x1 := Rect.unit (s := S256x1) ![0, 0] S256x1.size inb_S256x1_S256x1_0_0

/-! ## What the body leaves in each output buffer, from the input buffers' contents -/

/-- The first half of the last layer's activations (the means). -/
def mean0 (x0 : Vec F S256x256 .f32) (x2 : Vec F S256x256 .f32) (x3 : Vec F S1x256 .f32) (x4 : Vec F S256x256 .f32) (x5 : Vec F S1x256 .f32) (x6 : Vec F S256x256 .f32) (x7 : Vec F S1x256 .f32) : FVec F S256x128 .f32 :=
  k0_pay3 (View.ld x0 rA) (View.ld x2 rA) (View.ld x3 rB) (View.ld x4 rA) (View.ld x5 rB) (View.ld x6 rA) (View.ld x7 rB)
/-- The exponential of minus the second half (the inverse variances). -/
def ivar0 (x0 : Vec F S256x256 .f32) (x2 : Vec F S256x256 .f32) (x3 : Vec F S1x256 .f32) (x4 : Vec F S256x256 .f32) (x5 : Vec F S1x256 .f32) (x6 : Vec F S256x256 .f32) (x7 : Vec F S1x256 .f32) : FVec F S256x128 .f32 :=
  k0_pay4 (View.ld x0 rA) (View.ld x2 rA) (View.ld x3 rB) (View.ld x4 rA) (View.ld x5 rB) (View.ld x6 rA) (View.ld x7 rB)
/-- The row sums of the same-index term. -/
def psum0 (x0 : Vec F S256x256 .f32) (x1 : Vec F S256x128 .f32) (x2 : Vec F S256x256 .f32) (x3 : Vec F S1x256 .f32) (x4 : Vec F S256x256 .f32) (x5 : Vec F S1x256 .f32) (x6 : Vec F S256x256 .f32) (x7 : Vec F S1x256 .f32) : FVec F S256x1 .f32 :=
  k0_pay1 (mean0 x0 x2 x3 x4 x5 x6 x7) (ivar0 x0 x2 x3 x4 x5 x6 x7) (View.ld x1 rC)
    (k0_pay5 (View.ld x0 rA) (View.ld x2 rA) (View.ld x3 rB) (View.ld x4 rA) (View.ld x5 rB) (View.ld x6 rA) (View.ld x7 rB) (View.ld x1 rC))

/-- Window 8's staging buffer after the body: its one store as a piece. -/
def out0_8 (x0 : Vec F S256x256 .f32) (x2 : Vec F S256x256 .f32) (x3 : Vec F S1x256 .f32) (x4 : Vec F S256x256 .f32) (x5 : Vec F S1x256 .f32) (x6 : Vec F S256x256 .f32) (x7 : Vec F S1x256 .f32) : Vec F S256x128 .f32 :=
  View.canon [⟨rC, mean0 x0 x2 x3 x4 x5 x6 x7⟩]
/-- Window 9's. -/
def out0_9 (x0 : Vec F S256x256 .f32) (x2 : Vec F S256x256 .f32) (x3 : Vec F S1x256 .f32) (x4 : Vec F S256x256 .f32) (x5 : Vec F S1x256 .f32) (x6 : Vec F S256x256 .f32) (x7 : Vec F S1x256 .f32) : Vec F S256x128 .f32 :=
  View.canon [⟨rC, ivar0 x0 x2 x3 x4 x5 x6 x7⟩]
/-- Window 10's. -/
def out0_10 (x0 : Vec F S256x256 .f32) (x1 : Vec F S256x128 .f32) (x2 : Vec F S256x256 .f32) (x3 : Vec F S1x256 .f32) (x4 : Vec F S256x256 .f32) (x5 : Vec F S1x256 .f32) (x6 : Vec F S256x256 .f32) (x7 : Vec F S1x256 .f32) : Vec F S256x1 .f32 :=
  View.canon [⟨rD, psum0 x0 x1 x2 x3 x4 x5 x6 x7⟩]

/-- A single whole-buffer store covers the buffer. -/
theorem coverC (p0 : Vec F S256x128 .f32) (y : S256x128.Idx) :
    ∃ pc ∈ ([⟨rC, p0⟩] : List (View.Piece (Elt F) S256x128 .f32)), y ∈ pc.1.set :=
  View.cover_of_tiled [⟨rC, p0⟩] S256x128.size (by rfl) y
theorem coverD (p0 : Vec F S256x1 .f32) (y : S256x1.Idx) :
    ∃ pc ∈ ([⟨rD, p0⟩] : List (View.Piece (Elt F) S256x1 .f32)), y ∈ pc.1.set :=
  View.cover_of_tiled [⟨rD, p0⟩] S256x1.size (by rfl) y

/-! ## The body's triple -/

set_option maxHeartbeats 4000000 in
/-- The kernel body on whole staging memrefs, the inputs' at contents `xW` and the outputs' at anything, runs to the
    continuation holding the inputs' as they were and each output's at its function of the inputs'. -/
theorem sound_kernel0 (c : Dev nD) (E : Set ℕ) (i : grid0.Coords) (arg1 : Memref sig .tc .vmem S256x256 .f32) (harg1 : arg1.IsWhole) (arg2 : Memref sig .tc .vmem S256x128 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x1 .f32) (harg11 : arg11.IsWhole)
    (x0 : Vec F S256x256 .f32) (x1 : Vec F S256x128 .f32) (x2 : Vec F S256x256 .f32) (x3 : Vec F S1x256 .f32) (x4 : Vec F S256x256 .f32) (x5 : Vec F S1x256 .f32) (x6 : Vec F S256x256 .f32) (x7 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x2 x3 x4 x5 x6 x7) ∗ owns (c : Thread nD τ) arg10 fullShare (out0_9 x0 x2 x3 x4 x5 x6 x7) ∗ owns (c : Thread nD τ) arg11 fullShare (out0_10 x0 x1 x2 x3 x4 x5 x6 x7)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverC _)
  isplitl [H9]
  · iexists _; isplitr
    swap; · iexact H9
    ipureintro
    exact View.read_writes_eq_canon _ _ _ (coverC _)
  iexists _; isplitr
  swap; · iexact H10
  ipureintro
  exact View.read_writes_eq_canon _ _ _ (coverD _)

/-! ## The pipeline's proof data -/

/-- The proof data of pipeline 0 on core `c`: the arrays as the region finds them; after the body at point `t` each
    input's buffer at its block and each output's at its function of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 2 t) (iblk0 V c 3 t) (iblk0 V c 4 t) (iblk0 V c 5 t) (iblk0 V c 6 t) (iblk0 V c 7 t)
    | ⟨9, _⟩ => out0_9 (iblk0 V c 0 t) (iblk0 V c 2 t) (iblk0 V c 3 t) (iblk0 V c 4 t) (iblk0 V c 5 t) (iblk0 V c 6 t) (iblk0 V c 7 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 2 t) (iblk0 V c 3 t) (iblk0 V c 4 t) (iblk0 V c 5 t) (iblk0 V c 6 t) (iblk0 V c 7 t) := by dsimp only [dat0]
theorem after0_9 (c : Dev nD) (t : Fin cfg0.N) : (dat0 V c).after 9 t = out0_9 (iblk0 V c 0 t) (iblk0 V c 2 t) (iblk0 V c 3 t) (iblk0 V c 4 t) (iblk0 V c 5 t) (iblk0 V c 6 t) (iblk0 V c 7 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 4000000 in
/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KIReg1Runs.lean ====
/-
  Region 1 (the pairwise accumulation kernel): what its three control cases share — the two branch conditions decided
  over the 8 × 8 grid (the second coordinate is 0; the second coordinate is 7), where the output window is idle, the
  staging and scratch memrefs at a point, the windows' blocks at a parameter `V`. Generic in the float instance.
-/
import proofs.«169424_j14061722927686_1_alg».proof.Proof.Gen.KernelIdeal.Launch
import proofs.«169424_j14061722927686_1_alg».proof.Proof.Gen.KernelIdeal.Skeleton
import proofs.«169424_j14061722927686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions -/

/-- The first conditional's condition (the accumulator is reset): the second grid coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition (the row result is written): the second grid coordinate is 7. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
theorem liveAt1_4_C : ∀ t : Fin cfg1.N, ¬cond1_0 (grid1.coords t) → cond1_1 (grid1.coords t) → cfg1.idle 4 (grid1.coords t) = false := by decide +kernel

/-! ## The memrefs the body is called with -/

/-- One staging buffer of the output window, through which its contents are stated. -/
abbrev VO1_4 : View sig .tc .vmem S128x1 .f32 := (Memref.whole cc1_stg4_0 : Memref sig .tc .vmem S128x1 .f32).view
abbrev ms1_0 (t : Fin cfg1.N) : Memref sig .tc .vmem S128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x1 .f32 := win1_4.stage (cfg1.slots t 4)
abbrev hs1_4 (t : Fin cfg1.N) : (ms1_4 t).IsWhole := hstage1_4 ((cfg1.slots t 4).cast nbuf1_4)
/-- The scratch operand: a whole scoped buffer of the kernel's own, the accumulator it carries between points. -/
abbrev scM1_0 : Memref sig .tc .vmem S128x128 .f32 := Memref.whole cc1_scratch0
abbrev VS1_0 : View sig .tc .vmem S128x128 .f32 := scM1_0.view

/-- The core's scoped buffers that are no staging buffer of this region (the first region's staging buffers), each whole
    at some contents. -/
def restS1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f))

/-- The same beside an assertion `P` about the scratch operand, as one chain. -/
def scopedS1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ P)

theorem scopedS1_out (c : Dev nD) (P : sProp 𝕄) : scopedS1 c P ⊢ iprop(restS1 c ∗ P) := by
  unfold scopedS1 restS1
  iintro ⟨R0, R1, R2, R3, R4, R5, R6, R7, R8, R9, R10, R11, R12, R13, R14, R15, HP⟩
  isplitr [HP]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  iexact HP

theorem scopedS1_in (c : Dev nD) (P : sProp 𝕄) : iprop(restS1 c ∗ P) ⊢ scopedS1 c P := by
  unfold scopedS1 restS1
  iintro ⟨⟨R0, R1, R2, R3, R4, R5, R6, R7, R8, R9, R10, R11, R12, R13, R14, R15⟩, HP⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  iexact HP

/-- The region invariant of the class: the scoped rest with the scratch operand as a memref owned at some contents,
    beside the generator register. -/
theorem PhiA1_eq (c : Dev nD) :
    (Pipeline.ΦA spec1 c : sProp 𝕄)
      = iprop(scopedS1 c iprop(∃ d, owns (c : Thread nD τ) scM1_0 fullShare d) ∗ (∃ r, prngReg c r)) := by
  unfold Pipeline.ΦA scopedS1; rw [scopedRest1_eq]; simp only [scM1_0, owns_whole]; try rfl

/-! ## The windows' blocks -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Cert.KernelIdeal.Fr

end
-- ==== Proof.KIReg1RunA.lean ====
/-
  Region 1, the case of a point whose second coordinate is 0 (the accumulator is reset, then added to; nothing is
  written to the output): the body's triple on whole memrefs, the pieces the accumulator ends with found by the run.
-/
import proofs.«169424_j14061722927686_1_alg».proof.Proof.KIReg1Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x128 .f32) (harg7 : arg7.IsWhole) (hc0 : cond1_0 i) (hc1 : ¬cond1_1 i)
    (x0 : Vec F S128x128 .f32) (x1 : Vec F S128x128 .f32) (x2 : Vec F S128x128 .f32) (x3 : Vec F S128x1 .f32) :
    Σ' (L4 : List (View.Piece (Elt F) S128x1 .f32)), { LS0 : List (View.Piece (Elt F) S128x128 .f32) //
      ∀ (xi4 : Vec F S128x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__neg_kernel i arg2 harg2 arg3 harg3 arg4 harg4 arg5 harg5 arg6 harg6 arg7 harg7) K } := by
  refine ⟨[], ?_, fun xi4 E K => ?run⟩
  case run =>
    simp only [cc1__neg_kernel_eq_skeleton]; unfold cc1__neg_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.KIReg1RunB.lean ====
/-
  Region 1, the case of a point whose second coordinate is neither 0 nor 7 (the accumulator is added to; nothing is
  written to the output).
-/
import proofs.«169424_j14061722927686_1_alg».proof.Proof.KIReg1RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x128 .f32) (harg7 : arg7.IsWhole) (hc0 : ¬cond1_0 i) (hc1 : ¬cond1_1 i)
    (x0 : Vec F S128x128 .f32) (x1 : Vec F S128x128 .f32) (x2 : Vec F S128x128 .f32) (x3 : Vec F S128x1 .f32) (xs0 : Vec F S128x128 .f32) :
    Σ' (L4 : List (View.Piece (Elt F) S128x1 .f32)), { LS0 : List (View.Piece (Elt F) S128x128 .f32) //
      ∀ (xi4 : Vec F S128x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__neg_kernel i arg2 harg2 arg3 harg3 arg4 harg4 arg5 harg5 arg6 harg6 arg7 harg7) K } := by
  refine ⟨[], ?_, fun xi4 E K => ?run⟩
  case run =>
    simp only [cc1__neg_kernel_eq_skeleton]; unfold cc1__neg_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.KIReg1RunC.lean ====
/-
  Region 1, the case of a point whose second coordinate is 7 (the accumulator is added to, then the row result is
  computed from it and written to the output).
-/
import proofs.«169424_j14061722927686_1_alg».proof.Proof.KIReg1RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x128 .f32) (harg7 : arg7.IsWhole) (hc0 : ¬cond1_0 i) (hc1 : cond1_1 i)
    (x0 : Vec F S128x128 .f32) (x1 : Vec F S128x128 .f32) (x2 : Vec F S128x128 .f32) (x3 : Vec F S128x1 .f32) (xs0 : Vec F S128x128 .f32) :
    Σ' (L4 : List (View.Piece (Elt F) S128x1 .f32)), { LS0 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__neg_kernel i arg2 harg2 arg3 harg3 arg4 harg4 arg5 harg5 arg6 harg6 arg7 harg7) K } := by
  refine ⟨?_, ?_, fun E K => ?run⟩
  case run =>
    simp only [cc1__neg_kernel_eq_skeleton]; unfold cc1__neg_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Fr

end
-- ==== Proof.KIReg1.lean ====
/-
  Region 1 (the pairwise accumulation kernel) at a parameter `V`: what each control case leaves in the output buffer and
  in the accumulator it carries between grid points; the accumulator's contents point by point, by recursion on the
  point; the proof data, the body obligation at every point, and the invariant in and out. Generic in the float
  instance.
-/
import proofs.«169424_j14061722927686_1_alg».proof.Proof.KIReg1RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first case stores nothing into the output (idle there and not written back): a placeholder nothing consults. -/
def out1_A_4 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x128 .f32) (harg7 : arg7.IsWhole) (hc0 : cond1_0 i) (hc1 : ¬cond1_1 i)
    (x0 : Vec F S128x128 .f32) (x1 : Vec F S128x128 .f32) (x2 : Vec F S128x128 .f32) (x3 : Vec F S128x1 .f32) : Vec F S128x1 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

theorem scover1_A_0 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x128 .f32) (harg7 : arg7.IsWhole) (hc0 : cond1_0 i) (hc1 : ¬cond1_1 i)
    (x0 : Vec F S128x128 .f32) (x1 : Vec F S128x128 .f32) (x2 : Vec F S128x128 .f32) (x3 : Vec F S128x1 .f32) (y : S128x128.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S128x128.size (by sl_kernel_rfl) y

/-- What the first case leaves in the accumulator: its pieces read back. -/
def sout1_A_0 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x128 .f32) (harg7 : arg7.IsWhole) (hc0 : cond1_0 i) (hc1 : ¬cond1_1 i)
    (x0 : Vec F S128x128 .f32) (x1 : Vec F S128x128 .f32) (x2 : Vec F S128x128 .f32) (x3 : Vec F S128x1 .f32) : Vec F S128x128 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

def out1_B_4 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x128 .f32) (harg7 : arg7.IsWhole) (hc0 : ¬cond1_0 i) (hc1 : ¬cond1_1 i)
    (x0 : Vec F S128x128 .f32) (x1 : Vec F S128x128 .f32) (x2 : Vec F S128x128 .f32) (x3 : Vec F S128x1 .f32) (xs0 : Vec F S128x128 .f32) : Vec F S128x1 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

theorem scover1_B_0 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x128 .f32) (harg7 : arg7.IsWhole) (hc0 : ¬cond1_0 i) (hc1 : ¬cond1_1 i)
    (x0 : Vec F S128x128 .f32) (x1 : Vec F S128x128 .f32) (x2 : Vec F S128x128 .f32) (x3 : Vec F S128x1 .f32) (xs0 : Vec F S128x128 .f32) (y : S128x128.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S128x128.size (by sl_kernel_rfl) y

def sout1_B_0 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x128 .f32) (harg7 : arg7.IsWhole) (hc0 : ¬cond1_0 i) (hc1 : ¬cond1_1 i)
    (x0 : Vec F S128x128 .f32) (x1 : Vec F S128x128 .f32) (x2 : Vec F S128x128 .f32) (x3 : Vec F S128x1 .f32) (xs0 : Vec F S128x128 .f32) : Vec F S128x128 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

theorem cover1_C_4 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x128 .f32) (harg7 : arg7.IsWhole) (hc0 : ¬cond1_0 i) (hc1 : cond1_1 i)
    (x0 : Vec F S128x128 .f32) (x1 : Vec F S128x128 .f32) (x2 : Vec F S128x128 .f32) (x3 : Vec F S128x1 .f32) (xs0 : Vec F S128x128 .f32) (y : S128x1.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S128x1.size (by sl_kernel_rfl) y

/-- What the last case leaves in the output buffer: its one store read back. -/
def out1_C_4 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x128 .f32) (harg7 : arg7.IsWhole) (hc0 : ¬cond1_0 i) (hc1 : cond1_1 i)
    (x0 : Vec F S128x128 .f32) (x1 : Vec F S128x128 .f32) (x2 : Vec F S128x128 .f32) (x3 : Vec F S128x1 .f32) (xs0 : Vec F S128x128 .f32) : Vec F S128x1 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

theorem scover1_C_0 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x128 .f32) (harg7 : arg7.IsWhole) (hc0 : ¬cond1_0 i) (hc1 : cond1_1 i)
    (x0 : Vec F S128x128 .f32) (x1 : Vec F S128x128 .f32) (x2 : Vec F S128x128 .f32) (x3 : Vec F S128x1 .f32) (xs0 : Vec F S128x128 .f32) (y : S128x128.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S128x128.size (by sl_kernel_rfl) y

def sout1_C_0 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x128 .f32) (harg7 : arg7.IsWhole) (hc0 : ¬cond1_0 i) (hc1 : cond1_1 i)
    (x0 : Vec F S128x128 .f32) (x1 : Vec F S128x128 .f32) (x2 : Vec F S128x128 .f32) (x3 : Vec F S128x1 .f32) (xs0 : Vec F S128x128 .f32) : Vec F S128x128 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

/-! ## What the output buffer and the accumulator hold after each point -/

/-- After the body at position `n`: the output buffer's contents, then the accumulator's — the case the closed forms
    select at `n`, run at the point's memrefs and input blocks, over what the accumulator held after `n - 1`. -/
def outsAt1 (c : Dev nD) : (n : ℕ) → n < cfg1.N → Vec F S128x1 .f32 × Vec F S128x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      if h1 : (n + 1) % 8 = 7 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the accumulator at anything);
    afterwards the scoped rest with the accumulator at what the point before left in it, and the generator register. -/
def PhiS1 (c : Dev nD) : (n : ℕ) → n ≤ cfg1.N → sProp 𝕄
  | 0, _ => Pipeline.ΦA spec1 c
  | n + 1, hn => iprop(scopedS1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scopedS1 c (owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(scopedS1 c (owns (c : Thread nD τ) scM1_0 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]

end Cert.KernelIdeal.Fr

end
-- ==== Proof.KIReg1Body.lean ====
/-
  Region 1: the body obligation at every grid point. The closed forms of the two conditions say which case a point is
  in; the invariant hands the body the accumulator at what the point before left (at anything at the first point) and
  takes it back at this point's contents; the output buffer is handed back untouched where the case stores nothing.
-/
import proofs.«169424_j14061722927686_1_alg».proof.Proof.KIReg1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · rw [leaves1_0, leaves1_1, leaves1_2, leaves1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨HSc, Hg⟩, Ho, ⟨%d0, H0⟩, ⟨%d1, H1⟩, ⟨%d2, H2⟩, ⟨%d3, H3⟩, ⟨%d4, H4⟩⟩
        ihave HSc' := (scopedS1_out c _) $$ HSc
        icases HSc' with ⟨HR, HS0⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR HS0 Hg]
        · isplitl [HR HS0]
          · iapply (scopedS1_in c _)
            isplitl [HR]; · iexact HR
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨HSc, Hg⟩, Ho, ⟨%d0, H0⟩, ⟨%d1, H1⟩, ⟨%d2, H2⟩, ⟨%d3, H3⟩, ⟨%d4, H4⟩⟩
        ihave HSc' := (scopedS1_out c _) $$ HSc
        icases HSc' with ⟨HR, HS0⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HR HS0 Hg]
        · isplitl [HR HS0]
          · iapply (scopedS1_in c _)
            isplitl [HR]; · iexact HR
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · rw [leaves1_0, leaves1_1, leaves1_2, leaves1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0; (try dsimp only)
      by_cases hz : t.val = 0
      · exfalso; omega
      · rw [PhiS1_castSucc V c t, PhiS1_pos V c _ _ hz]
        iintro ⟨⟨HSc, Hg⟩, Ho, ⟨%d0, H0⟩, ⟨%d1, H1⟩, ⟨%d2, H2⟩, ⟨%d3, H3⟩, ⟨%d4, H4⟩⟩
        ihave HSc' := (scopedS1_out c _) $$ HSc
        icases HSc' with ⟨HR, HS0⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HR HS0 Hg]
        · isplitl [HR HS0]
          · iapply (scopedS1_in c _)
            isplitl [HR]; · iexact HR
            unfold owns; iexists _; isplitr
            swap; · iexact HS0
            ipureintro; exact View.read_writes_of_cover _ _ _ _ _ (scover1_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _)
    · rw [leaves1_0, leaves1_1, leaves1_2, leaves1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨HSc, Hg⟩, Ho, ⟨%d0, H0⟩, ⟨%d1, H1⟩, ⟨%d2, H2⟩, ⟨%d3, H3⟩, ⟨%d4, H4⟩⟩
        ihave HSc' := (scopedS1_out c _) $$ HSc
        icases HSc' with ⟨HR, HS0⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR HS0 Hg]
        · isplitl [HR HS0]
          · iapply (scopedS1_in c _)
            isplitl [HR]; · iexact HR
            unfold owns; iexists _; isplitr
            swap; · iexact HS0
            ipureintro; exact View.read_writes_of_cover _ _ _ _ _ (scover1_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨HSc, Hg⟩
  isplitl [HSc]
  · ihave HSc' := (scopedS1_out c _) $$ HSc
    icases HSc' with ⟨HR, HS0⟩
    iapply (scopedS1_in c _)
    isplitl [HR]; · iexact HR
    iexists _; iexact HS0
  iexact Hg

end Cert.KernelIdeal.Fr

end
-- ==== Proof.KIRun.lean ====
/-
  The run of the whole program: the contents of every unscoped buffer at each boundary between @main's four items (the
  three bias reshapes; the perceptron kernel; the pairwise kernel; the final mean), a fold from the launch memory; both
  pipelines' proof data at their regions' entry contents; the two regions and the two host stretches as segments; and
  the launch: every weakly fair execution terminates with every unscoped buffer at the last boundary's contents.
  Generic in the float instance.
-/
import proofs.«169424_j14061722927686_1_alg».proof.Proof.KIReg0
import proofs.«169424_j14061722927686_1_alg».proof.Proof.KIReg1Body

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m ((c : Dev nD), b)
/-- After the three reshapes (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit (the second's entry): its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the final mean (the program's end). -/
abbrev W4 : Dev nD → Valuation τ sig (Elt F) := fun c => StableHlo.after hostOps2 (W3 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the class
    invariant and out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are
    split out of the unscoped buffers and put back at the exit contents; the generator register goes into the class
    invariant and out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    rw [Pipeline.ownSems0_none]
    refine BIBase.Entails.trans (hout1 (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh' (W0 m)),
    .region (reg0 m),
    .region (reg1 m),
    .host (hseg hostOps2 hostOps2_sub hostOps2_fresh' (W3 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    in every final state each unscoped buffer holds the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Fr

end
-- ==== Proof.KIArgs.lean ====
/-
  No item of @main writes an argument array: at every boundary each argument's buffer holds its launch contents. A
  host stretch writes only its own results; a region changes only its output windows' arrays (an argument it reads
  through an input window ends as it was entered). Generic in the float instance.
-/
import proofs.«169424_j14061722927686_1_alg».proof.Proof.KIRun
import proofs.«169424_j14061722927686_1_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem W1_arg0 (c : Dev nD) : W1 m c (Proc.devRef .tc main_arg0) = m ((c : Thread nD τ).loc main_arg0) :=
  (StableHlo.after_of_writes_sub hostOps0 _ hostOps0_writes (by decide : main_arg0 ∉ hostOps0_W)).trans rfl
theorem W1_arg1 (c : Dev nD) : W1 m c (Proc.devRef .tc main_arg1) = m ((c : Thread nD τ).loc main_arg1) :=
  (StableHlo.after_of_writes_sub hostOps0 _ hostOps0_writes (by decide : main_arg1 ∉ hostOps0_W)).trans rfl
theorem W1_arg2 (c : Dev nD) : W1 m c (Proc.devRef .tc main_arg2) = m ((c : Thread nD τ).loc main_arg2) :=
  (StableHlo.after_of_writes_sub hostOps0 _ hostOps0_writes (by decide : main_arg2 ∉ hostOps0_W)).trans rfl
theorem W1_arg3 (c : Dev nD) : W1 m c (Proc.devRef .tc main_arg3) = m ((c : Thread nD τ).loc main_arg3) :=
  (StableHlo.after_of_writes_sub hostOps0 _ hostOps0_writes (by decide : main_arg3 ∉ hostOps0_W)).trans rfl
theorem W1_arg4 (c : Dev nD) : W1 m c (Proc.devRef .tc main_arg4) = m ((c : Thread nD τ).loc main_arg4) :=
  (StableHlo.after_of_writes_sub hostOps0 _ hostOps0_writes (by decide : main_arg4 ∉ hostOps0_W)).trans rfl
theorem W1_arg5 (c : Dev nD) : W1 m c (Proc.devRef .tc main_arg5) = m ((c : Thread nD τ).loc main_arg5) :=
  (StableHlo.after_of_writes_sub hostOps0 _ hostOps0_writes (by decide : main_arg5 ∉ hostOps0_W)).trans rfl
theorem W1_arg6 (c : Dev nD) : W1 m c (Proc.devRef .tc main_arg6) = m ((c : Thread nD τ).loc main_arg6) :=
  (StableHlo.after_of_writes_sub hostOps0 _ hostOps0_writes (by decide : main_arg6 ∉ hostOps0_W)).trans rfl
theorem W1_arg7 (c : Dev nD) : W1 m c (Proc.devRef .tc main_arg7) = m ((c : Thread nD τ).loc main_arg7) :=
  (StableHlo.after_of_writes_sub hostOps0 _ hostOps0_writes (by decide : main_arg7 ∉ hostOps0_W)).trans rfl

theorem W2_arg0 (c : Dev nD) : W2 m c (Proc.devRef .tc main_arg0) = m ((c : Thread nD τ).loc main_arg0) :=
  (W2_arr m c 0).trans ((((dat0 (V1 m) c).arrAt_in 0 rfl _).trans (A_eq0 (V1 m) c 0)).trans (W1_arg0 m c))
theorem W2_arg1 (c : Dev nD) : W2 m c (Proc.devRef .tc main_arg1) = m ((c : Thread nD τ).loc main_arg1) :=
  (W2_arr m c 1).trans ((((dat0 (V1 m) c).arrAt_in 1 rfl _).trans (A_eq0 (V1 m) c 1)).trans (W1_arg1 m c))
theorem W2_arg2 (c : Dev nD) : W2 m c (Proc.devRef .tc main_arg2) = m ((c : Thread nD τ).loc main_arg2) :=
  (W2_arr m c 2).trans ((((dat0 (V1 m) c).arrAt_in 2 rfl _).trans (A_eq0 (V1 m) c 2)).trans (W1_arg2 m c))
theorem W2_arg3 (c : Dev nD) : W2 m c (Proc.devRef .tc main_arg3) = m ((c : Thread nD τ).loc main_arg3) :=
  (W2_of_ne m c main_arg3 (by decide)).trans (W1_arg3 m c)
theorem W2_arg4 (c : Dev nD) : W2 m c (Proc.devRef .tc main_arg4) = m ((c : Thread nD τ).loc main_arg4) :=
  (W2_arr m c 4).trans ((((dat0 (V1 m) c).arrAt_in 4 rfl _).trans (A_eq0 (V1 m) c 4)).trans (W1_arg4 m c))
theorem W2_arg5 (c : Dev nD) : W2 m c (Proc.devRef .tc main_arg5) = m ((c : Thread nD τ).loc main_arg5) :=
  (W2_of_ne m c main_arg5 (by decide)).trans (W1_arg5 m c)
theorem W2_arg6 (c : Dev nD) : W2 m c (Proc.devRef .tc main_arg6) = m ((c : Thread nD τ).loc main_arg6) :=
  (W2_arr m c 6).trans ((((dat0 (V1 m) c).arrAt_in 6 rfl _).trans (A_eq0 (V1 m) c 6)).trans (W1_arg6 m c))
theorem W2_arg7 (c : Dev nD) : W2 m c (Proc.devRef .tc main_arg7) = m ((c : Thread nD τ).loc main_arg7) :=
  (W2_of_ne m c main_arg7 (by decide)).trans (W1_arg7 m c)

theorem W3_arg0 (c : Dev nD) : W3 m c (Proc.devRef .tc main_arg0) = m ((c : Thread nD τ).loc main_arg0) :=
  (W3_of_ne m c main_arg0 (by decide)).trans (W2_arg0 m c)
theorem W3_arg1 (c : Dev nD) : W3 m c (Proc.devRef .tc main_arg1) = m ((c : Thread nD τ).loc main_arg1) :=
  (W3_arr m c 1).trans ((((dat1 (V2 m) c).arrAt_in 1 rfl _).trans (A_eq1 (V2 m) c 1)).trans (W2_arg1 m c))
theorem W3_arg2 (c : Dev nD) : W3 m c (Proc.devRef .tc main_arg2) = m ((c : Thread nD τ).loc main_arg2) :=
  (W3_of_ne m c main_arg2 (by decide)).trans (W2_arg2 m c)
theorem W3_arg3 (c : Dev nD) : W3 m c (Proc.devRef .tc main_arg3) = m ((c : Thread nD τ).loc main_arg3) :=
  (W3_of_ne m c main_arg3 (by decide)).trans (W2_arg3 m c)
theorem W3_arg4 (c : Dev nD) : W3 m c (Proc.devRef .tc main_arg4) = m ((c : Thread nD τ).loc main_arg4) :=
  (W3_of_ne m c main_arg4 (by decide)).trans (W2_arg4 m c)
theorem W3_arg5 (c : Dev nD) : W3 m c (Proc.devRef .tc main_arg5) = m ((c : Thread nD τ).loc main_arg5) :=
  (W3_of_ne m c main_arg5 (by decide)).trans (W2_arg5 m c)
theorem W3_arg6 (c : Dev nD) : W3 m c (Proc.devRef .tc main_arg6) = m ((c : Thread nD τ).loc main_arg6) :=
  (W3_of_ne m c main_arg6 (by decide)).trans (W2_arg6 m c)
theorem W3_arg7 (c : Dev nD) : W3 m c (Proc.devRef .tc main_arg7) = m ((c : Thread nD τ).loc main_arg7) :=
  (W3_of_ne m c main_arg7 (by decide)).trans (W2_arg7 m c)

theorem W4_arg0 (c : Dev nD) : W4 m c (Proc.devRef .tc main_arg0) = m ((c : Thread nD τ).loc main_arg0) :=
  (StableHlo.after_of_writes_sub hostOps2 _ hostOps2_writes (by decide : main_arg0 ∉ hostOps2_W)).trans (W3_arg0 m c)
theorem W4_arg1 (c : Dev nD) : W4 m c (Proc.devRef .tc main_arg1) = m ((c : Thread nD τ).loc main_arg1) :=
  (StableHlo.after_of_writes_sub hostOps2 _ hostOps2_writes (by decide : main_arg1 ∉ hostOps2_W)).trans (W3_arg1 m c)
theorem W4_arg2 (c : Dev nD) : W4 m c (Proc.devRef .tc main_arg2) = m ((c : Thread nD τ).loc main_arg2) :=
  (StableHlo.after_of_writes_sub hostOps2 _ hostOps2_writes (by decide : main_arg2 ∉ hostOps2_W)).trans (W3_arg2 m c)
theorem W4_arg3 (c : Dev nD) : W4 m c (Proc.devRef .tc main_arg3) = m ((c : Thread nD τ).loc main_arg3) :=
  (StableHlo.after_of_writes_sub hostOps2 _ hostOps2_writes (by decide : main_arg3 ∉ hostOps2_W)).trans (W3_arg3 m c)
theorem W4_arg4 (c : Dev nD) : W4 m c (Proc.devRef .tc main_arg4) = m ((c : Thread nD τ).loc main_arg4) :=
  (StableHlo.after_of_writes_sub hostOps2 _ hostOps2_writes (by decide : main_arg4 ∉ hostOps2_W)).trans (W3_arg4 m c)
theorem W4_arg5 (c : Dev nD) : W4 m c (Proc.devRef .tc main_arg5) = m ((c : Thread nD τ).loc main_arg5) :=
  (StableHlo.after_of_writes_sub hostOps2 _ hostOps2_writes (by decide : main_arg5 ∉ hostOps2_W)).trans (W3_arg5 m c)
theorem W4_arg6 (c : Dev nD) : W4 m c (Proc.devRef .tc main_arg6) = m ((c : Thread nD τ).loc main_arg6) :=
  (StableHlo.after_of_writes_sub hostOps2 _ hostOps2_writes (by decide : main_arg6 ∉ hostOps2_W)).trans (W3_arg6 m c)
theorem W4_arg7 (c : Dev nD) : W4 m c (Proc.devRef .tc main_arg7) = m ((c : Thread nD τ).loc main_arg7) :=
  (StableHlo.after_of_writes_sub hostOps2 _ hostOps2_writes (by decide : main_arg7 ∉ hostOps2_W)).trans (W3_arg7 m c)

/-- THE FRAME: from any memory with zero counters every weakly fair execution of @main terminates, nothing faulting,
    and every final state has the eight argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  (θ_run defs _ _).mono (fun r h c => ⟨(h c _ (mem_uc main_arg0 (by decide))).trans (W4_arg0 m c),
    (h c _ (mem_uc main_arg1 (by decide))).trans (W4_arg1 m c),
    (h c _ (mem_uc main_arg2 (by decide))).trans (W4_arg2 m c),
    (h c _ (mem_uc main_arg3 (by decide))).trans (W4_arg3 m c),
    (h c _ (mem_uc main_arg4 (by decide))).trans (W4_arg4 m c),
    (h c _ (mem_uc main_arg5 (by decide))).trans (W4_arg5 m c),
    (h c _ (mem_uc main_arg6 (by decide))).trans (W4_arg6 m c),
    (h c _ (mem_uc main_arg7 (by decide))).trans (W4_arg7 m c)⟩) (run_all m ρ)

end Cert.KernelIdeal.Fr

end
-- ==== Proof.KIValHost.lean ====
/-
  The host side of the kernel program's value at the ideal instance: the result buffer after the final mean as the
  mean of the second region's output array; that array and the first region's three output arrays at the boundaries;
  and the contents the first region is entered from — the arguments as launched, the three biases through their
  [1, 256] reshapes.
-/
import proofs.«169424_j14061722927686_1_alg».proof.Proof.KIRun
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

set_option maxRecDepth 16384

noncomputable section

namespace Cert.KernelIdeal.Fr

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- The result buffer at the end: the second region's output array summed (from 0) and divided by 1024. -/
theorem W4_v6 (c : Dev nD) :
    W4 m c (Proc.devRef .tc main_v6) = Host.divf (Host.reduceAdd (W3 m c (Proc.devRef .tc main_v4)) (constant (F := Ideal) S_ .f32 0x00000000#32) reducesTo_S1024x1_S_d0_1 h_S_) (constant (F := Ideal) S_ .f32 0x44800000#32) := by
  show StableHlo.after hostOps2 (W3 m c) (Proc.devRef .tc main_v6) = _
  after_results

/-- A sum from 0 over a [1024, 1] array, at the one index of the result: 0 plus the sum over the 1024 rows. -/
theorem total_rows (x : FVec Ideal S1024x1 .f32) (i : S_.Idx) :
    Host.reduceAdd x (constant (F := Ideal) S_ .f32 0x00000000#32) reducesTo_S1024x1_S_d0_1 h_S_ i = 0 + ∑ r : Fin 1024, x (ix2 r 0) := by
  unfold Host.reduceAdd
  rw [Ideal.hostReduceAdd_def, Ideal.hostReduceAdd_total _ (fun b => b.elim0)]
  refine congrArg₂ (· + ·) Ideal.ofBits_zero_f32 ?_
  rw [sum_idx2]
  exact Finset.sum_congr rfl fun r _ => Fin.sum_univ_one _

/-- The second region's output array at its exit is what its pipeline leaves. -/
theorem W3_v4 (c : Dev nD) : W3 m c (Proc.devRef .tc main_v4) = (dat1 (V2 m) c).arrAt 4 cfg1.N := W3_arr m c 4

/-- The first region's three output arrays at its exit are what its pipeline leaves. -/
theorem W2_v3_0 (c : Dev nD) : W2 m c (Proc.devRef .tc main_v3_0) = (dat0 (V1 m) c).arrAt 8 cfg0.N := W2_arr m c 8
theorem W2_v3_1 (c : Dev nD) : W2 m c (Proc.devRef .tc main_v3_1) = (dat0 (V1 m) c).arrAt 9 cfg0.N := W2_arr m c 9
theorem W2_v3_2 (c : Dev nD) : W2 m c (Proc.devRef .tc main_v3_2) = (dat0 (V1 m) c).arrAt 10 cfg0.N := W2_arr m c 10

/-- Each bias, as the first region finds it: its [1, 256] reshape, whose entry (0, n) is the bias's entry n. -/
theorem W1_v0 (c : Dev nD) (n : Fin 256) :
    W1 m c (Proc.devRef .tc main_v0) (ix2 0 n) = m ((c : Thread nD τ).loc main_arg3) (ix1 n) := by
  have e : W1 m c (Proc.devRef .tc main_v0) = shapeCast S1x256 (m ((c : Thread nD τ).loc main_arg3)) shapeCasts_S256_S1x256 := by
    show StableHlo.after hostOps0 (W0 m c) (Proc.devRef .tc main_v0) = _
    after_results
    rfl
  rw [e]
  exact shapeCast_a_1a_apply _ _ 0 n
theorem W1_v1 (c : Dev nD) (n : Fin 256) :
    W1 m c (Proc.devRef .tc main_v1) (ix2 0 n) = m ((c : Thread nD τ).loc main_arg5) (ix1 n) := by
  have e : W1 m c (Proc.devRef .tc main_v1) = shapeCast S1x256 (m ((c : Thread nD τ).loc main_arg5)) shapeCasts_S256_S1x256 := by
    show StableHlo.after hostOps0 (W0 m c) (Proc.devRef .tc main_v1) = _
    after_results
    rfl
  rw [e]
  exact shapeCast_a_1a_apply _ _ 0 n
theorem W1_v2 (c : Dev nD) (n : Fin 256) :
    W1 m c (Proc.devRef .tc main_v2) (ix2 0 n) = m ((c : Thread nD τ).loc main_arg7) (ix1 n) := by
  have e : W1 m c (Proc.devRef .tc main_v2) = shapeCast S1x256 (m ((c : Thread nD τ).loc main_arg7)) shapeCasts_S256_S1x256 := by
    show StableHlo.after hostOps0 (W0 m c) (Proc.devRef .tc main_v2) = _
    after_results
    rfl
  rw [e]
  exact shapeCast_a_1a_apply _ _ 0 n

end Cert.KernelIdeal.Fr

end
-- ==== Proof.Spec.lean ====
/-
  The mathematics of the two programs, index by index over the extended reals, with no program in sight.

  A row `x` of 256 numbers goes through three dense layers (`dense`: the row times a 256 × 256 matrix plus a bias), the
  first two followed by `max · 0`, the third by `tanh`; the first 128 outputs are the means `mu`, the exponential of
  minus the last 128 the inverse variances `iv`. Against a row `y` of 128 numbers the same-index term is
  `∑ d, -½ (mu d - y d)² iv d`; against ALL 1024 rows `Y` the pairwise term is
  `-½ ∑ d, (∑ j, (mu d - Y j d)²) / 1024 · iv d`; a row's result is the first minus the second, and the program's result
  is the mean of the 1024 row results. The kernel and the reference spell these with different associations (the
  kernel multiplies by 2⁻¹⁰ where the reference divides by 1024, pulls -½ out of the sum over `d`, and sums the 1024 rows
  `j` as 8 blocks of 128): both spellings are stated here, and `Bridge` proves them equal.
-/
import Idealize.ShloMosaic.Lib.ValueIdx
import Idealize.ShloMosaic.PureOps.Ideal.Laws
import Mathlib.Algebra.BigOperators.Fin

noncomputable section

namespace Cert.Spec

open Idealize.ShloMosaic Idealize.ShloMosaic.ValueIdx

abbrev Mat (m n : ℕ) := (⟨2, ![m, n]⟩ : Shape).Idx → EReal
abbrev Vc (n : ℕ) := (⟨1, ![n]⟩ : Shape).Idx → EReal

/-- The three layers' weights and biases. -/
structure Params where
  W1 : Mat 256 256
  b1 : Vc 256
  W2 : Mat 256 256
  b2 : Vc 256
  W3 : Mat 256 256
  b3 : Vc 256

/-- The float constants the programs spell: -½, 2⁻¹⁰ and 1024 (as their f32 patterns denote them). -/
abbrev cHalfNeg : EReal := Ideal.ofBits .f32 0xBF000000#32
abbrev cInv1024 : EReal := Ideal.ofBits .f32 0x3A800000#32
abbrev c1024 : EReal := Ideal.ofBits .f32 0x44800000#32

/-- One entry of a dense layer applied to the row `x`: the row times column `n` of `W`, plus the bias. -/
def dense (W : Mat 256 256) (b : Vc 256) (x : Fin 256 → EReal) (n : Fin 256) : EReal :=
  (∑ k : Fin 256, x k * W (ix2 k n)) + b (ix1 n)

variable (P : Params)

def hid1 (x : Fin 256 → EReal) (n : Fin 256) : EReal := max (dense P.W1 P.b1 x n) 0
def hid2 (x : Fin 256 → EReal) (n : Fin 256) : EReal := max (dense P.W2 P.b2 (hid1 P x) n) 0
def gate (x : Fin 256 → EReal) (n : Fin 256) : EReal := Ideal.tanh (dense P.W3 P.b3 (hid2 P x) n)
/-- The means: the first 128 outputs. -/
def mu (x : Fin 256 → EReal) (d : Fin 128) : EReal := gate P x ⟨d.val, by have := d.isLt; omega⟩
/-- The log-variances: the last 128. -/
def lv (x : Fin 256 → EReal) (d : Fin 128) : EReal := gate P x ⟨128 + d.val, by have := d.isLt; omega⟩
/-- The inverse variances. -/
def iv (x : Fin 256 → EReal) (d : Fin 128) : EReal := Ideal.exp (-(lv P x d))

/-! ## The kernel's spelling -/

/-- The same-index term of a row, as the kernel associates it. -/
def posK (x : Fin 256 → EReal) (y : Fin 128 → EReal) : EReal :=
  ∑ d : Fin 128, ((cHalfNeg * (mu P x d - y d)) * (mu P x d - y d)) * iv P x d
/-- The accumulator after the first `n` blocks of 128 rows: the squared differences of the number `a` (a mean) against
    the numbers `y j` (one column of the other array), added up a block at a time. -/
def accG (a : EReal) (y : Fin 1024 → EReal) : ℕ → EReal
  | 0 => 0
  | n + 1 => accG a y n + ∑ q : Fin 128, (a - y ⟨(128 * n + q.val) % 1024, Nat.mod_lt _ (by decide)⟩) * (a - y ⟨(128 * n + q.val) % 1024, Nat.mod_lt _ (by decide)⟩)
/-- A row's result from its means `mu`, its inverse variances `iv`, its same-index term `ps` and all the rows `Y`, as the
    second kernel computes it from the accumulator after all 8 blocks. -/
def rowG (mu iv : Fin 128 → EReal) (ps : EReal) (Y : Fin 1024 → Fin 128 → EReal) : EReal :=
  ps - cHalfNeg * ∑ d : Fin 128, (accG (mu d) (fun j => Y j d) 8 * cInv1024) * iv d
/-- A row's result, as the two kernels together compute it. -/
def rowK (Y : Fin 1024 → Fin 128 → EReal) (x : Fin 256 → EReal) (y : Fin 128 → EReal) : EReal :=
  rowG (mu P x) (iv P x) (posK P x y) Y
/-- The kernel program's result. -/
def resK (X : Fin 1024 → Fin 256 → EReal) (Y : Fin 1024 → Fin 128 → EReal) : EReal :=
  Ideal.div (0 + ∑ r : Fin 1024, rowK P Y (X r) (Y r)) c1024

/-! ## The reference's spelling -/

def posR (x : Fin 256 → EReal) (y : Fin 128 → EReal) : EReal :=
  0 + ∑ d : Fin 128, (cHalfNeg * ((mu P x d - y d) * (mu P x d - y d))) * iv P x d
def negR (Y : Fin 1024 → Fin 128 → EReal) (x : Fin 256 → EReal) : EReal :=
  0 + ∑ d : Fin 128, (cHalfNeg * Ideal.div (0 + ∑ j : Fin 1024, (mu P x d - Y j d) * (mu P x d - Y j d)) c1024) * iv P x d
def resR (X : Fin 1024 → Fin 256 → EReal) (Y : Fin 1024 → Fin 128 → EReal) : EReal :=
  Ideal.div (0 + ∑ r : Fin 1024, (posR P (X r) (Y r) - negR P Y (X r))) c1024

end Cert.Spec

end
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.KIVal0a.lean ====
/-
  The first kernel region's arithmetic at the ideal values, entry by entry: from the blocks its body loads — 256 rows of
  the first argument, the three weight matrices and the three bias rows, 256 rows of the second argument — each entry of
  what it stores is the specification's function of ONE row of the first block: three dense layers (a row times a column
  of the weights, plus the bias entry), the first two followed by the maximum with zero, the third by the hyperbolic
  tangent; the first 128 outputs are the means, the exponential of minus the last 128 the inverse variances, and the
  same-index term is summed over the 128 columns. A change of float format is the identity on the extended reals, and
  the one constant, the word of -½, is never evaluated.
-/
import proofs.«169424_j14061722927686_1_alg».proof.Proof.KIReg0
import proofs.«169424_j14061722927686_1_alg».proof.Proof.Spec
import proofs.«169424_j14061722927686_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Fr

open Cert.KernelIdeal Cert.KernelIdeal.Gen Idealize.ShloMosaic Idealize.ShloMosaic.ValueIdx
open Idealize.ShloMosaic.TcCoe

/-! ## The body's arithmetic at an entry -/

/-- The weights and the bias rows a body's loads hold, as the specification's parameters. -/
def PB (w1 : Vec Ideal S256x256 .f32) (b1 : Vec Ideal S1x256 .f32) (w2 : Vec Ideal S256x256 .f32) (b2 : Vec Ideal S1x256 .f32)
    (w3 : Vec Ideal S256x256 .f32) (b3 : Vec Ideal S1x256 .f32) : Cert.Spec.Params :=
  ⟨w1, fun n => b1 (ix2 0 (n 0)), w2, fun n => b2 (ix2 0 (n 0)), w3, fun n => b3 (ix2 0 (n 0))⟩

/-- One dense layer of the body at an entry: the product into the zero accumulator, plus the bias row broadcast over
    the 256 rows, is the row of the left operand times the column of the weights plus the bias entry. -/
theorem layer_apply (a : FVec Ideal S256x256 .bf16) (w : Vec Ideal S256x256 .f32) (b : Vec Ideal S1x256 .f32) (p n : Fin 256) :
    addf (matmul dot_S256x256_S256x256_S256x256_1_0_0_1_n_n none a (truncf .bf16 w bitsLt_bf16_f32) (constant S256x256 .f32 0x00000000#32))
        (broadcastTo S256x256 (shapeCast S1x256 b shapeCasts_S1x256_S1x256) broadcasts_S1x256_S256x256) (ix2 p n)
      = Cert.Spec.dense w (fun m => b (ix2 0 (m 0))) (fun k => a (ix2 p k)) n := by
  refine congrArg₂ (· + ·) (Cert.PlainDot.matmul_zero_apply dot_S256x256_S256x256_S256x256_1_0_0_1_n_n rfl none a (truncf .bf16 w bitsLt_bf16_f32) p n) ?_
  refine (broadcastTo_1b_ab_apply _ _ p n).trans ?_
  exact congrFun (shapeCast_self b shapeCasts_S1x256_S1x256) _

/-- A dense layer followed by the maximum with zero (and the change of format into the next product, which is the
    identity on the extended reals). -/
theorem relu_layer_apply (a : FVec Ideal S256x256 .bf16) (w : Vec Ideal S256x256 .f32) (b : Vec Ideal S1x256 .f32) (p n : Fin 256) :
    (truncf .bf16 (maximumf (addf (matmul dot_S256x256_S256x256_S256x256_1_0_0_1_n_n none a (truncf .bf16 w bitsLt_bf16_f32) (constant S256x256 .f32 0x00000000#32))
        (broadcastTo S256x256 (shapeCast S1x256 b shapeCasts_S1x256_S1x256) broadcasts_S1x256_S256x256))
        (broadcast S256x256 (Scalar.ofBits .f32 0x00000000#32))) bitsLt_bf16_f32 : FVec Ideal S256x256 .bf16) (ix2 p n)
      = max (Cert.Spec.dense w (fun m => b (ix2 0 (m 0))) (fun k => a (ix2 p k)) n) 0 := by
  refine (congrArg₂ max (layer_apply a w b p n) ?_)
  exact Ideal.ofBits_zero_f32

/-- The last layer's activations at an entry: the specification's `gate` of the row of the first block. -/
theorem gate_apply (v0 : Vec Ideal S256x256 .f32) (v2 : Vec Ideal S256x256 .f32) (v5 : Vec Ideal S1x256 .f32) (v12 : Vec Ideal S256x256 .f32)
    (v15 : Vec Ideal S1x256 .f32) (v22 : Vec Ideal S256x256 .f32) (v25 : Vec Ideal S1x256 .f32) (p n : Fin 256) :
    k0_pay2 v0 v2 v5 v12 v15 v22 v25 (ix2 p n) = Cert.Spec.gate (PB v2 v5 v12 v15 v22 v25) (fun k => v0 (ix2 p k)) n := by
  unfold k0_pay2
  refine congrArg Ideal.tanh ?_
  refine (layer_apply _ _ _ p n).trans ?_
  refine congrArg (fun f => Cert.Spec.dense v22 (fun m => v25 (ix2 0 (m 0))) f n) (funext fun k => ?_)
  refine (relu_layer_apply _ _ _ p k).trans ?_
  refine congrArg (fun f => max (Cert.Spec.dense v12 (fun m => v15 (ix2 0 (m 0))) f k) 0) (funext fun k' => ?_)
  exact relu_layer_apply _ _ _ p k'

/-- The first half of the last layer's activations at an entry: the specification's mean. -/
theorem mean_apply (v0 : Vec Ideal S256x256 .f32) (v2 : Vec Ideal S256x256 .f32) (v5 : Vec Ideal S1x256 .f32) (v12 : Vec Ideal S256x256 .f32)
    (v15 : Vec Ideal S1x256 .f32) (v22 : Vec Ideal S256x256 .f32) (v25 : Vec Ideal S1x256 .f32) (p : Fin 256) (d : Fin 128) :
    k0_pay3 v0 v2 v5 v12 v15 v22 v25 (ix2 p d) = Cert.Spec.mu (PB v2 v5 v12 v15 v22 v25) (fun k => v0 (ix2 p k)) d := by
  unfold k0_pay3
  refine (slice2_axis1_apply 0 _ slices_S256x256_o0_0_S256x128 p d ⟨d.val, by have := d.isLt; omega⟩ (Nat.zero_add _).symm).trans ?_
  exact gate_apply v0 v2 v5 v12 v15 v22 v25 p _

/-- The exponential of minus the second half at an entry: the specification's inverse variance. -/
theorem ivar_apply (v0 : Vec Ideal S256x256 .f32) (v2 : Vec Ideal S256x256 .f32) (v5 : Vec Ideal S1x256 .f32) (v12 : Vec Ideal S256x256 .f32)
    (v15 : Vec Ideal S1x256 .f32) (v22 : Vec Ideal S256x256 .f32) (v25 : Vec Ideal S1x256 .f32) (p : Fin 256) (d : Fin 128) :
    k0_pay4 v0 v2 v5 v12 v15 v22 v25 (ix2 p d) = Cert.Spec.iv (PB v2 v5 v12 v15 v22 v25) (fun k => v0 (ix2 p k)) d := by
  unfold k0_pay4
  refine congrArg Ideal.exp ?_
  refine (congrArg₂ (· - ·) Ideal.ofBits_zero_f32
    ((slice2_axis1_apply 128 _ slices_S256x256_o0_128_S256x128 p d ⟨128 + d.val, by have := d.isLt; omega⟩ rfl).trans
      (gate_apply v0 v2 v5 v12 v15 v22 v25 p _))).trans ?_
  exact (sub_eq_add_neg _ _).trans (zero_add _)

/-- The row sum the body stores as a column, at row `p`: the sum over the 128 columns of the product the body forms
    from its four operands there (the constant is the word of -½, never evaluated). -/
theorem rowsum_apply (v30 v34 : FVec Ideal S256x128 .f32) (v35 : Vec Ideal S256x128 .f32) (v36 : FVec Ideal S256x128 .f32) (p : Fin 256) (u : Fin 1) :
    k0_pay1 v30 v34 v35 v36 (ix2 p u)
      = ∑ d : Fin 128, ((Cert.Spec.cHalfNeg * v36 (ix2 p d)) * (v30 (ix2 p d) - v35 (ix2 p d))) * v34 (ix2 p d) := by
  unfold k0_pay1
  refine (shapeCast_apply _ shapeCasts_S256_S256x1 (ix2 p u) (ix1 p) ?_).trans ?_
  · rw [Shape.rowMajor_val_one, Shape.rowMajor_val_two]
    show p.val = p.val * 1 + u.val
    have := u.isLt; omega
  refine (Ideal.multiReduction_add_single _ _ reduces_S256x128_S256 _ _ (ix1 p)).trans ?_
  refine Finset.sum_congr rfl fun d _ => ?_
  have e : reduces_S256x128_S256.lift (ix1 p) d = ix2 p d := funext fun a => by
    match a with
    | ⟨0, _⟩ => rfl
    | ⟨1, _⟩ => rfl
  rw [e]
  rfl

/-- The difference of the means and the second block at an entry. -/
theorem diff_apply (v0 : Vec Ideal S256x256 .f32) (v2 : Vec Ideal S256x256 .f32) (v5 : Vec Ideal S1x256 .f32) (v12 : Vec Ideal S256x256 .f32)
    (v15 : Vec Ideal S1x256 .f32) (v22 : Vec Ideal S256x256 .f32) (v25 : Vec Ideal S1x256 .f32) (v35 : Vec Ideal S256x128 .f32) (p : Fin 256) (d : Fin 128) :
    k0_pay5 v0 v2 v5 v12 v15 v22 v25 v35 (ix2 p d) = Cert.Spec.mu (PB v2 v5 v12 v15 v22 v25) (fun k => v0 (ix2 p k)) d - v35 (ix2 p d) := by
  unfold k0_pay5
  exact congrArg (· - v35 (ix2 p d)) (mean_apply v0 v2 v5 v12 v15 v22 v25 p d)

/-! ## What the body leaves in its three output buffers, at an entry -/

/-- The zero offsets of a whole-buffer rectangle, as the constant function. -/
theorem hz : (![0, 0] : Fin 2 → Nat) = fun _ => 0 := funext fun a => by fin_cases a <;> rfl

/-- The ninth buffer at an entry: the mean of the row of the first block. -/
theorem mean0_apply (x0 : Vec Ideal S256x256 .f32) (x2 : Vec Ideal S256x256 .f32) (x3 : Vec Ideal S1x256 .f32) (x4 : Vec Ideal S256x256 .f32)
    (x5 : Vec Ideal S1x256 .f32) (x6 : Vec Ideal S256x256 .f32) (x7 : Vec Ideal S1x256 .f32) (p : Fin 256) (d : Fin 128) :
    mean0 x0 x2 x3 x4 x5 x6 x7 (ix2 p d) = Cert.Spec.mu (PB x2 x3 x4 x5 x6 x7) (fun k => x0 (ix2 p k)) d := by
  unfold mean0
  simp only [View.ld_unit_zero (S := S256x256) hz, View.ld_unit_zero (S := S1x256) hz]
  exact mean_apply x0 x2 x3 x4 x5 x6 x7 p d

/-- The tenth buffer at an entry: the inverse variance of the row of the first block. -/
theorem ivar0_apply (x0 : Vec Ideal S256x256 .f32) (x2 : Vec Ideal S256x256 .f32) (x3 : Vec Ideal S1x256 .f32) (x4 : Vec Ideal S256x256 .f32)
    (x5 : Vec Ideal S1x256 .f32) (x6 : Vec Ideal S256x256 .f32) (x7 : Vec Ideal S1x256 .f32) (p : Fin 256) (d : Fin 128) :
    ivar0 x0 x2 x3 x4 x5 x6 x7 (ix2 p d) = Cert.Spec.iv (PB x2 x3 x4 x5 x6 x7) (fun k => x0 (ix2 p k)) d := by
  unfold ivar0
  simp only [View.ld_unit_zero (S := S256x256) hz, View.ld_unit_zero (S := S1x256) hz]
  exact ivar_apply x0 x2 x3 x4 x5 x6 x7 p d

/-- The column of row sums at row `p`: the specification's same-index term of that row of the first block against that
    row of the second. -/
theorem psum0_apply (x0 : Vec Ideal S256x256 .f32) (x1 : Vec Ideal S256x128 .f32) (x2 : Vec Ideal S256x256 .f32) (x3 : Vec Ideal S1x256 .f32)
    (x4 : Vec Ideal S256x256 .f32) (x5 : Vec Ideal S1x256 .f32) (x6 : Vec Ideal S256x256 .f32) (x7 : Vec Ideal S1x256 .f32) (p : Fin 256) (u : Fin 1) :
    psum0 x0 x1 x2 x3 x4 x5 x6 x7 (ix2 p u)
      = Cert.Spec.posK (PB x2 x3 x4 x5 x6 x7) (fun k => x0 (ix2 p k)) (fun d => x1 (ix2 p d)) := by
  unfold psum0
  refine (rowsum_apply _ _ _ _ p u).trans ?_
  refine Finset.sum_congr rfl fun d _ => ?_
  rw [mean0_apply, ivar0_apply, View.ld_unit_zero (S := S256x256) hz, View.ld_unit_zero (S := S256x256) hz, View.ld_unit_zero (S := S256x256) hz,
    View.ld_unit_zero (S := S256x256) hz, View.ld_unit_zero (S := S1x256) hz, View.ld_unit_zero (S := S1x256) hz, View.ld_unit_zero (S := S1x256) hz,
    View.ld_unit_zero (S := S256x128) hz, diff_apply]

end Cert.KernelIdeal.Fr

end
-- ==== Proof.KIVal0.lean ====
/-
  The first kernel region's three output arrays at the ideal values. The region is entered from contents `V`; its grid
  has four points, and at point `t` the body reads rows `256 t … 256 t + 255` of the first two arguments and the whole
  of the six weight and bias arrays, and writes back rows `256 t … 256 t + 255` of each output. So what point `t` writes
  back is block `t` of ONE function of the arrays the region finds — row `r` of an output depends on row `r` of the
  first argument (and, for the same-index term, of the second) and on nothing else —, the four blocks fill each array
  (row `r` is in the block of the point `r / 256`), and each array after the run is that function, row by row: the
  means, the inverse variances, and the same-index terms as a column.
-/
import proofs.«169424_j14061722927686_1_alg».proof.Proof.KIVal0a
import Idealize.ShloMosaic.Lib.Pipeline.Value
import Idealize.ShloMosaic.Lib.ValueIdx

noncomputable section

namespace Cert.KernelIdeal.Fr

open Cert.KernelIdeal Cert.KernelIdeal.Gen Idealize.ShloMosaic Idealize.ShloMosaic.ValueIdx
open Idealize.ShloMosaic.TcCoe
open Idealize.ShloMosaic.Pipeline (Dat Cfg Window)

/-! ## From the blocks to the arrays

The region is entered from the contents `V`. Its first, second, ninth, tenth and eleventh windows move in blocks of 256
rows, block `t` being rows `256 t … 256 t + 255`; the six weight and bias windows are whole arrays at block index zero. -/

variable (V : (c : Dev nD) → (b : Ref sig .tc) → Buf (Elt Ideal) ((c : Thread nD τ).loc b))

/-- The parameters as the region finds them: the weights, and the biases through their [1, 256] reshapes. -/
def P0 (c : Dev nD) : Cert.Spec.Params :=
  ⟨V c main_arg2, fun n => V c main_v0 (ix2 0 (n 0)), V c main_arg4, fun n => V c main_v1 (ix2 0 (n 0)), V c main_arg6, fun n => V c main_v2 (ix2 0 (n 0))⟩
/-- Row `r` of the first argument. -/
def X0 (c : Dev nD) (r : Fin 1024) (k : Fin 256) : EReal := V c main_arg0 (ix2 r k)
/-- Row `r` of the second argument. -/
def Y0 (c : Dev nD) (r : Fin 1024) (d : Fin 128) : EReal := V c main_arg1 (ix2 r d)

/-- The windows' index maps, decided once over the four grid points: the row-blocked windows are at block `(t, 0)`, the
    whole-array windows at block `(0, 0)`. -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- Block `t` of the first window, at `(p, k)`, is the first argument at row `256 t + p`. -/
theorem iblk0_0_apply (c : Dev nD) (t : Fin cfg0.N) (p k : Fin 256) (r : Fin 1024) (hr : r.val = 256 * t.val + p.val) :
    (iblk0 V c 0 t : Vec Ideal S256x256 .f32) (ix2 p k) = X0 V c r k := by
  show V c main_arg0 (((cfg0.win 0).blk t).view.emb (ix2 p k)) = V c main_arg0 (ix2 r k)
  refine congrArg (V c main_arg0) (funext fun a => Fin.ext ?_)
  obtain ⟨⟨e0, e1⟩, -⟩ := idx0 t
  match a with
  | ⟨0, _⟩ => show win0_0.index t (0 : Fin 2) * 256 + 1 * p.val = r.val; omega
  | ⟨1, _⟩ => show win0_0.index t (1 : Fin 2) * 256 + 1 * k.val = k.val; omega

/-- Block `t` of the second window, at `(p, d)`, is the second argument at row `256 t + p`. -/
theorem iblk0_1_apply (c : Dev nD) (t : Fin cfg0.N) (p : Fin 256) (d : Fin 128) (r : Fin 1024) (hr : r.val = 256 * t.val + p.val) :
    (iblk0 V c 1 t : Vec Ideal S256x128 .f32) (ix2 p d) = Y0 V c r d := by
  show V c main_arg1 (((cfg0.win 1).blk t).view.emb (ix2 p d)) = V c main_arg1 (ix2 r d)
  refine congrArg (V c main_arg1) (funext fun a => Fin.ext ?_)
  obtain ⟨-, ⟨e0, e1⟩, -⟩ := idx0 t
  match a with
  | ⟨0, _⟩ => show win0_1.index t (0 : Fin 2) * 256 + 1 * p.val = r.val; omega
  | ⟨1, _⟩ => show win0_1.index t (1 : Fin 2) * 128 + 1 * d.val = d.val; omega

/-- Window 2 is its whole array at every point. -/
theorem iblk0_2_eq (c : Dev nD) (t : Fin cfg0.N) : (iblk0 V c 2 t : Vec Ideal S256x256 .f32) = V c main_arg2 := by
  funext y
  show V c main_arg2 (((cfg0.win 2).blk t).view.emb y) = V c main_arg2 y
  refine congrArg (V c main_arg2) (funext fun a => Fin.ext ?_)
  obtain ⟨e0, e1⟩ := (idx0 t).2.2.1
  match a with
  | ⟨0, _⟩ => show win0_2.index t (0 : Fin 2) * 256 + 1 * (y 0).val = (y 0).val; omega
  | ⟨1, _⟩ => show win0_2.index t (1 : Fin 2) * 256 + 1 * (y 1).val = (y 1).val; omega

/-- Window 3 is its whole array at every point. -/
theorem iblk0_3_eq (c : Dev nD) (t : Fin cfg0.N) : (iblk0 V c 3 t : Vec Ideal S1x256 .f32) = V c main_v0 := by
  funext y
  show V c main_v0 (((cfg0.win 3).blk t).view.emb y) = V c main_v0 y
  refine congrArg (V c main_v0) (funext fun a => Fin.ext ?_)
  obtain ⟨e0, e1⟩ := (idx0 t).2.2.2.1
  match a with
  | ⟨0, _⟩ => show win0_3.index t (0 : Fin 2) * 1 + 1 * (y 0).val = (y 0).val; omega
  | ⟨1, _⟩ => show win0_3.index t (1 : Fin 2) * 256 + 1 * (y 1).val = (y 1).val; omega

/-- Window 4 is its whole array at every point. -/
theorem iblk0_4_eq (c : Dev nD) (t : Fin cfg0.N) : (iblk0 V c 4 t : Vec Ideal S256x256 .f32) = V c main_arg4 := by
  funext y
  show V c main_arg4 (((cfg0.win 4).blk t).view.emb y) = V c main_arg4 y
  refine congrArg (V c main_arg4) (funext fun a => Fin.ext ?_)
  obtain ⟨e0, e1⟩ := (idx0 t).2.2.2.2.1
  match a with
  | ⟨0, _⟩ => show win0_4.index t (0 : Fin 2) * 256 + 1 * (y 0).val = (y 0).val; omega
  | ⟨1, _⟩ => show win0_4.index t (1 : Fin 2) * 256 + 1 * (y 1).val = (y 1).val; omega

/-- Window 5 is its whole array at every point. -/
theorem iblk0_5_eq (c : Dev nD) (t : Fin cfg0.N) : (iblk0 V c 5 t : Vec Ideal S1x256 .f32) = V c main_v1 := by
  funext y
  show V c main_v1 (((cfg0.win 5).blk t).view.emb y) = V c main_v1 y
  refine congrArg (V c main_v1) (funext fun a => Fin.ext ?_)
  obtain ⟨e0, e1⟩ := (idx0 t).2.2.2.2.2.1
  match a with
  | ⟨0, _⟩ => show win0_5.index t (0 : Fin 2) * 1 + 1 * (y 0).val = (y 0).val; omega
  | ⟨1, _⟩ => show win0_5.index t (1 : Fin 2) * 256 + 1 * (y 1).val = (y 1).val; omega

/-- Window 6 is its whole array at every point. -/
theorem iblk0_6_eq (c : Dev nD) (t : Fin cfg0.N) : (iblk0 V c 6 t : Vec Ideal S256x256 .f32) = V c main_arg6 := by
  funext y
  show V c main_arg6 (((cfg0.win 6).blk t).view.emb y) = V c main_arg6 y
  refine congrArg (V c main_arg6) (funext fun a => Fin.ext ?_)
  obtain ⟨e0, e1⟩ := (idx0 t).2.2.2.2.2.2.1
  match a with
  | ⟨0, _⟩ => show win0_6.index t (0 : Fin 2) * 256 + 1 * (y 0).val = (y 0).val; omega
  | ⟨1, _⟩ => show win0_6.index t (1 : Fin 2) * 256 + 1 * (y 1).val = (y 1).val; omega

/-- Window 7 is its whole array at every point. -/
theorem iblk0_7_eq (c : Dev nD) (t : Fin cfg0.N) : (iblk0 V c 7 t : Vec Ideal S1x256 .f32) = V c main_v2 := by
  funext y
  show V c main_v2 (((cfg0.win 7).blk t).view.emb y) = V c main_v2 y
  refine congrArg (V c main_v2) (funext fun a => Fin.ext ?_)
  obtain ⟨e0, e1⟩ := (idx0 t).2.2.2.2.2.2.2.1
  match a with
  | ⟨0, _⟩ => show win0_7.index t (0 : Fin 2) * 1 + 1 * (y 0).val = (y 0).val; omega
  | ⟨1, _⟩ => show win0_7.index t (1 : Fin 2) * 256 + 1 * (y 1).val = (y 1).val; omega

/-- So the parameters the body reads at any point are the parameters as the region finds them. -/
theorem params0_eq (c : Dev nD) (t : Fin cfg0.N) :
    PB (iblk0 V c 2 t) (iblk0 V c 3 t) (iblk0 V c 4 t) (iblk0 V c 5 t) (iblk0 V c 6 t) (iblk0 V c 7 t) = P0 V c := by
  rw [iblk0_2_eq, iblk0_3_eq, iblk0_4_eq, iblk0_5_eq, iblk0_6_eq, iblk0_7_eq]
  rfl

/-- And the row of the first block the body reads at `(t, p)` is row `256 t + p` of the first argument. -/
theorem row0_eq (c : Dev nD) (t : Fin cfg0.N) (p : Fin 256) (r : Fin 1024) (hr : r.val = 256 * t.val + p.val) :
    (fun k : Fin 256 => (iblk0 V c 0 t : Vec Ideal S256x256 .f32) (ix2 p k)) = X0 V c r :=
  funext fun k => iblk0_0_apply V c t p k r hr

/-! ## The three output arrays -/

/-- The means of every row: what the ninth window's array ends holding. -/
def mu0 (c : Dev nD) : S1024x128.Idx → EReal := fun j => Cert.Spec.mu (P0 V c) (X0 V c (j 0)) (j 1)
/-- The inverse variances of every row: the tenth window's. -/
def iv0 (c : Dev nD) : S1024x128.Idx → EReal := fun j => Cert.Spec.iv (P0 V c) (X0 V c (j 0)) (j 1)
/-- The same-index term of every row, as a column: the eleventh window's. -/
def pos0 (c : Dev nD) : S1024x1.Idx → EReal := fun j => Cert.Spec.posK (P0 V c) (X0 V c (j 0)) (Y0 V c (j 0))

/-- What point `t` writes back through the ninth window is block `t` of the means. -/
theorem flushed0_8_eq (c : Dev nD) (t : Fin cfg0.N) :
    (dat0 V c).flushed 8 t = ((cfg0.win 8).blk t).view.read (Elt Ideal) (mu0 V c) := by
  show (cfg0.win 8).cut (grid0.coords t) ((dat0 V c).after 8 t) = _
  rw [after0_8]
  unfold out0_8
  rw [View.canon_unit_zero hz]
  funext y
  have hN : grid0.N = 4 := N_0
  have ht : t.val < 4 := hN ▸ t.isLt
  have hp : (y 0).val < 256 := (y 0).isLt
  have hd : (y 1).val < 128 := (y 1).isLt
  have hr : 256 * t.val + (y 0).val < 1024 := by omega
  have ey : (cfg0.win 8).xinj (grid0.coords t) y = ix2 (⟨(y 0).val, hp⟩ : Fin 256) (⟨(y 1).val, hd⟩ : Fin 128) :=
    funext fun a => by
      match a with
      | ⟨0, _⟩ => rfl
      | ⟨1, _⟩ => rfl
  have eemb : ((cfg0.win 8).blk t).view.emb y = ix2 (⟨256 * t.val + (y 0).val, hr⟩ : Fin 1024) (⟨(y 1).val, hd⟩ : Fin 128) :=
    funext fun a => Fin.ext (by
      obtain ⟨e0, e1⟩ := (idx0 t).2.2.2.2.2.2.2.2.1
      match a with
      | ⟨0, _⟩ => show win0_8.index t (0 : Fin 2) * 256 + 1 * (y 0).val = 256 * t.val + (y 0).val; omega
      | ⟨1, _⟩ => show win0_8.index t (1 : Fin 2) * 128 + 1 * (y 1).val = (y 1).val; omega)
  show mean0 (iblk0 V c 0 t) (iblk0 V c 2 t) (iblk0 V c 3 t) (iblk0 V c 4 t) (iblk0 V c 5 t) (iblk0 V c 6 t) (iblk0 V c 7 t)
      ((cfg0.win 8).xinj (grid0.coords t) y) = mu0 V c (((cfg0.win 8).blk t).view.emb y)
  rw [ey, eemb, mean0_apply, params0_eq, row0_eq V c t ⟨(y 0).val, hp⟩ ⟨256 * t.val + (y 0).val, hr⟩ rfl]
  rfl

/-- What point `t` writes back through the tenth window is block `t` of the inverse variances. -/
theorem flushed0_9_eq (c : Dev nD) (t : Fin cfg0.N) :
    (dat0 V c).flushed 9 t = ((cfg0.win 9).blk t).view.read (Elt Ideal) (iv0 V c) := by
  show (cfg0.win 9).cut (grid0.coords t) ((dat0 V c).after 9 t) = _
  rw [after0_9]
  unfold out0_9
  rw [View.canon_unit_zero hz]
  funext y
  have hN : grid0.N = 4 := N_0
  have ht : t.val < 4 := hN ▸ t.isLt
  have hp : (y 0).val < 256 := (y 0).isLt
  have hd : (y 1).val < 128 := (y 1).isLt
  have hr : 256 * t.val + (y 0).val < 1024 := by omega
  have ey : (cfg0.win 9).xinj (grid0.coords t) y = ix2 (⟨(y 0).val, hp⟩ : Fin 256) (⟨(y 1).val, hd⟩ : Fin 128) :=
    funext fun a => by
      match a with
      | ⟨0, _⟩ => rfl
      | ⟨1, _⟩ => rfl
  have eemb : ((cfg0.win 9).blk t).view.emb y = ix2 (⟨256 * t.val + (y 0).val, hr⟩ : Fin 1024) (⟨(y 1).val, hd⟩ : Fin 128) :=
    funext fun a => Fin.ext (by
      obtain ⟨e0, e1⟩ := (idx0 t).2.2.2.2.2.2.2.2.2.1
      match a with
      | ⟨0, _⟩ => show win0_9.index t (0 : Fin 2) * 256 + 1 * (y 0).val = 256 * t.val + (y 0).val; omega
      | ⟨1, _⟩ => show win0_9.index t (1 : Fin 2) * 128 + 1 * (y 1).val = (y 1).val; omega)
  show ivar0 (iblk0 V c 0 t) (iblk0 V c 2 t) (iblk0 V c 3 t) (iblk0 V c 4 t) (iblk0 V c 5 t) (iblk0 V c 6 t) (iblk0 V c 7 t)
      ((cfg0.win 9).xinj (grid0.coords t) y) = iv0 V c (((cfg0.win 9).blk t).view.emb y)
  rw [ey, eemb, ivar0_apply, params0_eq, row0_eq V c t ⟨(y 0).val, hp⟩ ⟨256 * t.val + (y 0).val, hr⟩ rfl]
  rfl

/-- The row of the second block the body reads at `(t, p)` is row `256 t + p` of the second argument. -/
theorem row1_eq (c : Dev nD) (t : Fin cfg0.N) (p : Fin 256) (r : Fin 1024) (hr : r.val = 256 * t.val + p.val) :
    (fun d : Fin 128 => (iblk0 V c 1 t : Vec Ideal S256x128 .f32) (ix2 p d)) = Y0 V c r :=
  funext fun d => iblk0_1_apply V c t p d r hr

/-- What point `t` writes back through the eleventh window is block `t` of the column of same-index terms. -/
theorem flushed0_10_eq (c : Dev nD) (t : Fin cfg0.N) :
    (dat0 V c).flushed 10 t = ((cfg0.win 10).blk t).view.read (Elt Ideal) (pos0 V c) := by
  show (cfg0.win 10).cut (grid0.coords t) ((dat0 V c).after 10 t) = _
  rw [after0_10]
  unfold out0_10
  rw [View.canon_unit_zero hz]
  funext y
  have hN : grid0.N = 4 := N_0
  have ht : t.val < 4 := hN ▸ t.isLt
  have hp : (y 0).val < 256 := (y 0).isLt
  have hu : (y 1).val < 1 := (y 1).isLt
  have hr : 256 * t.val + (y 0).val < 1024 := by omega
  have ey : (cfg0.win 10).xinj (grid0.coords t) y = ix2 (⟨(y 0).val, hp⟩ : Fin 256) (⟨(y 1).val, hu⟩ : Fin 1) :=
    funext fun a => by
      match a with
      | ⟨0, _⟩ => rfl
      | ⟨1, _⟩ => rfl
  have eemb : ((cfg0.win 10).blk t).view.emb y = ix2 (⟨256 * t.val + (y 0).val, hr⟩ : Fin 1024) (⟨(y 1).val, hu⟩ : Fin 1) :=
    funext fun a => Fin.ext (by
      obtain ⟨e0, e1⟩ := (idx0 t).2.2.2.2.2.2.2.2.2.2
      match a with
      | ⟨0, _⟩ => show win0_10.index t (0 : Fin 2) * 256 + 1 * (y 0).val = 256 * t.val + (y 0).val; omega
      | ⟨1, _⟩ => show win0_10.index t (1 : Fin 2) * 1 + 1 * (y 1).val = (y 1).val; omega)
  show psum0 (iblk0 V c 0 t) (iblk0 V c 1 t) (iblk0 V c 2 t) (iblk0 V c 3 t) (iblk0 V c 4 t) (iblk0 V c 5 t) (iblk0 V c 6 t) (iblk0 V c 7 t)
      ((cfg0.win 10).xinj (grid0.coords t) y) = pos0 V c (((cfg0.win 10).blk t).view.emb y)
  rw [ey, eemb, psum0_apply, params0_eq, row0_eq V c t ⟨(y 0).val, hp⟩ ⟨256 * t.val + (y 0).val, hr⟩ rfl,
    row1_eq V c t ⟨(y 0).val, hp⟩ ⟨256 * t.val + (y 0).val, hr⟩ rfl]
  rfl

/-- An index of the array is in point `t`'s block of window 8 iff each coordinate is in the block's range on its axis. -/
theorem mem_blk0_8 (t : Fin cfg0.N) (i : S1024x128.Idx) :
    i ∈ ((cfg0.win 8).blk t).view.set ↔ ∀ a : Fin 2, win0_8.index t a * S256x128.size a ≤ (i a).val ∧ (i a).val < win0_8.index t a * S256x128.size a + S256x128.size a := by
  show i ∈ ((View.whole main_v3_0).slice (win0_8.rect t)).set ↔ _
  rw [View.set_slice_whole, Rect.mem_set_unit]
  exact Iff.rfl

/-- Row `r` lies in the block of the point `r / 256`, which writes back: the four blocks fill the array. -/
theorem cover0_8 (i : S1024x128.Idx) : ∃ t : Fin cfg0.N, (cfg0.win 8).flush t = true ∧ i ∈ ((cfg0.win 8).blk t).view.set := by
  have hi0 : (i 0).val < 1024 := (i 0).isLt
  have hi1 : (i 1).val < 128 := (i 1).isLt
  obtain ⟨t, et⟩ : ∃ t : Fin cfg0.N, t.val = (i 0).val / 256 :=
    ⟨⟨(i 0).val / 256, by have := N_0; show (i 0).val / 256 < grid0.N; omega⟩, rfl⟩
  refine ⟨t, flush0_8 t, ?_⟩
  rw [mem_blk0_8]
  obtain ⟨e0, e1⟩ := (idx0 t).2.2.2.2.2.2.2.2.1
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 128 ≤ (i 1).val ∧ (i 1).val < win0_8.index t (1 : Fin 2) * 128 + 128; omega

/-- An index of the array is in point `t`'s block of window 9 iff each coordinate is in the block's range on its axis. -/
theorem mem_blk0_9 (t : Fin cfg0.N) (i : S1024x128.Idx) :
    i ∈ ((cfg0.win 9).blk t).view.set ↔ ∀ a : Fin 2, win0_9.index t a * S256x128.size a ≤ (i a).val ∧ (i a).val < win0_9.index t a * S256x128.size a + S256x128.size a := by
  show i ∈ ((View.whole main_v3_1).slice (win0_9.rect t)).set ↔ _
  rw [View.set_slice_whole, Rect.mem_set_unit]
  exact Iff.rfl

/-- Row `r` lies in the block of the point `r / 256`, which writes back: the four blocks fill the array. -/
theorem cover0_9 (i : S1024x128.Idx) : ∃ t : Fin cfg0.N, (cfg0.win 9).flush t = true ∧ i ∈ ((cfg0.win 9).blk t).view.set := by
  have hi0 : (i 0).val < 1024 := (i 0).isLt
  have hi1 : (i 1).val < 128 := (i 1).isLt
  obtain ⟨t, et⟩ : ∃ t : Fin cfg0.N, t.val = (i 0).val / 256 :=
    ⟨⟨(i 0).val / 256, by have := N_0; show (i 0).val / 256 < grid0.N; omega⟩, rfl⟩
  refine ⟨t, flush0_9 t, ?_⟩
  rw [mem_blk0_9]
  obtain ⟨e0, e1⟩ := (idx0 t).2.2.2.2.2.2.2.2.2.1
  intro a
  match a with
  | ⟨0, _⟩ => show win0_9.index t (0 : Fin 2) * 256 ≤ (i 0).val ∧ (i 0).val < win0_9.index t (0 : Fin 2) * 256 + 256; omega
  | ⟨1, _⟩ => show win0_9.index t (1 : Fin 2) * 128 ≤ (i 1).val ∧ (i 1).val < win0_9.index t (1 : Fin 2) * 128 + 128; omega

/-- An index of the array is in point `t`'s block of window 10 iff each coordinate is in the block's range on its axis. -/
theorem mem_blk0_10 (t : Fin cfg0.N) (i : S1024x1.Idx) :
    i ∈ ((cfg0.win 10).blk t).view.set ↔ ∀ a : Fin 2, win0_10.index t a * S256x1.size a ≤ (i a).val ∧ (i a).val < win0_10.index t a * S256x1.size a + S256x1.size a := by
  show i ∈ ((View.whole main_v3_2).slice (win0_10.rect t)).set ↔ _
  rw [View.set_slice_whole, Rect.mem_set_unit]
  exact Iff.rfl

/-- Row `r` lies in the block of the point `r / 256`, which writes back: the four blocks fill the array. -/
theorem cover0_10 (i : S1024x1.Idx) : ∃ t : Fin cfg0.N, (cfg0.win 10).flush t = true ∧ i ∈ ((cfg0.win 10).blk t).view.set := by
  have hi0 : (i 0).val < 1024 := (i 0).isLt
  have hi1 : (i 1).val < 1 := (i 1).isLt
  obtain ⟨t, et⟩ : ∃ t : Fin cfg0.N, t.val = (i 0).val / 256 :=
    ⟨⟨(i 0).val / 256, by have := N_0; show (i 0).val / 256 < grid0.N; omega⟩, rfl⟩
  refine ⟨t, flush0_10 t, ?_⟩
  rw [mem_blk0_10]
  obtain ⟨e0, e1⟩ := (idx0 t).2.2.2.2.2.2.2.2.2.2
  intro a
  match a with
  | ⟨0, _⟩ => show win0_10.index t (0 : Fin 2) * 256 ≤ (i 0).val ∧ (i 0).val < win0_10.index t (0 : Fin 2) * 256 + 256; omega
  | ⟨1, _⟩ => show win0_10.index t (1 : Fin 2) * 1 ≤ (i 1).val ∧ (i 1).val < win0_10.index t (1 : Fin 2) * 1 + 1; omega

/-- The ninth window's array after the run: the means of every row. -/
theorem final0_8_arr (c : Dev nD) : (dat0 V c).arrAt 8 cfg0.N = mu0 V c :=
  (dat0 V c).arrAt_eq_of_cover 8 (mu0 V c) (fun t _ => flushed0_8_eq V c t) cover0_8
/-- The tenth window's: the inverse variances. -/
theorem final0_9_arr (c : Dev nD) : (dat0 V c).arrAt 9 cfg0.N = iv0 V c :=
  (dat0 V c).arrAt_eq_of_cover 9 (iv0 V c) (fun t _ => flushed0_9_eq V c t) cover0_9
/-- The eleventh window's: the same-index terms. -/
theorem final0_10_arr (c : Dev nD) : (dat0 V c).arrAt 10 cfg0.N = pos0 V c :=
  (dat0 V c).arrAt_eq_of_cover 10 (pos0 V c) (fun t _ => flushed0_10_eq V c t) cover0_10

/-- Entry by entry: the ninth window's array at `(r, d)` is the mean `d` of row `r` of the first argument, -/
theorem final0_8 (c : Dev nD) (r : Fin 1024) (d : Fin 128) :
    (dat0 V c).arrAt 8 cfg0.N (ix2 r d) = Cert.Spec.mu (P0 V c) (X0 V c r) d :=
  congrFun (final0_8_arr V c) (ix2 r d)
/-- the tenth's the inverse variance `d` of that row, -/
theorem final0_9 (c : Dev nD) (r : Fin 1024) (d : Fin 128) :
    (dat0 V c).arrAt 9 cfg0.N (ix2 r d) = Cert.Spec.iv (P0 V c) (X0 V c r) d :=
  congrFun (final0_9_arr V c) (ix2 r d)
/-- and the eleventh's, at `(r, 0)`, the same-index term of row `r` of the first argument against row `r` of the second. -/
theorem final0_10 (c : Dev nD) (r : Fin 1024) :
    (dat0 V c).arrAt 10 cfg0.N (ix2 r 0) = Cert.Spec.posK (P0 V c) (X0 V c r) (Y0 V c r) :=
  congrFun (final0_10_arr V c) (ix2 r 0)

end Cert.KernelIdeal.Fr

end
-- ==== Proof.KIVal1a.lean ====
/-
  Region 1 (the pairwise accumulation kernel), the values of its pieces. What each control case leaves in the
  accumulator and in the output block, as the body's arithmetic applied to the blocks it loads; then that arithmetic read
  entry by entry over the extended reals: the reset stores zeros; the update adds to entry (p, d) the sum over the 128
  rows q of the other block of (mean (p, d) - row entry (q, d))²; the row result is the same-index term minus -½ times
  the sum over d of (accumulator (p, d) · 2⁻¹⁰) · inverse variance (p, d). The two float constants stay the words the
  program spells.
-/
import proofs.«169424_j14061722927686_1_alg».proof.Proof.KIReg1
import proofs.«169424_j14061722927686_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr.Val1

open Idealize.ShloMosaic Idealize.ShloMosaic.TcCoe Idealize.ShloMosaic.Tactic
open Idealize.SL.Sem
open Idealize.ShloMosaic.Pipeline (Dat)
open Cert.KernelIdeal Cert.KernelIdeal.Gen Idealize.ShloMosaic.ValueIdx

variable {F : FTy → Type} [FloatOps F]

/-! ## What the three control cases leave, as payloads of the blocks

At a point whose second coordinate is 0 the accumulator is first set to zeros and then the point's squared
differences are added; elsewhere they are added to what the point before left. At a point whose second coordinate
is 7 the row results are formed from the accumulator as it stands AFTER that addition. -/

theorem hz2 : (![0, 0] : Fin 2 → Nat) = fun _ => 0 := funext fun a => by fin_cases a <;> rfl

theorem sout1_A_0_eq (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x128 .f32) (harg7 : arg7.IsWhole) (hc0 : cond1_0 i) (hc1 : ¬cond1_1 i)
    (x0 : Vec F S128x128 .f32) (x1 : Vec F S128x128 .f32) (x2 : Vec F S128x128 .f32) (x3 : Vec F S128x1 .f32) :
    sout1_A_0 c i arg2 harg2 arg3 harg3 arg4 harg4 arg5 harg5 arg6 harg6 arg7 harg7 hc0 hc1 x0 x1 x2 x3 = k1_pay2 x0 x1 (k1_pay1 (F := F)) := by
  unfold sout1_A_0
  rw [View.read_writes_eq_canon _ _ _ (scover1_A_0 c i arg2 harg2 arg3 harg3 arg4 harg4 arg5 harg5 arg6 harg6 arg7 harg7 hc0 hc1 x0 x1 x2 x3)]
  unfold kernelRun1_A
  dsimp only
  sl_unfold_words
  rw [View.canon_cons_unit_zero (S := S128x128) hz2, View.readCov_unit_zero (S := S128x128) _ hz2]
  simp only [View.readAt_eq_ld, harg2.read_unread, harg3.read_unread, View.ld_unit_zero (S := S128x128) hz2]

theorem sout1_B_0_eq (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x128 .f32) (harg7 : arg7.IsWhole) (hc0 : ¬cond1_0 i) (hc1 : ¬cond1_1 i)
    (x0 : Vec F S128x128 .f32) (x1 : Vec F S128x128 .f32) (x2 : Vec F S128x128 .f32) (x3 : Vec F S128x1 .f32) (xs0 : Vec F S128x128 .f32) :
    sout1_B_0 c i arg2 harg2 arg3 harg3 arg4 harg4 arg5 harg5 arg6 harg6 arg7 harg7 hc0 hc1 x0 x1 x2 x3 xs0 = k1_pay2 x0 x1 xs0 := by
  unfold sout1_B_0
  rw [View.read_writes_eq_canon _ _ _ (scover1_B_0 c i arg2 harg2 arg3 harg3 arg4 harg4 arg5 harg5 arg6 harg6 arg7 harg7 hc0 hc1 x0 x1 x2 x3 xs0)]
  unfold kernelRun1_B
  dsimp only
  sl_unfold_words
  rw [View.canon_unit_zero (S := S128x128) hz2]
  simp only [View.readAt_eq_ld, harg2.read_unread, harg3.read_unread, harg7.read_unread, View.ld_unit_zero (S := S128x128) hz2]

theorem sout1_C_0_eq (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x128 .f32) (harg7 : arg7.IsWhole) (hc0 : ¬cond1_0 i) (hc1 : cond1_1 i)
    (x0 : Vec F S128x128 .f32) (x1 : Vec F S128x128 .f32) (x2 : Vec F S128x128 .f32) (x3 : Vec F S128x1 .f32) (xs0 : Vec F S128x128 .f32) :
    sout1_C_0 c i arg2 harg2 arg3 harg3 arg4 harg4 arg5 harg5 arg6 harg6 arg7 harg7 hc0 hc1 x0 x1 x2 x3 xs0 = k1_pay2 x0 x1 xs0 := by
  unfold sout1_C_0
  rw [View.read_writes_eq_canon _ _ _ (scover1_C_0 c i arg2 harg2 arg3 harg3 arg4 harg4 arg5 harg5 arg6 harg6 arg7 harg7 hc0 hc1 x0 x1 x2 x3 xs0)]
  unfold kernelRun1_C
  dsimp only
  sl_unfold_words
  rw [View.canon_unit_zero (S := S128x128) hz2]
  simp only [View.readAt_eq_ld, harg2.read_unread, harg3.read_unread, harg7.read_unread, View.ld_unit_zero (S := S128x128) hz2]

theorem out1_C_4_eq (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x128 .f32) (harg7 : arg7.IsWhole) (hc0 : ¬cond1_0 i) (hc1 : cond1_1 i)
    (x0 : Vec F S128x128 .f32) (x1 : Vec F S128x128 .f32) (x2 : Vec F S128x128 .f32) (x3 : Vec F S128x1 .f32) (xs0 : Vec F S128x128 .f32) :
    out1_C_4 c i arg2 harg2 arg3 harg3 arg4 harg4 arg5 harg5 arg6 harg6 arg7 harg7 hc0 hc1 x0 x1 x2 x3 xs0 = k1_pay3 (k1_pay2 x0 x1 xs0) x2 x3 := by
  unfold out1_C_4
  rw [View.read_writes_eq_canon _ _ _ (cover1_C_4 c i arg2 harg2 arg3 harg3 arg4 harg4 arg5 harg5 arg6 harg6 arg7 harg7 hc0 hc1 x0 x1 x2 x3 xs0)]
  unfold kernelRun1_C
  dsimp only
  sl_unfold_words
  rw [View.canon_unit_zero (S := S128x1) hz2]
  simp only [View.readAt_eq_ld, harg2.read_unread, harg3.read_unread, harg4.read_unread, harg5.read_unread, harg7.read_unread,
    View.readCov_unit_zero (S := S128x128) _ hz2, View.ld_unit_zero (S := S128x128) hz2, View.ld_unit_zero (S := S128x1) hz2]

/-! ## Layout operations of the payloads, read at an index

The block of means [128,128] is viewed [128,1,128] and the block of the other rows [1,128,128]; both are repeated to
[128,128,128], so that entry (p, q, d) pairs mean (p, d) with row entry (q, d). -/

section Layout
variable {α : Type}

/-- A [128,128] array viewed [128,1,128] reads, at (p, u, d), the operand at (p, d). -/
theorem shapeCast_mid_apply (x : S128x128.Idx → α) (h : S128x128.ShapeCasts S128x1x128) (p : Fin 128) (u : Fin 1) (d : Fin 128) :
    shapeCast S128x1x128 x h (ix3 p u d) = x (ix2 p d) :=
  shapeCast_apply x h _ _ (by
    have hu : u.val = 0 := by omega
    rw [Shape.rowMajor_val_three, Shape.rowMajor_val_two]
    show p.val * 128 + d.val = (p.val * 1 + u.val) * 128 + d.val
    rw [hu]; omega)

/-- A [128,1,128] array repeated along its middle axis reads, at (p, q, d), the operand at (p, 0, d). -/
theorem broadcast_mid_apply (v : S128x1x128.Idx → α) (h : S128x1x128.Broadcasts S128x128x128) (p q d : Fin 128) :
    broadcastTo S128x128x128 v h (ix3 p q d) = v (ix3 p (0 : Fin 1) d) := by
  refine broadcastTo_apply v h (ix3 p q d) (ix3 p (0 : Fin 1) d) fun ax => ?_
  match ax with
  | ⟨0, _⟩ => rfl
  | ⟨1, _⟩ => rfl
  | ⟨2, _⟩ => rfl

/-- A [1,128,128] array repeated along its leading axis reads, at (p, q, d), the operand at (0, q, d). -/
theorem broadcast_lead_apply (v : S1x128x128.Idx → α) (h : S1x128x128.Broadcasts S128x128x128) (p q d : Fin 128) :
    broadcastTo S128x128x128 v h (ix3 p q d) = v (ix3 (0 : Fin 1) q d) := by
  refine broadcastTo_apply v h (ix3 p q d) (ix3 (0 : Fin 1) q d) fun ax => ?_
  match ax with
  | ⟨0, _⟩ => rfl
  | ⟨1, _⟩ => rfl
  | ⟨2, _⟩ => rfl

/-- A vector of 128 numbers viewed as a [128,1] column reads, at (p, u), the operand at p. -/
theorem shapeCast_col_apply (x : S128.Idx → α) (h : S128.ShapeCasts S128x1) (p : Fin 128) (u : Fin 1) :
    shapeCast S128x1 x h (ix2 p u) = x (ix1 p) :=
  shapeCast_apply x h _ _ (by
    have hu : u.val = 0 := by omega
    rw [Shape.rowMajor_val_two, Shape.rowMajor_val_one]
    show p.val = p.val * 1 + u.val
    rw [hu]; omega)

end Layout

/-! ## The payloads at an index, over the extended reals -/

/-- The index the middle-axis sum inserts its coordinate at: entry (p, d) of the result gathers the entries (p, q, d). -/
theorem lift_mid (p d : Fin 128) (q : Fin 128) :
    reduces_S128x128x128_S128x128.lift (ix2 p d) q = ix3 p q d :=
  funext fun a => Fin.ext (match a with | ⟨0, _⟩ => rfl | ⟨1, _⟩ => rfl | ⟨2, _⟩ => rfl)

/-- The accumulator's update: entry (p, d) grows by the squared differences of mean (p, d) against the 128 row entries
    (q, d) of the point's block. -/
theorem k1_pay2_apply (v3 v5 v13 : Vec Ideal S128x128 .f32) (p d : Fin 128) :
    k1_pay2 v3 v5 v13 (ix2 p d) = v13 (ix2 p d) + ∑ q : Fin 128, (v3 (ix2 p d) - v5 (ix2 q d)) * (v3 (ix2 p d) - v5 (ix2 q d)) := by
  unfold k1_pay2
  dsimp only
  refine (congrFun (shapeCast_self _ _) (ix2 p d)).trans ?_
  refine (addf_apply _ _ _).trans ?_
  refine congrArg (fun z => v13 (ix2 p d) + z) ?_
  refine (Ideal.multiReduction_add_single _ _ reduces_S128x128x128_S128x128 _ _ (ix2 p d)).trans ?_
  refine Finset.sum_congr rfl fun (q : Fin 128) _ => ?_
  rw [lift_mid p d q, mulf_apply, subf_apply, broadcast_mid_apply, broadcast_lead_apply, shapeCast_mid_apply,
    shapeCast_ab_1ab_apply, shapeCast_self]

/-- The index the sum over a row inserts its coordinate at: entry p of the result gathers the entries (p, d). -/
theorem lift_row (p d : Fin 128) : reduces_S128x128_S128.lift (ix1 p) d = ix2 p d :=
  funext fun a => Fin.ext (match a with | ⟨0, _⟩ => rfl | ⟨1, _⟩ => rfl)

/-- The reset stores zeros. -/
theorem k1_pay1_apply (p d : Fin 128) : (k1_pay1 (F := Ideal)) (ix2 p d) = 0 := by
  unfold k1_pay1
  refine (congrFun (shapeCast_self _ _) (ix2 p d)).trans ?_
  exact Ideal.ofBits_zero_f32

/-- A row's result: its same-index term minus -½ times the sum over d of (accumulator · 2⁻¹⁰) · inverse variance. -/
theorem k1_pay3_apply (v21 v24 : Vec Ideal S128x128 .f32) (v31 : Vec Ideal S128x1 .f32) (p : Fin 128) (u : Fin 1) :
    k1_pay3 v21 v24 v31 (ix2 p u)
      = v31 (ix2 p u) - Cert.Spec.cHalfNeg * ∑ d : Fin 128, (v21 (ix2 p d) * Cert.Spec.cInv1024) * v24 (ix2 p d) := by
  unfold k1_pay3
  dsimp only
  refine (subf_apply _ _ _).trans ?_
  rw [shapeCast_self]
  refine congrArg (fun z => v31 (ix2 p u) - z) ?_
  refine (mulf_apply _ _ _).trans ?_
  refine congrArg (fun z => Cert.Spec.cHalfNeg * z) ?_
  refine (shapeCast_col_apply _ _ p u).trans ?_
  refine (Ideal.multiReduction_add_single _ _ reduces_S128x128_S128 _ _ (ix1 p)).trans ?_
  refine Finset.sum_congr rfl fun (d : Fin 128) _ => ?_
  rw [lift_row p d, mulf_apply, mulf_apply, shapeCast_self]
  rfl

end Cert.KernelIdeal.Fr.Val1

end
-- ==== Proof.KIVal1.lean ====
/-
  Region 1 (the pairwise accumulation kernel), its value at the ideal instance. The grid is 8 × 8 and point t has
  coordinates (t / 8, t % 8) = (b, j). At that point the body sees rows 128 b … of the means, of the inverse variances
  and of the same-index terms, and rows 128 j … of the other array; it keeps a [128,128] accumulator between points.
  After point 8 b + j the accumulator's entry (p, d) is the sum over the first j + 1 blocks of 128 rows of the squared
  differences of mean (128 b + p, d) against column d; at j = 7 the body writes, for each of its rows, the row's result,
  and only those points write the output back, block b at point 8 b + 7. So the output array ends holding, in row r,
  `rowG` of row r's means, inverse variances and same-index term against all 1024 rows of the other array.
-/
import proofs.«169424_j14061722927686_1_alg».proof.Proof.KIVal1a
import proofs.«169424_j14061722927686_1_alg».proof.Proof.KIReg1
import proofs.«169424_j14061722927686_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr.Val1

open Idealize.ShloMosaic Idealize.ShloMosaic.TcCoe Idealize.ShloMosaic.Tactic
open Idealize.SL.Sem
open Idealize.ShloMosaic.Pipeline (Dat)
open Cert.KernelIdeal Cert.KernelIdeal.Gen Idealize.ShloMosaic.ValueIdx

/-! ## The blocks of the four input windows, entry by entry

The grid is 8 × 8; point t has coordinates (t / 8, t % 8). The means, the inverse variances and the same-index terms
are cut into 8 blocks of 128 rows indexed by the first coordinate, the other array's rows by the second: entry p of
block b is row 128 b + p. -/

variable (V : (c : Dev nD) → (b : Ref sig .tc) → Buf (Elt Ideal) ((c : Thread nD τ).loc b))

/-- The four arrays the region reads, at their literal shapes. -/
abbrev muArr (c : Dev nD) : Vec Ideal S1024x128 .f32 := V c main_v3_0
abbrev rowArr (c : Dev nD) : Vec Ideal S1024x128 .f32 := V c main_arg1
abbrev ivArr (c : Dev nD) : Vec Ideal S1024x128 .f32 := V c main_v3_1
abbrev psArr (c : Dev nD) : Vec Ideal S1024x1 .f32 := V c main_v3_2

/-- Their blocks at a point, at their literal shapes. -/
abbrev muBlk (c : Dev nD) (t : Fin cfg1.N) : Vec Ideal S128x128 .f32 := iblk1 V c 0 t
abbrev rowBlk (c : Dev nD) (t : Fin cfg1.N) : Vec Ideal S128x128 .f32 := iblk1 V c 1 t
abbrev ivBlk (c : Dev nD) (t : Fin cfg1.N) : Vec Ideal S128x128 .f32 := iblk1 V c 2 t
abbrev psBlk (c : Dev nD) (t : Fin cfg1.N) : Vec Ideal S128x1 .f32 := iblk1 V c 3 t

/-- Row p of block b. -/
abbrev row (b : Fin 8) (p : Fin 128) : Fin 1024 := ⟨128 * b.val + p.val, by have := b.isLt; have := p.isLt; omega⟩

/-- The index maps over the grid: windows 0, 2, 3 and the output window 4 follow the first coordinate, window 1 the
    second; no window moves along its second axis. -/
theorem idx_facts1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = t.val / 8 ∧ win1_3.index t (1 : Fin 2) = 0
    ∧ win1_4.index t (0 : Fin 2) = t.val / 8 ∧ win1_4.index t (1 : Fin 2) = 0 :=
  (by decide +kernel : ∀ t : Fin grid1.N, _)

theorem muBlk_apply (c : Dev nD) (t : Fin cfg1.N) (b : Fin 8) (hb : t.val / 8 = b.val) (p d : Fin 128) :
    muBlk V c t (ix2 p d) = muArr V c (ix2 (row b p) d) := by
  obtain ⟨e0, e1, -⟩ := idx_facts1 t
  unfold muBlk iblk1
  rw [View.read_apply]
  show V c main_v3_0 (((cfg1.win 0).blk t).view.emb (ix2 p d)) = V c main_v3_0 (ix2 (row b p) d)
  refine congrArg (V c main_v3_0) (funext fun a => Fin.ext ?_)
  match a with
  | ⟨0, _⟩ => show win1_0.index t (0 : Fin 2) * 128 + 1 * p.val = 128 * b.val + p.val; rw [e0, hb]; omega
  | ⟨1, _⟩ => show win1_0.index t (1 : Fin 2) * 128 + 1 * d.val = d.val; rw [e1]; omega

theorem rowBlk_apply (c : Dev nD) (t : Fin cfg1.N) (b : Fin 8) (hb : t.val % 8 = b.val) (q d : Fin 128) :
    rowBlk V c t (ix2 q d) = rowArr V c (ix2 (row b q) d) := by
  obtain ⟨-, -, e0, e1, -⟩ := idx_facts1 t
  unfold rowBlk iblk1
  rw [View.read_apply]
  show V c main_arg1 (((cfg1.win 1).blk t).view.emb (ix2 q d)) = V c main_arg1 (ix2 (row b q) d)
  refine congrArg (V c main_arg1) (funext fun a => Fin.ext ?_)
  match a with
  | ⟨0, _⟩ => show win1_1.index t (0 : Fin 2) * 128 + 1 * q.val = 128 * b.val + q.val; rw [e0, hb]; omega
  | ⟨1, _⟩ => show win1_1.index t (1 : Fin 2) * 128 + 1 * d.val = d.val; rw [e1]; omega

theorem ivBlk_apply (c : Dev nD) (t : Fin cfg1.N) (b : Fin 8) (hb : t.val / 8 = b.val) (p d : Fin 128) :
    ivBlk V c t (ix2 p d) = ivArr V c (ix2 (row b p) d) := by
  obtain ⟨-, -, -, -, e0, e1, -⟩ := idx_facts1 t
  unfold ivBlk iblk1
  rw [View.read_apply]
  show V c main_v3_1 (((cfg1.win 2).blk t).view.emb (ix2 p d)) = V c main_v3_1 (ix2 (row b p) d)
  refine congrArg (V c main_v3_1) (funext fun a => Fin.ext ?_)
  match a with
  | ⟨0, _⟩ => show win1_2.index t (0 : Fin 2) * 128 + 1 * p.val = 128 * b.val + p.val; rw [e0, hb]; omega
  | ⟨1, _⟩ => show win1_2.index t (1 : Fin 2) * 128 + 1 * d.val = d.val; rw [e1]; omega

theorem psBlk_apply (c : Dev nD) (t : Fin cfg1.N) (b : Fin 8) (hb : t.val / 8 = b.val) (p : Fin 128) (u : Fin 1) :
    psBlk V c t (ix2 p u) = psArr V c (ix2 (row b p) u) := by
  obtain ⟨-, -, -, -, -, -, e0, e1, -⟩ := idx_facts1 t
  unfold psBlk iblk1
  rw [View.read_apply]
  show V c main_v3_2 (((cfg1.win 3).blk t).view.emb (ix2 p u)) = V c main_v3_2 (ix2 (row b p) u)
  refine congrArg (V c main_v3_2) (funext fun a => Fin.ext ?_)
  match a with
  | ⟨0, _⟩ => show win1_3.index t (0 : Fin 2) * 128 + 1 * p.val = 128 * b.val + p.val; rw [e0, hb]; omega
  | ⟨1, _⟩ => show win1_3.index t (1 : Fin 2) * 1 + 1 * u.val = u.val; rw [e1]; omega

/-! ## The accumulator after each point

After point t = 8 b + j the accumulator's entry (p, d) is the sum, over the first j + 1 blocks of 128 rows of the other
array, of the squared differences of mean (128 b + p, d) against their entries in column d: by induction on the point,
a point with j = 0 starting from zero and every other one from what the point before left. -/

/-- One more block of 128 rows, with the rows written as block and offset. -/
theorem accG_succ_row (a : EReal) (Y : Fin 1024 → EReal) (j : Fin 8) :
    Cert.Spec.accG a Y (j.val + 1)
      = Cert.Spec.accG a Y j.val + ∑ q : Fin 128, (a - Y (row j q)) * (a - Y (row j q)) := by
  rw [Cert.Spec.accG]
  refine congrArg (fun z => Cert.Spec.accG a Y j.val + z) (Finset.sum_congr rfl fun q _ => ?_)
  have e : (⟨(128 * j.val + q.val) % 1024, Nat.mod_lt _ (by decide)⟩ : Fin 1024) = row j q :=
    Fin.ext (Nat.mod_eq_of_lt (by have := j.isLt; have := q.isLt; omega))
  rw [e]

theorem acc_step_A (c : Dev nD) (t : Fin cfg1.N) (h0 : t.val % 8 = 0) (h1 : ¬t.val % 8 = 7) (b j : Fin 8)
    (hb : t.val / 8 = b.val) (hj : t.val % 8 = j.val) (p d : Fin 128) :
    (outsAt1 V c t.val t.isLt).2 (ix2 p d) = 0 + ∑ q : Fin 128, (muArr V c (ix2 (row b p) d) - rowArr V c (ix2 (row j q) d)) * (muArr V c (ix2 (row b p) d) - rowArr V c (ix2 (row j q) d)) := by
  rw [outsAt1_A V c t h0 h1]; dsimp only
  refine (congrFun (sout1_A_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (muBlk V c t) (rowBlk V c t) (ivBlk V c t) (psBlk V c t)) (ix2 p d)).trans ?_
  refine (k1_pay2_apply (muBlk V c t) (rowBlk V c t) (k1_pay1 (F := Ideal)) p d).trans ?_
  rw [k1_pay1_apply, muBlk_apply V c t b hb p d]
  refine congrArg (fun z => (0 : EReal) + z) (Finset.sum_congr rfl fun q _ => ?_)
  rw [rowBlk_apply V c t j hj q d]

theorem acc_step_B (c : Dev nD) (t : Fin cfg1.N) (h0 : ¬t.val % 8 = 0) (h1 : ¬t.val % 8 = 7) (b j : Fin 8)
    (hb : t.val / 8 = b.val) (hj : t.val % 8 = j.val) (p d : Fin 128) :
    (outsAt1 V c t.val t.isLt).2 (ix2 p d) = (outsAt1 V c (t.val - 1) (Nat.lt_of_le_of_lt (Nat.sub_le _ _) t.isLt)).2 (ix2 p d) + ∑ q : Fin 128, (muArr V c (ix2 (row b p) d) - rowArr V c (ix2 (row j q) d)) * (muArr V c (ix2 (row b p) d) - rowArr V c (ix2 (row j q) d)) := by
  rw [outsAt1_B V c t h0 h1]; dsimp only
  refine (congrFun (sout1_B_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (muBlk V c t) (rowBlk V c t) (ivBlk V c t) (psBlk V c t) (outsAt1 V c (t.val - 1) (Nat.lt_of_le_of_lt (Nat.sub_le _ _) t.isLt)).2) (ix2 p d)).trans ?_
  refine (k1_pay2_apply (muBlk V c t) (rowBlk V c t) (outsAt1 V c (t.val - 1) (Nat.lt_of_le_of_lt (Nat.sub_le _ _) t.isLt)).2 p d).trans ?_
  rw [muBlk_apply V c t b hb p d]
  refine congrArg (fun z => (outsAt1 V c (t.val - 1) (Nat.lt_of_le_of_lt (Nat.sub_le _ _) t.isLt)).2 (ix2 p d) + z) (Finset.sum_congr rfl fun q _ => ?_)
  rw [rowBlk_apply V c t j hj q d]

theorem acc_step_C (c : Dev nD) (t : Fin cfg1.N) (h0 : ¬t.val % 8 = 0) (h1 : t.val % 8 = 7) (b j : Fin 8)
    (hb : t.val / 8 = b.val) (hj : t.val % 8 = j.val) (p d : Fin 128) :
    (outsAt1 V c t.val t.isLt).2 (ix2 p d) = (outsAt1 V c (t.val - 1) (Nat.lt_of_le_of_lt (Nat.sub_le _ _) t.isLt)).2 (ix2 p d) + ∑ q : Fin 128, (muArr V c (ix2 (row b p) d) - rowArr V c (ix2 (row j q) d)) * (muArr V c (ix2 (row b p) d) - rowArr V c (ix2 (row j q) d)) := by
  rw [outsAt1_C V c t h0 h1]; dsimp only
  refine (congrFun (sout1_C_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (muBlk V c t) (rowBlk V c t) (ivBlk V c t) (psBlk V c t) (outsAt1 V c (t.val - 1) (Nat.lt_of_le_of_lt (Nat.sub_le _ _) t.isLt)).2) (ix2 p d)).trans ?_
  refine (k1_pay2_apply (muBlk V c t) (rowBlk V c t) (outsAt1 V c (t.val - 1) (Nat.lt_of_le_of_lt (Nat.sub_le _ _) t.isLt)).2 p d).trans ?_
  rw [muBlk_apply V c t b hb p d]
  refine congrArg (fun z => (outsAt1 V c (t.val - 1) (Nat.lt_of_le_of_lt (Nat.sub_le _ _) t.isLt)).2 (ix2 p d) + z) (Finset.sum_congr rfl fun q _ => ?_)
  rw [rowBlk_apply V c t j hj q d]

/-- The invariant. -/
theorem acc_eq (c : Dev nD) (p d : Fin 128) : ∀ (n : ℕ) (hn : n < cfg1.N) (b : Fin 8), n / 8 = b.val →
    (outsAt1 V c n hn).2 (ix2 p d) = Cert.Spec.accG (muArr V c (ix2 (row b p) d)) (fun r => rowArr V c (ix2 r d)) (n % 8 + 1) := by
  intro n
  induction n with
  | zero =>
    intro hn b hb
    refine (acc_step_A V c ⟨0, hn⟩ rfl (show ¬(0 % 8 = 7) by decide) b 0 hb rfl p d).trans ?_
    exact (accG_succ_row (muArr V c (ix2 (row b p) d)) (fun r => rowArr V c (ix2 r d)) 0).symm
  | succ n ih =>
    intro hn b hb
    have hN : cfg1.N = 64 := N_1
    have hj8 : (n + 1) % 8 < 8 := Nat.mod_lt _ (by decide)
    have hacc : Cert.Spec.accG (muArr V c (ix2 (row b p) d)) (fun r => rowArr V c (ix2 r d)) ((n + 1) % 8 + 1)
        = Cert.Spec.accG (muArr V c (ix2 (row b p) d)) (fun r => rowArr V c (ix2 r d)) ((n + 1) % 8) + ∑ q : Fin 128, (muArr V c (ix2 (row b p) d) - rowArr V c (ix2 (row ⟨(n + 1) % 8, hj8⟩ q) d)) * (muArr V c (ix2 (row b p) d) - rowArr V c (ix2 (row ⟨(n + 1) % 8, hj8⟩ q) d)) :=
      accG_succ_row (muArr V c (ix2 (row b p) d)) (fun r => rowArr V c (ix2 r d)) ⟨(n + 1) % 8, hj8⟩
    rw [hacc]
    by_cases h0 : (n + 1) % 8 = 0
    · refine (acc_step_A V c ⟨n + 1, hn⟩ h0 (by dsimp only; omega) b ⟨(n + 1) % 8, hj8⟩ hb rfl p d).trans ?_
      refine congrArg (fun z => z + _) ?_
      rw [h0]; rfl
    · have hprev : n / 8 = b.val := by omega
      have hm : (n + 1) % 8 = n % 8 + 1 := by omega
      have ihn := ih (Nat.lt_of_succ_lt hn) b hprev
      by_cases h1 : (n + 1) % 8 = 7
      · refine (acc_step_C V c ⟨n + 1, hn⟩ h0 h1 b ⟨(n + 1) % 8, hj8⟩ hb rfl p d).trans ?_
        refine congrArg (fun z => z + _) ?_
        rw [hm]; exact ihn
      · refine (acc_step_B V c ⟨n + 1, hn⟩ h0 h1 b ⟨(n + 1) % 8, hj8⟩ hb rfl p d).trans ?_
        refine congrArg (fun z => z + _) ?_
        rw [hm]; exact ihn

/-! ## The row results

At a point t = 8 b + 7 the body forms, for each of its 128 rows, the row's result from the accumulator as it stands
after all 8 blocks: that is `rowG` of the row's means, inverse variances and same-index term against all 1024 rows. -/

/-- The accumulator after the update at such a point, as the update's payload. -/
theorem acc_C_pay (c : Dev nD) (t : Fin cfg1.N) (h0 : ¬t.val % 8 = 0) (h1 : t.val % 8 = 7) (p d : Fin 128) :
    (outsAt1 V c t.val t.isLt).2 (ix2 p d) = k1_pay2 (muBlk V c t) (rowBlk V c t) (outsAt1 V c (t.val - 1) (Nat.lt_of_le_of_lt (Nat.sub_le _ _) t.isLt)).2 (ix2 p d) := by
  rw [outsAt1_C V c t h0 h1]; dsimp only
  exact congrFun (sout1_C_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (muBlk V c t) (rowBlk V c t) (ivBlk V c t) (psBlk V c t) (outsAt1 V c (t.val - 1) (Nat.lt_of_le_of_lt (Nat.sub_le _ _) t.isLt)).2) (ix2 p d)

/-- Row r's result. -/
def rowRes (c : Dev nD) (r : Fin 1024) : EReal :=
  Cert.Spec.rowG (fun d => muArr V c (ix2 r d)) (fun d => ivArr V c (ix2 r d)) (psArr V c (ix2 r 0)) (fun j d => rowArr V c (ix2 j d))

theorem out_C (c : Dev nD) (t : Fin cfg1.N) (h0 : ¬t.val % 8 = 0) (h1 : t.val % 8 = 7) (b : Fin 8) (hb : t.val / 8 = b.val)
    (p : Fin 128) : (outsAt1 V c t.val t.isLt).1 (ix2 p 0) = rowRes V c (row b p) := by
  rw [outsAt1_C V c t h0 h1]; dsimp only
  refine (congrFun (out1_C_4_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (muBlk V c t) (rowBlk V c t) (ivBlk V c t) (psBlk V c t) (outsAt1 V c (t.val - 1) (Nat.lt_of_le_of_lt (Nat.sub_le _ _) t.isLt)).2) (ix2 p 0)).trans ?_
  refine (k1_pay3_apply (k1_pay2 (muBlk V c t) (rowBlk V c t) (outsAt1 V c (t.val - 1) (Nat.lt_of_le_of_lt (Nat.sub_le _ _) t.isLt)).2) (ivBlk V c t) (psBlk V c t) p 0).trans ?_
  unfold rowRes Cert.Spec.rowG
  rw [psBlk_apply V c t b hb p 0]
  refine congrArg (fun z => psArr V c (ix2 (row b p) 0) - Cert.Spec.cHalfNeg * z) (Finset.sum_congr rfl fun d _ => ?_)
  rw [ivBlk_apply V c t b hb p d, ← acc_C_pay V c t h0 h1 p d, acc_eq V c p d t.val t.isLt b hb, h1]

/-! ## From the blocks to the array

The output window is written back only at the points whose second coordinate is 7, block b of 128 rows at the point
8 b + 7; those 8 blocks tile the 1024 rows, so the array ends holding every row's result. -/

/-- The array of row results. -/
def G1 (c : Dev nD) : Vec Ideal S1024x1 .f32 := fun i => rowRes V c ⟨(i 0).val, idx2_lt0 i⟩

theorem G1_apply (c : Dev nD) (r : Fin 1024) (u : Fin 1) : G1 V c (ix2 r u) = rowRes V c r := rfl

/-- What a point that writes back writes is its block of the array of row results. -/
theorem flushed1_4_eq (c : Dev nD) (t : Fin cfg1.N) (hf : (cfg1.win 4).flush t = true) :
    (dat1 V c).flushed 4 t = ((cfg1.win 4).blk t).view.read (Elt Ideal) (G1 V c) := by
  have hN : cfg1.N = 64 := N_1
  have h1 : t.val % 8 = 7 := (flush1_4 t).mp hf
  have h0 : ¬t.val % 8 = 0 := by omega
  have ht : t.val < 64 := hN ▸ t.isLt
  obtain ⟨-, -, -, -, -, -, -, -, e0, e1⟩ := idx_facts1 t
  show (cfg1.win 4).cut (grid1.coords t) ((dat1 V c).after 4 t) = _
  rw [after1_4]
  funext y
  obtain ⟨p, u, rfl⟩ : ∃ (p : Fin 128) (u : Fin 1), y = ix2 p u := ⟨y 0, y 1, eq_ix2 y⟩
  obtain rfl : u = 0 := Fin.ext (by omega)
  rw [View.read_apply]
  show (outsAt1 V c t.val t.isLt).1 (ix2 p 0) = G1 V c (((cfg1.win 4).blk t).view.emb (ix2 p 0))
  have he : ((cfg1.win 4).blk t).view.emb (ix2 p (0 : Fin 1)) = ix2 (row ⟨t.val / 8, by omega⟩ p) (0 : Fin 1) := by
    funext a; apply Fin.ext
    match a with
    | ⟨0, _⟩ => show win1_4.index t (0 : Fin 2) * 128 + 1 * p.val = 128 * (t.val / 8) + p.val; rw [e0]; omega
    | ⟨1, _⟩ => show win1_4.index t (1 : Fin 2) * 1 + 1 * 0 = 0; rw [e1]
  rw [he, G1_apply]
  exact out_C V c t h0 h1 ⟨t.val / 8, by omega⟩ rfl p

/-- An index of the array is in a point's block iff each coordinate is in the block's range on its axis. -/
theorem mem_blk1_4 (t : Fin cfg1.N) (i : S1024x1.Idx) :
    i ∈ ((cfg1.win 4).blk t).view.set ↔ ∀ a : Fin 2, win1_4.index t a * S128x1.size a ≤ (i a).val ∧ (i a).val < win1_4.index t a * S128x1.size a + S128x1.size a := by
  show i ∈ ((View.whole main_v4).slice (win1_4.rect t)).set ↔ _
  rw [View.set_slice_whole, Rect.mem_set_unit]
  exact Iff.rfl

/-- Row r lies in the block written back at the point 8 (r / 128) + 7. -/
theorem cover1_4 (i : S1024x1.Idx) :
    ∃ t : Fin cfg1.N, (cfg1.win 4).flush t = true ∧ i ∈ ((cfg1.win 4).blk t).view.set := by
  have hN : cfg1.N = 64 := N_1
  have hi0 : (i 0).val < 1024 := (i 0).isLt
  have hi1 : (i 1).val < 1 := (i 1).isLt
  have htN : 8 * ((i 0).val / 128) + 7 < cfg1.N := by omega
  refine ⟨⟨8 * ((i 0).val / 128) + 7, htN⟩, (flush1_4 _).mpr (by show (8 * ((i 0).val / 128) + 7) % 8 = 7; omega), ?_⟩
  rw [mem_blk1_4]
  obtain ⟨-, -, -, -, -, -, -, -, e0, e1⟩ := idx_facts1 ⟨8 * ((i 0).val / 128) + 7, htN⟩
  intro a
  match a with
  | ⟨0, _⟩ =>
    show win1_4.index ⟨8 * ((i 0).val / 128) + 7, htN⟩ (0 : Fin 2) * 128 ≤ (i 0).val ∧ (i 0).val < win1_4.index ⟨8 * ((i 0).val / 128) + 7, htN⟩ (0 : Fin 2) * 128 + 128
    rw [e0]
    show (8 * ((i 0).val / 128) + 7) / 8 * 128 ≤ (i 0).val ∧ (i 0).val < (8 * ((i 0).val / 128) + 7) / 8 * 128 + 128
    omega
  | ⟨1, _⟩ =>
    show win1_4.index ⟨8 * ((i 0).val / 128) + 7, htN⟩ (1 : Fin 2) * 1 ≤ (i 1).val ∧ (i 1).val < win1_4.index ⟨8 * ((i 0).val / 128) + 7, htN⟩ (1 : Fin 2) * 1 + 1
    rw [e1]
    omega

/-- The output array after the region. -/
theorem arr1_4 (c : Dev nD) : (dat1 V c).arrAt 4 cfg1.N = G1 V c :=
  (dat1 V c).arrAt_eq_of_cover 4 (G1 V c) (flushed1_4_eq V c) cover1_4

/-- Entry by entry: row r ends at its result. -/
theorem entry1_4 (c : Dev nD) (r : Fin 1024) :
    (dat1 V c).arrAt 4 cfg1.N (ix2 r 0)
      = Cert.Spec.rowG (fun d => V c main_v3_0 (ix2 r d)) (fun d => V c main_v3_1 (ix2 r d)) (V c main_v3_2 (ix2 r 0))
          (fun j d => V c main_arg1 (ix2 j d)) := by
  rw [arr1_4]; rfl

end Cert.KernelIdeal.Fr.Val1

namespace Cert.KernelIdeal.Fr

open Idealize.ShloMosaic Idealize.ShloMosaic.TcCoe Idealize.ShloMosaic.Tactic
open Idealize.SL.Sem
open Idealize.ShloMosaic.Pipeline (Dat)
open Cert.KernelIdeal Cert.KernelIdeal.Gen Idealize.ShloMosaic.ValueIdx

variable (V : (c : Dev nD) → (b : Ref sig .tc) → Buf (Elt Ideal) ((c : Thread nD τ).loc b))

/-- The second region's output array, entry by entry: row r ends at `rowG` of row r of the means, row r of the inverse
    variances, row r's same-index term, and all the rows of the other array. -/
theorem final1_4 (c : Dev nD) (r : Fin 1024) :
    (dat1 V c).arrAt 4 cfg1.N (ix2 r 0)
      = Cert.Spec.rowG (fun d => V c main_v3_0 (ix2 r d)) (fun d => V c main_v3_1 (ix2 r d)) (V c main_v3_2 (ix2 r 0))
          (fun j d => V c main_arg1 (ix2 j d)) :=
  Val1.entry1_4 V c r

end Cert.KernelIdeal.Fr

end
-- ==== Proof.KIValMain.lean ====
/-
  The kernel program's result at the ideal instance: on every device the result buffer at the end holds, at its one
  index, the kernel's spelling of the mathematics (the mean of the 1024 rows' results) of the launch contents of the eight
  arguments. The second region's output array is the rows' results of the arrays it finds; three of those are the first
  region's output arrays — the means, the inverse variances and the same-index terms of the rows of the first two
  arguments under the launched weights and biases — and the fourth the second argument itself.
-/
import proofs.«169424_j14061722927686_1_alg».proof.Proof.KIValHost
import proofs.«169424_j14061722927686_1_alg».proof.Proof.KIVal0
import proofs.«169424_j14061722927686_1_alg».proof.Proof.KIVal1
import proofs.«169424_j14061722927686_1_alg».proof.Proof.KIArgs
import proofs.«169424_j14061722927686_1_alg».proof.Proof.Spec

set_option maxRecDepth 16384

noncomputable section

namespace Cert.KernelIdeal.Fr

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- The parameters as launched. -/
abbrev PM (c : Dev nD) : Cert.Spec.Params :=
  ⟨m ((c.tc : Thread nD τ).loc main_arg2), m ((c.tc : Thread nD τ).loc main_arg3), m ((c.tc : Thread nD τ).loc main_arg4),
   m ((c.tc : Thread nD τ).loc main_arg5), m ((c.tc : Thread nD τ).loc main_arg6), m ((c.tc : Thread nD τ).loc main_arg7)⟩

theorem P0_V1 (c : Dev nD) : P0 (V1 m) c = PM m c := by
  unfold P0
  rw [Cert.Spec.Params.mk.injEq]
  refine ⟨W1_arg2 m c, funext fun n => ?_, W1_arg4 m c, funext fun n => ?_, W1_arg6 m c, funext fun n => ?_⟩
  · rw [eq_ix1 n]; exact W1_v0 m c (n 0)
  · rw [eq_ix1 n]; exact W1_v1 m c (n 0)
  · rw [eq_ix1 n]; exact W1_v2 m c (n 0)

theorem X0_V1 (c : Dev nD) (r : Fin 1024) : X0 (V1 m) c r = fun k => m ((c.tc : Thread nD τ).loc main_arg0) (ix2 r k) := by
  funext k; unfold X0; exact congrFun (W1_arg0 m c) _
theorem Y0_V1 (c : Dev nD) (r : Fin 1024) : Y0 (V1 m) c r = fun d => m ((c.tc : Thread nD τ).loc main_arg1) (ix2 r d) := by
  funext d; unfold Y0; exact congrFun (W1_arg1 m c) _

theorem kernel_res (c : Dev nD) :
    W4 m c (Proc.devRef .tc main_v6) = fun _ => Cert.Spec.resK
      ⟨m ((c.tc : Thread nD τ).loc main_arg2), m ((c.tc : Thread nD τ).loc main_arg3), m ((c.tc : Thread nD τ).loc main_arg4),
       m ((c.tc : Thread nD τ).loc main_arg5), m ((c.tc : Thread nD τ).loc main_arg6), m ((c.tc : Thread nD τ).loc main_arg7)⟩
      (fun r k => m ((c.tc : Thread nD τ).loc main_arg0) (ix2 r k))
      (fun r d => m ((c.tc : Thread nD τ).loc main_arg1) (ix2 r d)) := by
  funext i
  rw [W4_v6]
  show Ideal.div (Host.reduceAdd (W3 m c (Proc.devRef .tc main_v4)) (constant (F := Ideal) S_ .f32 0x00000000#32) reducesTo_S1024x1_S_d0_1 h_S_ i) (Ideal.ofBits .f32 0x44800000#32) = _
  unfold Cert.Spec.resK
  refine congrArg (fun z => Ideal.div z Cert.Spec.c1024) ?_
  rw [total_rows]
  refine congrArg (0 + ·) (Finset.sum_congr rfl fun r _ => ?_)
  rw [W3_v4, final1_4 (V2 m) c r]
  unfold Cert.Spec.rowK
  have e0 : (fun d => V2 m c main_v3_0 (ix2 r d)) = Cert.Spec.mu (PM m c) (fun k => m ((c.tc : Thread nD τ).loc main_arg0) (ix2 r k)) := by
    funext d
    show W2 m c (Proc.devRef .tc main_v3_0) (ix2 r d) = _
    rw [W2_v3_0, final0_8 (V1 m) c r d, P0_V1, X0_V1]
  have e1 : (fun d => V2 m c main_v3_1 (ix2 r d)) = Cert.Spec.iv (PM m c) (fun k => m ((c.tc : Thread nD τ).loc main_arg0) (ix2 r k)) := by
    funext d
    show W2 m c (Proc.devRef .tc main_v3_1) (ix2 r d) = _
    rw [W2_v3_1, final0_9 (V1 m) c r d, P0_V1, X0_V1]
  have e2 : V2 m c main_v3_2 (ix2 r 0) = Cert.Spec.posK (PM m c) (fun k => m ((c.tc : Thread nD τ).loc main_arg0) (ix2 r k)) (fun d => m ((c.tc : Thread nD τ).loc main_arg1) (ix2 r d)) := by
    show W2 m c (Proc.devRef .tc main_v3_2) (ix2 r 0) = _
    rw [W2_v3_2, final0_10 (V1 m) c r, P0_V1, X0_V1, Y0_V1]
  have e3 : (fun j d => V2 m c main_arg1 (ix2 j d)) = fun j d => m ((c.tc : Thread nD τ).loc main_arg1) (ix2 j d) := by
    funext j d
    exact congrFun (W2_arg1 m c) _
  rw [e0, e1, e2, e3]

end Cert.KernelIdeal.Fr

end
-- ==== Proof.RefVal.lean ====
/-
  The reference's result, read off its run one operation at a time, is the reference's spelling of the mathematics.

  Each intermediate array of the reference is read at one index and identified with the specification's function of
  the same name: the three dense layers (a matrix product read as a sum over the contracted coordinate, plus the bias
  row, then `max · 0` or `tanh`), the two halves of the third layer's output (the means and the log-variances), the
  inverse variances, the same-index term (a sum over the 128 columns), the pairwise term (a sum over all 1024 rows of
  squared differences, divided by 1024, weighted and summed over the 128 columns), their difference per row, and the
  mean over the 1024 rows.
-/
import proofs.«169424_j14061722927686_1_alg».proof.Proof.Gen.ReferenceIdeal.Run
import proofs.«169424_j14061722927686_1_alg».proof.Proof.Gen.ReferenceIdeal.Read
import proofs.«169424_j14061722927686_1_alg».proof.Proof.Spec
import proofs.«169424_j14061722927686_1_alg».proof.Proof.LibPlainDot
import Idealize.ShloMosaic.Lib.ValueIdxRank1

noncomputable section

namespace Cert.ReferenceIdeal.RefValue

open Cert.ReferenceIdeal Idealize.ShloMosaic Idealize.ShloMosaic.ValueIdx
open Cert.ReferenceIdeal.Read

variable (x0 : (⟨S1024x256, .f32⟩ : BufTy).Contents (Elt Ideal)) (x1 : (⟨S1024x128, .f32⟩ : BufTy).Contents (Elt Ideal))
  (x2 : (⟨S256x256, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal))
  (x6 : (⟨S256x256, .f32⟩ : BufTy).Contents (Elt Ideal)) (x7 : (⟨S256, .f32⟩ : BufTy).Contents (Elt Ideal))

/-- The six weight and bias arrays as the specification's record. -/
abbrev prm : Cert.Spec.Params := ⟨x2, x3, x4, x5, x6, x7⟩
/-- Row `r` of the first argument. -/
abbrev rowX (r : Fin 1024) : Fin 256 → EReal := fun k => x0 (ix2 r k)
/-- Row `r` of the second argument. -/
abbrev rowY (r : Fin 1024) : Fin 128 → EReal := fun d => x1 (ix2 r d)

/-! ## The first layer -/

/-- The bias row, broadcast over the 1024 rows, at `(r, n)` is the bias at `n`. -/
theorem bias_v2 (r : Fin 1024) (n : Fin 256) : val_main_v2 (F := Ideal) x3 (ix2 r n) = x3 (ix1 n) := by
  rw [val_main_v2_apply, val_main_v1_apply]
  exact congrArg x3 (funext fun a => Fin.ext (by match a with | ⟨0, _⟩ => rfl))

/-- The zero array. -/
theorem zero_call0 (i : S1024x256.Idx) : val_main_call0_v0 (F := Ideal) i = 0 := by
  rw [val_main_call0_v0_apply, val_main_call0_cst_apply]
  exact Ideal.ofBits_zero_f32

/-- The first product at `(r, n)`: row `r` times column `n`. -/
theorem dot_v0 (r : Fin 1024) (n : Fin 256) :
    val_main_v0 (F := Ideal) x0 x2 (ix2 r n) = ∑ k : Fin 256, x0 (ix2 r k) * x2 (ix2 k n) := by
  unfold val_main_v0
  exact Cert.PlainDot.dotGeneral_apply _ rfl none x0 x2 r n

/-- The first hidden layer. -/
theorem hid1_v4 (r : Fin 1024) (n : Fin 256) :
    val_main_v4 (F := Ideal) x0 x2 x3 (ix2 r n) = Cert.Spec.hid1 (prm x2 x3 x4 x5 x6 x7) (rowX x0 r) n := by
  rw [val_main_v4_apply, val_main_v3_apply, dot_v0, bias_v2, zero_call0]
  rfl

/-! ## The second layer -/

theorem bias_v7 (r : Fin 1024) (n : Fin 256) : val_main_v7 (F := Ideal) x5 (ix2 r n) = x5 (ix1 n) := by
  rw [val_main_v7_apply, val_main_v6_apply]
  exact congrArg x5 (funext fun a => Fin.ext (by match a with | ⟨0, _⟩ => rfl))

theorem zero_call1 (i : S1024x256.Idx) : val_main_call1_v0 (F := Ideal) i = 0 := by
  rw [val_main_call1_v0_apply, val_main_call1_cst_apply]
  exact Ideal.ofBits_zero_f32

/-- The second product at `(r, n)`: row `r` of the first hidden layer times column `n`. -/
theorem dot_v5 (r : Fin 1024) (n : Fin 256) :
    val_main_v5 (F := Ideal) x0 x2 x3 x4 (ix2 r n)
      = ∑ k : Fin 256, Cert.Spec.hid1 (prm x2 x3 x4 x5 x6 x7) (rowX x0 r) k * x4 (ix2 k n) := by
  unfold val_main_v5
  refine (Cert.PlainDot.dotGeneral_apply _ rfl none (val_main_v4 (F := Ideal) x0 x2 x3) x4 r n).trans ?_
  exact Finset.sum_congr rfl fun k _ => congrArg (· * x4 (ix2 k n)) (hid1_v4 x0 x2 x3 x4 x5 x6 x7 r k)

/-- The second hidden layer. -/
theorem hid2_v9 (r : Fin 1024) (n : Fin 256) :
    val_main_v9 (F := Ideal) x0 x2 x3 x4 x5 (ix2 r n) = Cert.Spec.hid2 (prm x2 x3 x4 x5 x6 x7) (rowX x0 r) n := by
  rw [val_main_v9_apply, val_main_v8_apply, dot_v5 x0 x2 x3 x4 x5 x6 x7, bias_v7, zero_call1]
  rfl

/-! ## The third layer -/

theorem bias_v12 (r : Fin 1024) (n : Fin 256) : val_main_v12 (F := Ideal) x7 (ix2 r n) = x7 (ix1 n) := by
  rw [val_main_v12_apply, val_main_v11_apply]
  exact congrArg x7 (funext fun a => Fin.ext (by match a with | ⟨0, _⟩ => rfl))

/-- The third product at `(r, n)`: row `r` of the second hidden layer times column `n`. -/
theorem dot_v10 (r : Fin 1024) (n : Fin 256) :
    val_main_v10 (F := Ideal) x0 x2 x3 x4 x5 x6 (ix2 r n)
      = ∑ k : Fin 256, Cert.Spec.hid2 (prm x2 x3 x4 x5 x6 x7) (rowX x0 r) k * x6 (ix2 k n) := by
  unfold val_main_v10
  refine (Cert.PlainDot.dotGeneral_apply _ rfl none (val_main_v9 (F := Ideal) x0 x2 x3 x4 x5) x6 r n).trans ?_
  exact Finset.sum_congr rfl fun k _ => congrArg (· * x6 (ix2 k n)) (hid2_v9 x0 x2 x3 x4 x5 x6 x7 r k)

/-- The third layer's output. -/
theorem gate_v14 (r : Fin 1024) (n : Fin 256) :
    val_main_v14 (F := Ideal) x0 x2 x3 x4 x5 x6 x7 (ix2 r n) = Cert.Spec.gate (prm x2 x3 x4 x5 x6 x7) (rowX x0 r) n := by
  rw [val_main_v14_apply, val_main_v13_apply, dot_v10 x0 x2 x3 x4 x5 x6 x7, bias_v12]
  rfl

/-- The means: the left half of the third layer's output. -/
theorem mu_v15 (r : Fin 1024) (d : Fin 128) :
    val_main_v15 (F := Ideal) x0 x2 x3 x4 x5 x6 x7 (ix2 r d) = Cert.Spec.mu (prm x2 x3 x4 x5 x6 x7) (rowX x0 r) d := by
  have e : idx_main_v15 (ix2 r d) = ix2 r (⟨d.val, by have := d.isLt; omega⟩ : Fin 256) :=
    funext fun a => Fin.ext (by match a with | ⟨0, _⟩ => rfl | ⟨1, _⟩ => rfl)
  rw [val_main_v15_apply, e, gate_v14]
  rfl

/-- The log-variances: the right half. -/
theorem lv_v16 (r : Fin 1024) (d : Fin 128) :
    val_main_v16 (F := Ideal) x0 x2 x3 x4 x5 x6 x7 (ix2 r d) = Cert.Spec.lv (prm x2 x3 x4 x5 x6 x7) (rowX x0 r) d := by
  have e : idx_main_v16 (ix2 r d) = ix2 r (⟨128 + d.val, by have := d.isLt; omega⟩ : Fin 256) :=
    funext fun a => Fin.ext (by match a with | ⟨0, _⟩ => rfl | ⟨1, _⟩ => rfl)
  rw [val_main_v16_apply, e, gate_v14]
  rfl

/-- The inverse variances. -/
theorem iv_v18 (r : Fin 1024) (d : Fin 128) :
    val_main_v18 (F := Ideal) x0 x2 x3 x4 x5 x6 x7 (ix2 r d) = Cert.Spec.iv (prm x2 x3 x4 x5 x6 x7) (rowX x0 r) d := by
  rw [val_main_v18_apply, val_main_v17_apply, lv_v16]
  rfl

/-! ## The same-index term -/

/-- One summand of the same-index term. -/
theorem posTerm_v23 (r : Fin 1024) (d : Fin 128) :
    val_main_v23 (F := Ideal) x0 x1 x2 x3 x4 x5 x6 x7 (ix2 r d)
      = (Cert.Spec.cHalfNeg * ((Cert.Spec.mu (prm x2 x3 x4 x5 x6 x7) (rowX x0 r) d - x1 (ix2 r d))
          * (Cert.Spec.mu (prm x2 x3 x4 x5 x6 x7) (rowX x0 r) d - x1 (ix2 r d))))
        * Cert.Spec.iv (prm x2 x3 x4 x5 x6 x7) (rowX x0 r) d := by
  rw [val_main_v23_apply, val_main_v22_apply, val_main_v21_apply, val_main_cst_apply, val_main_v20_apply,
    val_main_v19_apply, mu_v15 x0 x2 x3 x4 x5 x6 x7, iv_v18 x0 x2 x3 x4 x5 x6 x7]
  rfl

/-- The same-index term of row `r`: the sum over the 128 columns. -/
theorem pos_v36 (r : Fin 1024) :
    val_main_v36 (F := Ideal) x0 x1 x2 x3 x4 x5 x6 x7 (ix1 r)
      = Cert.Spec.posR (prm x2 x3 x4 x5 x6 x7) (rowX x0 r) (rowY x1 r) := by
  rw [val_main_v36_apply, val_main_cst_3_apply]
  unfold Cert.Spec.posR
  refine congrArg₂ (· + ·) Ideal.ofBits_zero_f32 (Finset.sum_congr rfl fun k _ => ?_)
  have e : idx_main_v36 (ix1 r) k = ix2 r k :=
    funext fun a => Fin.ext (by match a with | ⟨0, _⟩ => rfl | ⟨1, _⟩ => rfl)
  rw [e, posTerm_v23]

/-! ## The pairwise term -/

/-- The squared difference of row `r`'s mean and row `j`'s entry, in column `d`. -/
theorem sq_v29 (r j : Fin 1024) (d : Fin 128) :
    val_main_v29 (F := Ideal) x0 x1 x2 x3 x4 x5 x6 x7 (ix3 r j d)
      = (Cert.Spec.mu (prm x2 x3 x4 x5 x6 x7) (rowX x0 r) d - x1 (ix2 j d))
        * (Cert.Spec.mu (prm x2 x3 x4 x5 x6 x7) (rowX x0 r) d - x1 (ix2 j d)) := by
  have e1 : idx_main_v24 (idx_main_v26 (ix3 r j d)) = ix2 r d :=
    funext fun a => Fin.ext (by match a with | ⟨0, _⟩ => rfl | ⟨1, _⟩ => rfl)
  have e2 : idx_main_v25 (idx_main_v27 (ix3 r j d)) = ix2 j d :=
    funext fun a => Fin.ext (by match a with | ⟨0, _⟩ => rfl | ⟨1, _⟩ => rfl)
  rw [val_main_v29_apply, val_main_v28_apply, val_main_v26_apply, val_main_v24_apply, val_main_v27_apply,
    val_main_v25_apply, e1, e2, mu_v15 x0 x2 x3 x4 x5 x6 x7]
  rfl

/-- The sum of the squared differences over all 1024 rows `j`. -/
theorem sumsq_v30 (r : Fin 1024) (d : Fin 128) :
    val_main_v30 (F := Ideal) x0 x1 x2 x3 x4 x5 x6 x7 (ix2 r d)
      = 0 + ∑ j : Fin 1024, (Cert.Spec.mu (prm x2 x3 x4 x5 x6 x7) (rowX x0 r) d - x1 (ix2 j d))
          * (Cert.Spec.mu (prm x2 x3 x4 x5 x6 x7) (rowX x0 r) d - x1 (ix2 j d)) := by
  rw [val_main_v30_apply, val_main_cst_0_apply]
  refine congrArg₂ (· + ·) Ideal.ofBits_zero_f32 (Finset.sum_congr rfl fun k _ => ?_)
  have e : idx_main_v30 (ix2 r d) k = ix3 r k d :=
    funext fun a => Fin.ext (by match a with | ⟨0, _⟩ => rfl | ⟨1, _⟩ => rfl | ⟨2, _⟩ => rfl)
  rw [e, sq_v29]

/-- One summand of the pairwise term. -/
theorem negTerm_v35 (r : Fin 1024) (d : Fin 128) :
    val_main_v35 (F := Ideal) x0 x1 x2 x3 x4 x5 x6 x7 (ix2 r d)
      = (Cert.Spec.cHalfNeg * Ideal.div (0 + ∑ j : Fin 1024,
            (Cert.Spec.mu (prm x2 x3 x4 x5 x6 x7) (rowX x0 r) d - x1 (ix2 j d))
              * (Cert.Spec.mu (prm x2 x3 x4 x5 x6 x7) (rowX x0 r) d - x1 (ix2 j d))) Cert.Spec.c1024)
        * Cert.Spec.iv (prm x2 x3 x4 x5 x6 x7) (rowX x0 r) d := by
  rw [val_main_v35_apply, val_main_v34_apply, val_main_v33_apply, val_main_cst_2_apply, val_main_v32_apply,
    val_main_v31_apply, val_main_cst_1_apply, sumsq_v30 x0 x1 x2 x3 x4 x5 x6 x7, iv_v18 x0 x2 x3 x4 x5 x6 x7]
  rfl

/-- The pairwise term of row `r`. -/
theorem neg_v37 (r : Fin 1024) :
    val_main_v37 (F := Ideal) x0 x1 x2 x3 x4 x5 x6 x7 (ix1 r)
      = Cert.Spec.negR (prm x2 x3 x4 x5 x6 x7) (fun j d => x1 (ix2 j d)) (rowX x0 r) := by
  rw [val_main_v37_apply, val_main_cst_4_apply]
  unfold Cert.Spec.negR
  refine congrArg₂ (· + ·) Ideal.ofBits_zero_f32 (Finset.sum_congr rfl fun k _ => ?_)
  have e : idx_main_v37 (ix1 r) k = ix2 r k :=
    funext fun a => Fin.ext (by match a with | ⟨0, _⟩ => rfl | ⟨1, _⟩ => rfl)
  rw [e, negTerm_v35]

/-! ## The rows' results and their mean -/

/-- Row `r`'s result. -/
theorem row_v38 (r : Fin 1024) :
    val_main_v38 (F := Ideal) x0 x1 x2 x3 x4 x5 x6 x7 (ix1 r)
      = Cert.Spec.posR (prm x2 x3 x4 x5 x6 x7) (rowX x0 r) (rowY x1 r)
        - Cert.Spec.negR (prm x2 x3 x4 x5 x6 x7) (fun j d => x1 (ix2 j d)) (rowX x0 r) := by
  rw [val_main_v38_apply, pos_v36, neg_v37]
  rfl

/-- The sum of the 1024 rows' results. -/
theorem total_v39 (i : S_.Idx) :
    val_main_v39 (F := Ideal) x0 x1 x2 x3 x4 x5 x6 x7 i
      = 0 + ∑ r : Fin 1024, (Cert.Spec.posR (prm x2 x3 x4 x5 x6 x7) (rowX x0 r) (rowY x1 r)
          - Cert.Spec.negR (prm x2 x3 x4 x5 x6 x7) (fun j d => x1 (ix2 j d)) (rowX x0 r)) := by
  rw [val_main_v39_apply, val_main_cst_5_apply]
  refine congrArg₂ (· + ·) Ideal.ofBits_zero_f32 ?_
  rw [← Equiv.sum_comp (idxEquiv1 (n := 1024)).symm]
  exact Finset.sum_congr rfl fun r _ => row_v38 x0 x1 x2 x3 x4 x5 x6 x7 r

/-- The reference's result is the mean of the rows' results. -/
theorem res_v40 (i : S_.Idx) :
    val_main_v40 (F := Ideal) x0 x1 x2 x3 x4 x5 x6 x7 i
      = Cert.Spec.resR (prm x2 x3 x4 x5 x6 x7) (fun r k => x0 (ix2 r k)) (fun r d => x1 (ix2 r d)) := by
  rw [val_main_v40_apply, total_v39, val_main_cst_6_apply]
  rfl

/-! ## The result buffer -/

/-- On every device the reference's result buffer holds, at its one index, the specification's mean of the 1024 rows'
    results, of the launch contents of the eight arguments. -/
theorem res_eq (m : (ℓ : Loc nD τ sig) → Buf (Elt Ideal) ℓ) (c : Dev nD) :
    Cert.ReferenceIdeal.Value.res_out0 (F := Ideal) m c = fun _ => Cert.Spec.resR
      ⟨m ((c.tc : Thread nD τ).loc main_arg2), m ((c.tc : Thread nD τ).loc main_arg3), m ((c.tc : Thread nD τ).loc main_arg4),
       m ((c.tc : Thread nD τ).loc main_arg5), m ((c.tc : Thread nD τ).loc main_arg6), m ((c.tc : Thread nD τ).loc main_arg7)⟩
      (fun r k => m ((c.tc : Thread nD τ).loc main_arg0) (ix2 r k))
      (fun r d => m ((c.tc : Thread nD τ).loc main_arg1) (ix2 r d)) := by
  funext i
  show Cert.ReferenceIdeal.Value.res_main_v40 (F := Ideal) m c i = _
  rw [val_main_v40_eq]
  exact res_v40 _ _ _ _ _ _ _ _ i

end Cert.ReferenceIdeal.RefValue

end
-- ==== Proof.Bridge.lean ====
/-
  The two spellings of the result agree: the kernel's (resK) and the reference's (resR).

  The constants are the reals -½, 2⁻¹⁰ and 1024. A mean (mu P x d) is a real number whatever the row x holds, since
  tanh sends the two infinities to ∓1; an inverse variance is the exponential of a real, hence real. The same-index
  terms agree by associativity of the product alone. The accumulator after 8 blocks of 128 is the sum over all 1024
  rows, by regrouping a sum in a commutative monoid. Where the kernel pulls -½ out of the sum over d, every summand
  is real (the rows Y are real by hypothesis), and a real factor distributes over a sum of reals.
-/
import proofs.«169424_j14061722927686_1_alg».proof.Proof.Spec
import Mathlib.Algebra.BigOperators.Fin
import Mathlib.Data.EReal.Operations
import Mathlib.Data.EReal.Inv

noncomputable section

namespace Cert.Spec

open Idealize.ShloMosaic Idealize.ShloMosaic.ValueIdx

/-! ## The constants -/

theorem cHalfNeg_eq : cHalfNeg = (((-1 / 2 : ℝ)) : EReal) := by
  simp [cHalfNeg, Ideal.ofBits, Ideal.ieee, -EReal.coe_mul]; norm_num

theorem cInv1024_eq : cInv1024 = (((1 / 1024 : ℝ)) : EReal) := by
  simp [cInv1024, Ideal.ofBits, Ideal.ieee, -EReal.coe_mul]; norm_num

theorem c1024_eq : c1024 = (((1024 : ℝ)) : EReal) := by
  simp [c1024, Ideal.ofBits, Ideal.ieee, -EReal.coe_mul]; norm_num

/-! ## The means and the inverse variances are real -/

theorem tanh_real (z : EReal) : ∃ r : ℝ, Ideal.tanh z = (r : EReal) := by
  induction z with
  | bot => exact ⟨-1, by simp⟩
  | coe r => exact ⟨Real.tanh r, rfl⟩
  | top => exact ⟨1, by simp⟩

variable (P : Params)

theorem gate_real (x : Fin 256 → EReal) (n : Fin 256) : ∃ r : ℝ, gate P x n = (r : EReal) := tanh_real _

theorem mu_real (x : Fin 256 → EReal) (d : Fin 128) : ∃ r : ℝ, mu P x d = (r : EReal) := gate_real P x _

theorem lv_real (x : Fin 256 → EReal) (d : Fin 128) : ∃ r : ℝ, lv P x d = (r : EReal) := gate_real P x _

theorem iv_real (x : Fin 256 → EReal) (d : Fin 128) : ∃ r : ℝ, iv P x d = (r : EReal) := by
  obtain ⟨l, hl⟩ := lv_real P x d
  exact ⟨Real.exp (-l), by rw [iv, hl, ← EReal.coe_neg, Ideal.exp_coe]⟩

/-! ## Sums of reals -/

/-- The inclusion of the reals carries a finite sum to the sum of the inclusions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor distributes over a finite sum of reals. -/
theorem real_mul_sum {ι : Type*} (s : Finset ι) (c : ℝ) (t : ι → EReal) (ht : ∀ i, ∃ r : ℝ, t i = (r : EReal)) :
    (c : EReal) * ∑ i ∈ s, t i = ∑ i ∈ s, (c : EReal) * t i := by
  choose τ hτ using ht
  simp only [hτ, ← EReal.coe_mul, ← coe_sum, Finset.mul_sum]

/-- The sum of the squared differences of a real against reals is real. -/
theorem sq_sum_real (m : ℝ) (y : Fin 1024 → EReal) (hy : ∀ j, ∃ r : ℝ, y j = (r : EReal)) :
    ∃ s : ℝ, ∑ j : Fin 1024, ((m : EReal) - y j) * ((m : EReal) - y j) = (s : EReal) := by
  choose yr hyr using hy
  exact ⟨∑ j, (m - yr j) * (m - yr j), by simp only [hyr, ← EReal.coe_sub, ← EReal.coe_mul, coe_sum]⟩

/-! ## The accumulator -/

/-- After n blocks the accumulator holds the first 128 n terms, the index read modulo 1024. -/
theorem accG_eq_range (a : EReal) (y : Fin 1024 → EReal) (n : ℕ) :
    accG a y n = ∑ i ∈ Finset.range (128 * n),
      (a - y ⟨i % 1024, Nat.mod_lt _ (by decide)⟩) * (a - y ⟨i % 1024, Nat.mod_lt _ (by decide)⟩) := by
  induction n with
  | zero => simp [accG]
  | succ n ih =>
    rw [accG, ih, Nat.mul_succ, Finset.sum_range_add]
    exact congrArg (_ + ·) (Fin.sum_univ_eq_sum_range (fun q => (a - y ⟨(128 * n + q) % 1024, Nat.mod_lt _ (by decide)⟩)
      * (a - y ⟨(128 * n + q) % 1024, Nat.mod_lt _ (by decide)⟩)) 128)

/-- After all 8 blocks it holds the sum over all 1024 indices. -/
theorem accG_eight (a : EReal) (y : Fin 1024 → EReal) :
    accG a y 8 = ∑ j : Fin 1024, (a - y j) * (a - y j) := by
  rw [accG_eq_range]
  rw [show 128 * 8 = 1024 from rfl, ← Fin.sum_univ_eq_sum_range (fun i => (a - y ⟨i % 1024, Nat.mod_lt _ (by decide)⟩)
      * (a - y ⟨i % 1024, Nat.mod_lt _ (by decide)⟩)) 1024]
  refine Finset.sum_congr rfl fun j _ => ?_
  have hj : (⟨j.val % 1024, Nat.mod_lt _ (by decide)⟩ : Fin 1024) = j := Fin.ext (Nat.mod_eq_of_lt j.isLt)
  rw [hj]

/-! ## A row, and the result -/

theorem posK_eq_posR (x : Fin 256 → EReal) (y : Fin 128 → EReal) : posK P x y = posR P x y := by
  simp only [posK, posR, zero_add, mul_assoc]

theorem row_eq (Y : Fin 1024 → Fin 128 → EReal) (hY : ∀ j d, ∃ r : ℝ, Y j d = (r : EReal))
    (x : Fin 256 → EReal) (y : Fin 128 → EReal) : rowK P Y x y = posR P x y - negR P Y x := by
  have hneg : cHalfNeg * ∑ d : Fin 128, (accG (mu P x d) (fun j => Y j d) 8 * cInv1024) * iv P x d
      = negR P Y x := by
    rw [negR, zero_add, cHalfNeg_eq, real_mul_sum]
    · refine Finset.sum_congr rfl fun d _ => ?_
      rw [accG_eight, zero_add, c1024_eq, Ideal.div_coe (by norm_num), cInv1024_eq]
      exact (mul_assoc _ _ _).symm
    · intro d
      obtain ⟨m, hm⟩ := mu_real P x d
      obtain ⟨v, hv⟩ := iv_real P x d
      obtain ⟨s, hs⟩ := sq_sum_real m (fun j => Y j d) (fun j => hY j d)
      exact ⟨s * (1 / 1024) * v, by
        rw [accG_eight, hm, hs, hv, cInv1024_eq, ← EReal.coe_mul, ← EReal.coe_mul]⟩
  rw [rowK, rowG, posK_eq_posR, hneg]

theorem resK_eq_resR (X : Fin 1024 → Fin 256 → EReal) (Y : Fin 1024 → Fin 128 → EReal)
    (hY : ∀ j d, ∃ r : ℝ, Y j d = (r : EReal)) : resK P X Y = resR P X Y := by
  rw [resK, resR]
  congr 2
  exact Finset.sum_congr rfl fun r _ => row_eq P Y hY (X r) (Y r)

end Cert.Spec

end
-- ==== Proof.Finite.lean ====
/-
  The precondition read back: `finite_inputs` holds of the kernel's argument arrays, so every entry of the
  second argument (f32[1024,128]) is a real number, not an infinity and not the junk value `⊥`.

  The printed predicate is a conjunction, over the eight arguments, of `all (|x| < +∞)`: a chain of `and`s of
  full reductions by `and` of the elementwise comparison of `|x|` with the constant `0x7F800000` (which is `+∞`).
  The claim's hypothesis says the whole chain is 1 at its one index; we split the chain down to the second
  argument's conjunct, read the full reduction back to every entry, and read the comparison at the ideal
  instance, where it is `max x (-x) < ⊤` on extended reals.
-/
import proofs.«169424_j14061722927686_1_alg».proof.Defs
import Idealize.ShloMosaic.Lib.ReduceAll
import Idealize.ShloMosaic.Lib.ValueIdx
import Idealize.ShloMosaic.PureOps.Ideal.Laws
import Mathlib.Data.EReal.Basic

noncomputable section

namespace Cert.Proof.Finite

open Idealize.ShloMosaic Idealize.SL.Sem

/-- The shape of rank zero has exactly one index. -/
instance : Subsingleton Cert.Pre_finite_inputs.S_.Idx := ⟨fun a b => funext fun d => d.elim0⟩

/-- The f32 pattern `0x7F800000` (exponent all ones, fraction zero, sign clear) denotes `+∞`. -/
theorem ofBits_inf_f32 : Ideal.ofBits .f32 0x7F800000#32 = (⊤ : EReal) := by
  simp [Ideal.ofBits, Ideal.ieee]

/-- An extended real whose absolute value `max x (-x)` lies below `+∞` is a real: `⊤` fails on the left
    operand of the maximum, `⊥` on the right one (`-⊥ = ⊤`). -/
theorem real_of_abs_lt_top (x : EReal) (h : max x (-x) < ⊤) : ∃ r : ℝ, x = (r : EReal) := by
  induction x using EReal.rec with
  | bot => simp at h
  | coe r => exact ⟨r, rfl⟩
  | top => simp at h

/-- One entry: if the comparison word of `|x| < +∞` is 1 at the ideal instance, `x` is a real. -/
theorem real_of_word (x : Ideal .f32)
    (h : FloatOps.cmpf .olt (FloatOps.hostAbsf x) (FloatOps.ofBits (F := Ideal) .f32 0x7F800000#32) = 1#1) :
    ∃ r : ℝ, x = (r : EReal) := by
  rw [Ideal.cmpf_def, Ideal.hostAbsf_def, Ideal.absf_def, Ideal.ofBits_def, ofBits_inf_f32] at h
  refine real_of_abs_lt_top x ?_
  simp only [Ideal.cmp] at h
  by_contra hn
  rw [decide_eq_false hn] at h
  exact absurd h (by decide)

theorem arg1_real [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (j : Cert.KernelIdeal.S1024x128.Idx) :
    ∃ r : ℝ, m ((c.tc : Thread Cert.KernelIdeal.nD Cert.KernelIdeal.τ).loc Cert.KernelIdeal.main_arg1) j = (r : EReal) := by
  -- the predicate at its one index
  have h0 := congrFun (h c) ValueIdx.ix0
  dsimp only [Cert.Pre_finite_inputs.fn, Cert.Pre_finite_inputs.fn_part1, Cert.Pre_finite_inputs.fn_part2] at h0
  -- the chain of `and`s associates to the left: seven steps down its left spine reach the conjunct of the
  -- first two arguments, whose right half is the second argument's `all`
  obtain ⟨h1, -⟩ := IntOp.andi_eq_one.1 h0
  obtain ⟨h2, -⟩ := IntOp.andi_eq_one.1 h1
  obtain ⟨h3, -⟩ := IntOp.andi_eq_one.1 h2
  obtain ⟨h4, -⟩ := IntOp.andi_eq_one.1 h3
  obtain ⟨h5, -⟩ := IntOp.andi_eq_one.1 h4
  obtain ⟨h6, -⟩ := IntOp.andi_eq_one.1 h5
  obtain ⟨-, h7⟩ := IntOp.andi_eq_one.1 h6
  -- a full reduction by `and` that is 1 had a 1 at every entry
  have e := Host.reduce_andi_all _ _ _ _ _ h7 j
  -- the entry's comparison word, read at the ideal instance
  exact real_of_word _ e

end Cert.Proof.Finite

end
-- ==== Proof.lean ====
/-
  The certificate. Two kernels compute, for each of 1024 rows, a three-layer perceptron's means and inverse variances,
  the same-index squared-distance term, and — accumulated over 8 blocks of 128 rows in a scratch buffer carried across
  the second kernel's grid — the pairwise squared-distance term against all 1024 rows; the result is the mean of the
  rows' differences. The reference computes the same with whole-array operations. Over the extended reals the two agree
  whenever the second input is finite: the perceptron's outputs pass through `tanh`, so the means and inverse variances
  are real whatever the other inputs are, every pairwise term is then real, and -½ may be moved across the sum over the
  128 features and 2⁻¹⁰ exchanged for the division by 1024.

  The frames of the two kernel programs run both regions through the pipeline library's launch for a list of segments,
  the second region's invariant holding the accumulator at the contents the point before left. The reference's frame and
  value are its generated run. `preserves` is trivial: the ideal pass rewrote nothing.
-/
import proofs.«169424_j14061722927686_1_alg».proof.Defs
import proofs.«169424_j14061722927686_1_alg».proof.Proof.Gen.Kernel
import proofs.«169424_j14061722927686_1_alg».proof.Proof.Gen.KernelIdeal
import proofs.«169424_j14061722927686_1_alg».proof.Proof.Gen.ReferenceIdeal
import proofs.«169424_j14061722927686_1_alg».proof.Proof.Gen.Pre_finite_inputs
import proofs.«169424_j14061722927686_1_alg».proof.Proof.KArgs
import proofs.«169424_j14061722927686_1_alg».proof.Proof.KIArgs
import proofs.«169424_j14061722927686_1_alg».proof.Proof.KIValMain
import proofs.«169424_j14061722927686_1_alg».proof.Proof.RefVal
import proofs.«169424_j14061722927686_1_alg».proof.Proof.Bridge
import proofs.«169424_j14061722927686_1_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the mean of the 1024 rows' results of the same arguments: the kernel's spelling on one
    side, the reference's on the other, equal because the second argument is finite. -/
theorem algebraic : Cert.algebraic_KernelIdeal_ReferenceIdeal := by
  intro m ρ m' ρ' hpre hagree
  refine ⟨fun c => fun _ => Cert.Spec.resK
      ⟨m ((c.tc : Thread Cert.KernelIdeal.nD Cert.KernelIdeal.τ).loc Cert.KernelIdeal.main_arg2), m ((c.tc : Thread Cert.KernelIdeal.nD Cert.KernelIdeal.τ).loc Cert.KernelIdeal.main_arg3), m ((c.tc : Thread Cert.KernelIdeal.nD Cert.KernelIdeal.τ).loc Cert.KernelIdeal.main_arg4), m ((c.tc : Thread Cert.KernelIdeal.nD Cert.KernelIdeal.τ).loc Cert.KernelIdeal.main_arg5), m ((c.tc : Thread Cert.KernelIdeal.nD Cert.KernelIdeal.τ).loc Cert.KernelIdeal.main_arg6), m ((c.tc : Thread Cert.KernelIdeal.nD Cert.KernelIdeal.τ).loc Cert.KernelIdeal.main_arg7)⟩
      (fun r k => m ((c.tc : Thread Cert.KernelIdeal.nD Cert.KernelIdeal.τ).loc Cert.KernelIdeal.main_arg0) (ix2 r k))
      (fun r d => m ((c.tc : Thread Cert.KernelIdeal.nD Cert.KernelIdeal.τ).loc Cert.KernelIdeal.main_arg1) (ix2 r d)), ?_, ?_⟩
  · exact (θ_run Cert.KernelIdeal.defs _ _).mono (fun r h c =>
      ⟨(h c _ (Cert.KernelIdeal.Fr.mem_uc Cert.KernelIdeal.main_v6 (by decide))).trans (Cert.KernelIdeal.Fr.kernel_res m c),
      (h c _ (Cert.KernelIdeal.Fr.mem_uc Cert.KernelIdeal.main_arg0 (by decide))).trans (Cert.KernelIdeal.Fr.W4_arg0 m c),
      (h c _ (Cert.KernelIdeal.Fr.mem_uc Cert.KernelIdeal.main_arg1 (by decide))).trans (Cert.KernelIdeal.Fr.W4_arg1 m c),
      (h c _ (Cert.KernelIdeal.Fr.mem_uc Cert.KernelIdeal.main_arg2 (by decide))).trans (Cert.KernelIdeal.Fr.W4_arg2 m c),
      (h c _ (Cert.KernelIdeal.Fr.mem_uc Cert.KernelIdeal.main_arg3 (by decide))).trans (Cert.KernelIdeal.Fr.W4_arg3 m c),
      (h c _ (Cert.KernelIdeal.Fr.mem_uc Cert.KernelIdeal.main_arg4 (by decide))).trans (Cert.KernelIdeal.Fr.W4_arg4 m c),
      (h c _ (Cert.KernelIdeal.Fr.mem_uc Cert.KernelIdeal.main_arg5 (by decide))).trans (Cert.KernelIdeal.Fr.W4_arg5 m c),
      (h c _ (Cert.KernelIdeal.Fr.mem_uc Cert.KernelIdeal.main_arg6 (by decide))).trans (Cert.KernelIdeal.Fr.W4_arg6 m c),
      (h c _ (Cert.KernelIdeal.Fr.mem_uc Cert.KernelIdeal.main_arg7 (by decide))).trans (Cert.KernelIdeal.Fr.W4_arg7 m c)⟩)
      (Cert.KernelIdeal.Fr.run_all m ρ)
  · refine (θ_run Cert.ReferenceIdeal.defs _ _).mono (fun _ h c => ⟨(h c).1.trans ?_, (h c).2⟩)
      (Cert.ReferenceIdeal.Value.run (F := Ideal) m' ρ')
    have hres := Cert.ReferenceIdeal.RefValue.res_eq m' c
    rw [(hagree c).1, (hagree c).2.1, (hagree c).2.2.1, (hagree c).2.2.2.1, (hagree c).2.2.2.2.1, (hagree c).2.2.2.2.2.1, (hagree c).2.2.2.2.2.2.1, (hagree c).2.2.2.2.2.2.2] at hres
    refine hres.trans (funext fun _ => (Cert.Spec.resK_eq_resR _ _ _ fun j d => ?_).symm)
    exact Cert.Proof.Finite.arg1_real m hpre c (ix2 j d)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
